-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S128x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x3 : Shape := ⟨2, ![1024, 3]⟩
abbrev S2000x64 : Shape := ⟨2, ![2000, 64]⟩
abbrev S2000x6 : Shape := ⟨2, ![2000, 6]⟩
abbrev S1000x64 : Shape := ⟨2, ![1000, 64]⟩
abbrev S1000x6 : Shape := ⟨2, ![1000, 6]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S2000x64 : S_.BroadcastsInDim S2000x64 (![] : Fin 0 → Fin S2000x64.rank)
  reducesTo_S2000x64_S_d0_1 : S2000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S2000x6 : S_.BroadcastsInDim S2000x6 (![] : Fin 0 → Fin S2000x6.rank)
  reducesTo_S2000x6_S_d0_1 : S2000x6.ReducesTo [0, 1] S_
  bcast_S_S1000x6 : S_.BroadcastsInDim S1000x6 (![] : Fin 0 → Fin S1000x6.rank)
  reducesTo_S1000x6_S_d0_1 : S1000x6.ReducesTo [0, 1] S_

variable [Facts]

def fn_part2 {F : FTy → Type} [FloatOps F] (main_v30 : IVec S_ 1) (main_v32 : IVec S1000x6 1) : IVec S_ 1 :=
  let main_c_13 : IVec S_ 1 := constantI S_ 1 1#1
  let main_v33 : IVec S_ 1 := (fun x v => Host.reduce IntOp.andi x v reducesTo_S1000x6_S_d0_1 h_S_) main_v32 main_c_13
  let main_v34 : IVec S_ 1 := andi main_v30 main_v33
  main_v34

def fn_part1 {F : FTy → Type} [FloatOps F] (main_arg3 : IVec S2000x6 32) (main_arg5 : IVec S1000x6 32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_c_6 : IVec S_ 32 := constantI S_ 32 0#32
  let main_v19 : IVec S2000x6 32 := broadcastInDim S2000x6 ![] bcast_S_S2000x6 main_c_6
  let main_v20 : IVec S2000x6 1 := cmpi .sge main_arg3 main_v19
  let main_c_7 : IVec S_ 1 := constantI S_ 1 1#1
  let main_v21 : IVec S_ 1 := (fun x v => Host.reduce IntOp.andi x v reducesTo_S2000x6_S_d0_1 h_S_) main_v20 main_c_7
  let main_v22 : IVec S_ 1 := andi main_v18 main_v21
  let main_c_8 : IVec S_ 32 := constantI S_ 32 3072#32
  let main_v23 : IVec S2000x6 32 := broadcastInDim S2000x6 ![] bcast_S_S2000x6 main_c_8
  let main_v24 : IVec S2000x6 1 := cmpi .slt main_arg3 main_v23
  let main_c_9 : IVec S_ 1 := constantI S_ 1 1#1
  let main_v25 : IVec S_ 1 := (fun x v => Host.reduce IntOp.andi x v reducesTo_S2000x6_S_d0_1 h_S_) main_v24 main_c_9
  let main_v26 : IVec S_ 1 := andi main_v22 main_v25
  let main_c_10 : IVec S_ 32 := constantI S_ 32 0#32
  let main_v27 : IVec S1000x6 32 := broadcastInDim S1000x6 ![] bcast_S_S1000x6 main_c_10
  let main_v28 : IVec S1000x6 1 := cmpi .sge main_arg5 main_v27
  let main_c_11 : IVec S_ 1 := constantI S_ 1 1#1
  let main_v29 : IVec S_ 1 := (fun x v => Host.reduce IntOp.andi x v reducesTo_S1000x6_S_d0_1 h_S_) main_v28 main_c_11
  let main_v30 : IVec S_ 1 := andi main_v26 main_v29
  let main_c_12 : IVec S_ 32 := constantI S_ 32 2000#32
  let main_v31 : IVec S1000x6 32 := broadcastInDim S1000x6 ![] bcast_S_S1000x6 main_c_12
  let main_v32 : IVec S1000x6 1 := cmpi .slt main_arg5 main_v31
  fn_part2 (F := F) main_v30 main_v32

def fn {F : FTy → Type} [FloatOps F] (main_arg0 : FVec F S512x1024 .f32) (main_arg1 : FVec F S1024x3 .f32) (main_arg2 : FVec F S2000x64 .f32) (main_arg3 : IVec S2000x6 32) (main_arg4 : FVec F S1000x64 .f32) (main_arg5 : IVec S1000x6 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S2000x64 .f32 := Host.absf main_arg2
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  let main_v14 : FVec F S1000x64 .f32 := Host.absf main_arg4
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg3 main_arg5 main_v13 main_v16
-- ==== Kernel.lean ====
abbrev S512x1024 : Shape := ⟨2, ![512, 1024]⟩
abbrev S1024x3 : Shape := ⟨2, ![1024, 3]⟩
abbrev S2000x64 : Shape := ⟨2, ![2000, 64]⟩
abbrev S2000x6 : Shape := ⟨2, ![2000, 6]⟩
abbrev S1000x64 : Shape := ⟨2, ![1000, 64]⟩
abbrev S1000x6 : Shape := ⟨2, ![1000, 6]⟩
abbrev S512x1024x1 : Shape := ⟨3, ![512, 1024, 1]⟩
abbrev S1x1024x3 : Shape := ⟨3, ![1, 1024, 3]⟩
abbrev S512x1024x3 : Shape := ⟨3, ![512, 1024, 3]⟩
abbrev S512x3072 : Shape := ⟨2, ![512, 3072]⟩
abbrev S_ : Shape := ⟨0, ![]⟩
abbrev S2048x6 : Shape := ⟨2, ![2048, 6]⟩
abbrev S2048x64 : Shape := ⟨2, ![2048, 64]⟩
abbrev S64x2048 : Shape := ⟨2, ![64, 2048]⟩
abbrev S512x2048 : Shape := ⟨2, ![512, 2048]⟩
abbrev S128x3072 : Shape := ⟨2, ![128, 3072]⟩
abbrev S256x6 : Shape := ⟨2, ![256, 6]⟩
abbrev S64x256 : Shape := ⟨2, ![64, 256]⟩
abbrev S128x256 : Shape := ⟨2, ![128, 256]⟩
abbrev S3072x256 : Shape := ⟨2, ![3072, 256]⟩
abbrev S256x1 : Shape := ⟨2, ![256, 1]⟩
abbrev S256 : Shape := ⟨1, ![256]⟩
abbrev S1x256 : Shape := ⟨2, ![1, 256]⟩
abbrev S128x1x256 : Shape := ⟨3, ![128, 1, 256]⟩
abbrev S128x2x256 : Shape := ⟨3, ![128, 2, 256]⟩
abbrev S128x4x256 : Shape := ⟨3, ![128, 4, 256]⟩
abbrev S128x8x256 : Shape := ⟨3, ![128, 8, 256]⟩
abbrev S128x16x256 : Shape := ⟨3, ![128, 16, 256]⟩
abbrev S128x32x256 : Shape := ⟨3, ![128, 32, 256]⟩
abbrev S128x64x256 : Shape := ⟨3, ![128, 64, 256]⟩
abbrev S1x64x256 : Shape := ⟨3, ![1, 64, 256]⟩
abbrev S1024x6 : Shape := ⟨2, ![1024, 6]⟩
abbrev S1024x64 : Shape := ⟨2, ![1024, 64]⟩
abbrev S64x1024 : Shape := ⟨2, ![64, 1024]⟩
abbrev S128x2048 : Shape := ⟨2, ![128, 2048]⟩
abbrev S2048x256 : Shape := ⟨2, ![2048, 256]⟩
abbrev S512x1000 : Shape := ⟨2, ![512, 1000]⟩
abbrev S512x10x100 : Shape := ⟨3, ![512, 10, 100]⟩
abbrev S512x10 : Shape := ⟨2, ![512, 10]⟩

abbrev nBuf : Space → Nat
  | .hbm => 36
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S1024x3, .f32⟩
  | .hbm, ⟨2, _⟩ => ⟨S2000x64, .f32⟩
  | .hbm, ⟨3, _⟩ => ⟨S2000x6, .i32⟩
  | .hbm, ⟨4, _⟩ => ⟨S1000x64, .f32⟩
  | .hbm, ⟨5, _⟩ => ⟨S1000x6, .i32⟩
  | .hbm, ⟨6, _⟩ => ⟨S512x1024x1, .f32⟩
  | .hbm, ⟨7, _⟩ => ⟨S1x1024x3, .f32⟩
  | .hbm, ⟨8, _⟩ => ⟨S512x1024x3, .f32⟩
  | .hbm, ⟨9, _⟩ => ⟨S512x1024x3, .f32⟩
  | .hbm, ⟨10, _⟩ => ⟨S512x1024x3, .i1⟩
  | .hbm, ⟨11, _⟩ => ⟨S512x1024x3, .bf16⟩
  | .hbm, ⟨12, _⟩ => ⟨S512x3072, .bf16⟩
  | .hbm, ⟨13, _⟩ => ⟨S_, .i32⟩
  | .hbm, ⟨14, _⟩ => ⟨S_, .i32⟩
  | .hbm, ⟨15, _⟩ => ⟨S2048x6, .i32⟩
  | .hbm, ⟨16, _⟩ => ⟨S_, .i32⟩
  | .hbm, ⟨17, _⟩ => ⟨S_, .f32⟩
  | .hbm, ⟨18, _⟩ => ⟨S2048x64, .f32⟩
  | .hbm, ⟨19, _⟩ => ⟨S64x2048, .f32⟩
  | .hbm, ⟨20, _⟩ => ⟨S512x2048, .f32⟩
  | .hbm, ⟨21, _⟩ => ⟨S_, .i32⟩
  | .hbm, ⟨22, _⟩ => ⟨S_, .i32⟩
  | .hbm, ⟨23, _⟩ => ⟨S1024x6, .i32⟩
  | .hbm, ⟨24, _⟩ => ⟨S_, .i32⟩
  | .hbm, ⟨25, _⟩ => ⟨S_, .f32⟩
  | .hbm, ⟨26, _⟩ => ⟨S1024x64, .f32⟩
  | .hbm, ⟨27, _⟩ => ⟨S64x1024, .f32⟩
  | .hbm, ⟨28, _⟩ => ⟨S512x1024, .f32⟩
  | .hbm, ⟨29, _⟩ => ⟨S512x1000, .f32⟩
  | .hbm, ⟨30, _⟩ => ⟨S512x10x100, .f32⟩
  | .hbm, ⟨31, _⟩ => ⟨S_, .f32⟩
  | .hbm, ⟨32, _⟩ => ⟨S512x10, .f32⟩
  | .hbm, ⟨33, _⟩ => ⟨S_, .f32⟩
  | .hbm, ⟨34, _⟩ => ⟨S512x10, .f32⟩
  | .hbm, ⟨35, _⟩ => ⟨S512x10, .f32⟩
  | .local _ .vmem, ⟨0, _⟩ => ⟨S128x3072, .bf16⟩
  | .local _ .vmem, ⟨1, _⟩ => ⟨S128x3072, .bf16⟩
  | .local _ .vmem, ⟨2, _⟩ => ⟨S256x6, .i32⟩
  | .local _ .vmem, ⟨3, _⟩ => ⟨S256x6, .i32⟩
  | .local _ .vmem, ⟨4, _⟩ => ⟨S64x256, .f32⟩
  | .local _ .vmem, ⟨5, _⟩ => ⟨S64x256, .f32⟩
  | .local _ .vmem, ⟨6, _⟩ => ⟨S128x256, .f32⟩
  | .local _ .vmem, ⟨7, _⟩ => ⟨S128x256, .f32⟩
  | .local _ .vmem, ⟨8, _⟩ => ⟨S128x2048, .f32⟩
  | .local _ .vmem, ⟨9, _⟩ => ⟨S128x2048, .f32⟩
  | .local _ .vmem, ⟨10, _⟩ => ⟨S256x6, .i32⟩
  | .local _ .vmem, ⟨11, _⟩ => ⟨S256x6, .i32⟩
  | .local _ .vmem, ⟨12, _⟩ => ⟨S64x256, .f32⟩
  | .local _ .vmem, ⟨13, _⟩ => ⟨S64x256, .f32⟩
  | .local _ .vmem, ⟨14, _⟩ => ⟨S128x256, .f32⟩
  | .local _ .vmem, ⟨15, _⟩ => ⟨S128x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call2_v0 : Ref sig .tc := ⟨.hbm, 22, rfl⟩
abbrev main_v11 : Ref sig .tc := ⟨.hbm, 23, rfl⟩
abbrev main_c_2 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x6 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x6 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S512x1024_S512x1024x1_0_1 : S512x1024.BroadcastsInDim S512x1024x1 (![0, 1] : Fin 2 → Fin S512x1024x1.rank)
  bcast_S1024x3_S1x1024x3_1_2 : S1024x3.BroadcastsInDim S1x1024x3 (![1, 2] : Fin 2 → Fin S1x1024x3.rank)
  bcast_S512x1024x1_S512x1024x3_0_1_2 : S512x1024x1.BroadcastsInDim S512x1024x3 (![0, 1, 2] : Fin 3 → Fin S512x1024x3.rank)
  bcast_S1x1024x3_S512x1024x3_0_1_2 : S1x1024x3.BroadcastsInDim S512x1024x3 (![0, 1, 2] : Fin 3 → Fin S512x1024x3.rank)
  shapeCasts_S512x1024x3_S512x3072 : S512x1024x3.ShapeCasts S512x3072
  pads_S2000x6_S2048x6_0480_000 : S2000x6.Pads (![0, 0] : Fin 2 → Nat) ![48, 0] ![0, 0] S2048x6
  h_S_ : 0 < S_.numel
  pads_S2000x64_S2048x64_0480_000 : S2000x64.Pads (![0, 0] : Fin 2 → Nat) ![48, 0] ![0, 0] S2048x64
  transposes_S2048x64_S64x2048_1_0 : S2048x64.Transposes [1, 0] S64x2048
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S256x6_S256x6_0_0 : ∀ a, (![0, 0] : Fin 2 → Nat) a + S256x6.size a ≤ S256x6.size a
  h_S256x6 : 0 < S256x6.numel
  shapeCasts_S256x6_S256x6 : S256x6.ShapeCasts S256x6
  inb_S64x256_S64x256_0_0 : ∀ a, (![0, 0] : Fin 2 → Nat) a + S64x256.size a ≤ S64x256.size a
  h_S64x256 : 0 < S64x256.numel
  shapeCasts_S64x256_S64x256 : S64x256.ShapeCasts S64x256
  iota_S3072x256_d0_w32 : S3072x256.Iotas .tc 32 [0]
  slices_S256x6_o0_0_S256x1 : S256x6.Slices ![0, 0] S256x1
  shapeCasts_S256x1_S256 : S256x1.ShapeCasts S256
  shapeCasts_S256_S1x256 : S256.ShapeCasts S1x256
  broadcasts_S1x256_S3072x256 : S1x256.Broadcasts S3072x256
  natLt_1_32 : 1 < 32
  bitsLt_bf16_f32 : FTy.bits .bf16 < FTy.bits .f32
  slices_S256x6_o0_1_S256x1 : S256x6.Slices ![0, 1] S256x1
  slices_S256x6_o0_2_S256x1 : S256x6.Slices ![0, 2] S256x1
  slices_S256x6_o0_3_S256x1 : S256x6.Slices ![0, 3] S256x1
  slices_S256x6_o0_4_S256x1 : S256x6.Slices ![0, 4] S256x1
  slices_S256x6_o0_5_S256x1 : S256x6.Slices ![0, 5] S256x1
  shapeCasts_S128x256_S128x1x256 : S128x256.ShapeCasts S128x1x256
  concatenates_S128x1x256_S128x1x256_S128x2x256_d1 : Shape.Concatenates [S128x1x256, S128x1x256] S128x2x256 1
  broadcasts_S128x1x256_S128x2x256 : S128x1x256.Broadcasts S128x2x256
  concatenates_S128x2x256_S128x2x256_S128x4x256_d1 : Shape.Concatenates [S128x2x256, S128x2x256] S128x4x256 1
  broadcasts_S128x1x256_S128x4x256 : S128x1x256.Broadcasts S128x4x256
  concatenates_S128x4x256_S128x4x256_S128x8x256_d1 : Shape.Concatenates [S128x4x256, S128x4x256] S128x8x256 1
  broadcasts_S128x1x256_S128x8x256 : S128x1x256.Broadcasts S128x8x256
  concatenates_S128x8x256_S128x8x256_S128x16x256_d1 : Shape.Concatenates [S128x8x256, S128x8x256] S128x16x256 1
  broadcasts_S128x1x256_S128x16x256 : S128x1x256.Broadcasts S128x16x256
  concatenates_S128x16x256_S128x16x256_S128x32x256_d1 : Shape.Concatenates [S128x16x256, S128x16x256] S128x32x256 1
  broadcasts_S128x1x256_S128x32x256 : S128x1x256.Broadcasts S128x32x256
  concatenates_S128x32x256_S128x32x256_S128x64x256_d1 : Shape.Concatenates [S128x32x256, S128x32x256] S128x64x256 1
  shapeCasts_S64x256_S1x64x256 : S64x256.ShapeCasts S1x64x256
  broadcasts_S1x64x256_S128x64x256 : S1x64x256.Broadcasts S128x64x256
  reduces_S128x64x256_S128x256 : S128x64x256.Reduces [1] S128x256
  inb_S128x256_S128x256_0_0 : ∀ a, (![0, 0] : Fin 2 → Nat) a + S128x256.size a ≤ S128x256.size a
  h_S128x256 : 0 < S128x256.numel
  pads_S1000x6_S1024x6_0240_000 : S1000x6.Pads (![0, 0] : Fin 2 → Nat) ![24, 0] ![0, 0] S1024x6
  pads_S1000x64_S1024x64_0240_000 : S1000x64.Pads (![0, 0] : Fin 2 → Nat) ![24, 0] ![0, 0] S1024x64
  transposes_S1024x64_S64x1024_1_0 : S1024x64.Transposes [1, 0] S64x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  iota_S2048x256_d0_w32 : S2048x256.Iotas .tc 32 [0]
  broadcasts_S1x256_S2048x256 : S1x256.Broadcasts S2048x256
  slices_S512x1024_S512x1000_0_0 : S512x1024.Slices ![0, 0] S512x1000
  shapeCasts_S512x1000_S512x10x100 : S512x1000.ShapeCasts S512x10x100
  reducesTo_S512x10x100_S512x10_d2 : S512x10x100.ReducesTo [2] S512x10
  bcast_S_S512x10 : S_.BroadcastsInDim S512x10 (![] : Fin 0 → Fin S512x10.rank)
  dot_S128x3072_S3072x256_S128x256_1_0_0_1_n_n_wf : DotDims.WF S128x3072 S3072x256 S128x256 [1] [0] [0] [1] [] []
  dot_S128x2048_S2048x256_S128x256_1_0_0_1_n_n_wf : DotDims.WF S128x2048 S2048x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3072.size a ≤ S512x3072.size a
  hwx0_0 : ∀ i : grid0.Coords, EltTy.bits .bf16 = 32 ∨ (Rect.block (s := S512x3072) S128x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6.size a ≤ S2048x6.size a
  hwx0_1 : ∀ i : grid0.Coords, EltTy.bits .i32 = 32 ∨ (Rect.block (s := S2048x6) S256x6.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x2048.size a
  hwx0_2 : ∀ i : grid0.Coords, EltTy.bits .f32 = 32 ∨ (Rect.block (s := S64x2048) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S512x2048.size a
  hwx0_3 : ∀ i : grid0.Coords, EltTy.bits .f32 = 32 ∨ (Rect.block (s := S512x2048) S128x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S512x2048.size a
  hwx1_0 : ∀ i : grid1.Coords, EltTy.bits .f32 = 32 ∨ (Rect.block (s := S512x2048) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x6.size a ≤ S1024x6.size a
  hwx1_1 : ∀ i : grid1.Coords, EltTy.bits .i32 = 32 ∨ (Rect.block (s := S1024x6) S256x6.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x1024.size a
  hwx1_2 : ∀ i : grid1.Coords, EltTy.bits .f32 = 32 ∨ (Rect.block (s := S64x1024) S64x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S512x1024.size a
  hwx1_3 : ∀ i : grid1.Coords, EltTy.bits .f32 = 32 ∨ (Rect.block (s := S512x1024) S128x256.size (cc1_transform_3 i) (hinb1_3 i)).WholeWords (EltTy.packing .f32)

variable [Facts₀]

def dot_S128x3072_S3072x256_S128x256_1_0_0_1_n_n : DotDims S128x3072 S3072x256 S128x256 where
  lhsContracting := [1]
  rhsContracting := [0]
  lhsNonContracting := [0]
  rhsNonContracting := [1]
  lhsBatch := []
  rhsBatch := []
  wf := dot_S128x3072_S3072x256_S128x256_1_0_0_1_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf

abbrev win0_0 : Pipeline.Window sig grid0 :=
  Pipeline.Window.ofSpec (Memref.whole main_v6) S128x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S256x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x1024 : Shape := ⟨2, ![512, 1024]⟩
abbrev S1024x3 : Shape := ⟨2, ![1024, 3]⟩
abbrev S2000x64 : Shape := ⟨2, ![2000, 64]⟩
abbrev S2000x6 : Shape := ⟨2, ![2000, 6]⟩
abbrev S1000x64 : Shape := ⟨2, ![1000, 64]⟩
abbrev S1000x6 : Shape := ⟨2, ![1000, 6]⟩
abbrev S512x1024x1 : Shape := ⟨3, ![512, 1024, 1]⟩
abbrev S1x1024x3 : Shape := ⟨3, ![1, 1024, 3]⟩
abbrev S512x1024x3 : Shape := ⟨3, ![512, 1024, 3]⟩
abbrev S512x3072 : Shape := ⟨2, ![512, 3072]⟩
abbrev S_ : Shape := ⟨0, ![]⟩
abbrev S2000x6x1 : Shape := ⟨3, ![2000, 6, 1]⟩
abbrev S512x2000x6 : Shape := ⟨3, ![512, 2000, 6]⟩
abbrev S1x2000x64 : Shape := ⟨3, ![1, 2000, 64]⟩
abbrev S512x2000x64 : Shape := ⟨3, ![512, 2000, 64]⟩
abbrev S512x2000x1 : Shape := ⟨3, ![512, 2000, 1]⟩
abbrev S512x2000x32 : Shape := ⟨3, ![512, 2000, 32]⟩
abbrev S512x2000x16 : Shape := ⟨3, ![512, 2000, 16]⟩
abbrev S512x2000x8 : Shape := ⟨3, ![512, 2000, 8]⟩
abbrev S512x2000x4 : Shape := ⟨3, ![512, 2000, 4]⟩
abbrev S512x2000x2 : Shape := ⟨3, ![512, 2000, 2]⟩
abbrev S512x2000 : Shape := ⟨2, ![512, 2000]⟩
abbrev S1000x6x1 : Shape := ⟨3, ![1000, 6, 1]⟩
abbrev S512x1000x6 : Shape := ⟨3, ![512, 1000, 6]⟩
abbrev S1x1000x64 : Shape := ⟨3, ![1, 1000, 64]⟩
abbrev S512x1000x64 : Shape := ⟨3, ![512, 1000, 64]⟩
abbrev S512x1000x1 : Shape := ⟨3, ![512, 1000, 1]⟩
abbrev S512x1000x32 : Shape := ⟨3, ![512, 1000, 32]⟩
abbrev S512x1000x16 : Shape := ⟨3, ![512, 1000, 16]⟩
abbrev S512x1000x8 : Shape := ⟨3, ![512, 1000, 8]⟩
abbrev S512x1000x4 : Shape := ⟨3, ![512, 1000, 4]⟩
abbrev S512x1000x2 : Shape := ⟨3, ![512, 1000, 2]⟩
abbrev S512x1000 : Shape := ⟨2, ![512, 1000]⟩
abbrev S512x10x100 : Shape := ⟨3, ![512, 10, 100]⟩
abbrev S512x10 : Shape := ⟨2, ![512, 10]⟩

abbrev nBuf : Space → Nat
  | .hbm => 171
  | .vmem => 0
  | .smem => 0
  | _ => 0

abbrev hbmTy0_0 (i : Nat) : BufTy := match i % 128 with
  | 0 => ⟨S512x1024, .f32⟩
  | 1 => ⟨S1024x3, .f32⟩
  | 2 => ⟨S2000x64, .f32⟩
  | 3 => ⟨S2000x6, .i32⟩
  | 4 => ⟨S1000x64, .f32⟩
  | 5 => ⟨S1000x6, .i32⟩
  | 6 => ⟨S512x1024x1, .f32⟩
  | 7 => ⟨S1x1024x3, .f32⟩
  | 8 => ⟨S512x1024x3, .f32⟩
  | 9 => ⟨S512x1024x3, .f32⟩
  | 10 => ⟨S512x1024x3, .i1⟩
  | 11 => ⟨S512x1024x3, .f32⟩
  | 12 => ⟨S512x3072, .f32⟩
  | 13 => ⟨S_, .i32⟩
  | 14 => ⟨S2000x6, .i32⟩
  | 15 => ⟨S2000x6, .i1⟩
  | 16 => ⟨S_, .i32⟩
  | 17 => ⟨S2000x6, .i32⟩
  | 18 => ⟨S2000x6, .i32⟩
  | 19 => ⟨S2000x6, .i32⟩
  | 20 => ⟨S2000x6x1, .i32⟩
  | 21 => ⟨S512x2000x6, .f32⟩
  | 22 => ⟨S1x2000x64, .f32⟩
  | 23 => ⟨S512x2000x64, .f32⟩
  | 24 => ⟨S512x2000x1, .f32⟩
  | 25 => ⟨S512x2000x32, .f32⟩
  | 26 => ⟨S_, .f32⟩
  | 27 => ⟨S512x2000x1, .f32⟩
  | 28 => ⟨S512x2000x1, .f32⟩
  | 29 => ⟨S512x2000x32, .f32⟩
  | 30 => ⟨S512x2000x32, .f32⟩
  | 31 => ⟨S512x2000x32, .f32⟩
  | 32 => ⟨S512x2000x32, .f32⟩
  | 33 => ⟨S512x2000x32, .f32⟩
  | 34 => ⟨S512x2000x32, .f32⟩
  | 35 => ⟨S512x2000x1, .f32⟩
  | 36 => ⟨S512x2000x16, .f32⟩
  | 37 => ⟨S_, .f32⟩
  | 38 => ⟨S512x2000x1, .f32⟩
  | 39 => ⟨S512x2000x1, .f32⟩
  | 40 => ⟨S512x2000x16, .f32⟩
  | 41 => ⟨S512x2000x16, .f32⟩
  | 42 => ⟨S512x2000x16, .f32⟩
  | 43 => ⟨S512x2000x16, .f32⟩
  | 44 => ⟨S512x2000x16, .f32⟩
  | 45 => ⟨S512x2000x16, .f32⟩
  | 46 => ⟨S512x2000x1, .f32⟩
  | 47 => ⟨S512x2000x8, .f32⟩
  | 48 => ⟨S_, .f32⟩
  | 49 => ⟨S512x2000x1, .f32⟩
  | 50 => ⟨S512x2000x1, .f32⟩
  | 51 => ⟨S512x2000x8, .f32⟩
  | 52 => ⟨S512x2000x8, .f32⟩
  | 53 => ⟨S512x2000x8, .f32⟩
  | 54 => ⟨S512x2000x8, .f32⟩
  | 55 => ⟨S512x2000x8, .f32⟩
  | 56 => ⟨S512x2000x8, .f32⟩
  | 57 => ⟨S512x2000x1, .f32⟩
  | 58 => ⟨S512x2000x4, .f32⟩
  | 59 => ⟨S_, .f32⟩
  | 60 => ⟨S512x2000x1, .f32⟩
  | 61 => ⟨S512x2000x1, .f32⟩
  | 62 => ⟨S512x2000x4, .f32⟩
  | 63 => ⟨S512x2000x4, .f32⟩
  | 64 => ⟨S512x2000x4, .f32⟩
  | 65 => ⟨S512x2000x4, .f32⟩
  | 66 => ⟨S512x2000x4, .f32⟩
  | 67 => ⟨S512x2000x4, .f32⟩
  | 68 => ⟨S512x2000x1, .f32⟩
  | 69 => ⟨S512x2000x2, .f32⟩
  | 70 => ⟨S_, .f32⟩
  | 71 => ⟨S512x2000x1, .f32⟩
  | 72 => ⟨S512x2000x1, .f32⟩
  | 73 => ⟨S512x2000x2, .f32⟩
  | 74 => ⟨S512x2000x2, .f32⟩
  | 75 => ⟨S512x2000x2, .f32⟩
  | 76 => ⟨S512x2000x2, .f32⟩
  | 77 => ⟨S512x2000x2, .f32⟩
  | 78 => ⟨S512x2000x2, .f32⟩
  | 79 => ⟨S512x2000x1, .f32⟩
  | 80 => ⟨S512x2000x1, .f32⟩
  | 81 => ⟨S_, .f32⟩
  | 82 => ⟨S512x2000x1, .f32⟩
  | 83 => ⟨S512x2000x1, .f32⟩
  | 84 => ⟨S512x2000x1, .f32⟩
  | 85 => ⟨S512x2000x1, .f32⟩
  | 86 => ⟨S512x2000x1, .f32⟩
  | 87 => ⟨S512x2000x1, .f32⟩
  | 88 => ⟨S512x2000, .f32⟩
  | 89 => ⟨S_, .i32⟩
  | 90 => ⟨S1000x6, .i32⟩
  | 91 => ⟨S1000x6, .i1⟩
  | 92 => ⟨S_, .i32⟩
  | 93 => ⟨S1000x6, .i32⟩
  | 94 => ⟨S1000x6, .i32⟩
  | 95 => ⟨S1000x6, .i32⟩
  | 96 => ⟨S1000x6x1, .i32⟩
  | 97 => ⟨S512x1000x6, .f32⟩
  | 98 => ⟨S1x1000x64, .f32⟩
  | 99 => ⟨S512x1000x64, .f32⟩
  | 100 => ⟨S512x1000x1, .f32⟩
  | 101 => ⟨S512x1000x32, .f32⟩
  | 102 => ⟨S_, .f32⟩
  | 103 => ⟨S512x1000x1, .f32⟩
  | 104 => ⟨S512x1000x1, .f32⟩
  | 105 => ⟨S512x1000x32, .f32⟩
  | 106 => ⟨S512x1000x32, .f32⟩
  | 107 => ⟨S512x1000x32, .f32⟩
  | 108 => ⟨S512x1000x32, .f32⟩
  | 109 => ⟨S512x1000x32, .f32⟩
  | 110 => ⟨S512x1000x32, .f32⟩
  | 111 => ⟨S512x1000x1, .f32⟩
  | 112 => ⟨S512x1000x16, .f32⟩
  | 113 => ⟨S_, .f32⟩
  | 114 => ⟨S512x1000x1, .f32⟩
  | 115 => ⟨S512x1000x1, .f32⟩
  | 116 => ⟨S512x1000x16, .f32⟩
  | 117 => ⟨S512x1000x16, .f32⟩
  | 118 => ⟨S512x1000x16, .f32⟩
  | 119 => ⟨S512x1000x16, .f32⟩
  | 120 => ⟨S512x1000x16, .f32⟩
  | 121 => ⟨S512x1000x16, .f32⟩
  | 122 => ⟨S512x1000x1, .f32⟩
  | 123 => ⟨S512x1000x8, .f32⟩
  | 124 => ⟨S_, .f32⟩
  | 125 => ⟨S512x1000x1, .f32⟩
  | 126 => ⟨S512x1000x1, .f32⟩
  | 127 => ⟨S512x1000x8, .f32⟩
  | _ => ⟨S512x1024, .f32⟩

abbrev hbmTy0_1 (i : Nat) : BufTy := match i % 128 with
  | 0 => ⟨S512x1000x8, .f32⟩
  | 1 => ⟨S512x1000x8, .f32⟩
  | 2 => ⟨S512x1000x8, .f32⟩
  | 3 => ⟨S512x1000x8, .f32⟩
  | 4 => ⟨S512x1000x8, .f32⟩
  | 5 => ⟨S512x1000x1, .f32⟩
  | 6 => ⟨S512x1000x4, .f32⟩
  | 7 => ⟨S_, .f32⟩
  | 8 => ⟨S512x1000x1, .f32⟩
  | 9 => ⟨S512x1000x1, .f32⟩
  | 10 => ⟨S512x1000x4, .f32⟩
  | 11 => ⟨S512x1000x4, .f32⟩
  | 12 => ⟨S512x1000x4, .f32⟩
  | 13 => ⟨S512x1000x4, .f32⟩
  | 14 => ⟨S512x1000x4, .f32⟩
  | 15 => ⟨S512x1000x4, .f32⟩
  | 16 => ⟨S512x1000x1, .f32⟩
  | 17 => ⟨S512x1000x2, .f32⟩
  | 18 => ⟨S_, .f32⟩
  | 19 => ⟨S512x1000x1, .f32⟩
  | 20 => ⟨S512x1000x1, .f32⟩
  | 21 => ⟨S512x1000x2, .f32⟩
  | 22 => ⟨S512x1000x2, .f32⟩
  | 23 => ⟨S512x1000x2, .f32⟩
  | 24 => ⟨S512x1000x2, .f32⟩
  | 25 => ⟨S512x1000x2, .f32⟩
  | 26 => ⟨S512x1000x2, .f32⟩
  | 27 => ⟨S512x1000x1, .f32⟩
  | 28 => ⟨S512x1000x1, .f32⟩
  | 29 => ⟨S_, .f32⟩
  | 30 => ⟨S512x1000x1, .f32⟩
  | 31 => ⟨S512x1000x1, .f32⟩
  | 32 => ⟨S512x1000x1, .f32⟩
  | 33 => ⟨S512x1000x1, .f32⟩
  | 34 => ⟨S512x1000x1, .f32⟩
  | 35 => ⟨S512x1000x1, .f32⟩
  | 36 => ⟨S512x1000, .f32⟩
  | 37 => ⟨S512x10x100, .f32⟩
  | 38 => ⟨S_, .f32⟩
  | 39 => ⟨S512x10, .f32⟩
  | 40 => ⟨S_, .f32⟩
  | 41 => ⟨S512x10, .f32⟩
  | 42 => ⟨S512x10, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_4 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_5 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c_6 : Ref sig .tc := ⟨.hbm, 89, rfl⟩
abbrev main_v75 : Ref sig .tc := ⟨.hbm, 90, rfl⟩
abbrev main_v76 : Ref sig .tc := ⟨.hbm, 91, rfl⟩
abbrev main_c_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_8 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_11 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_12 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_13 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_14 : Ref sig .tc := ⟨.hbm, 166, rfl⟩
abbrev main_v144 : Ref sig .tc := ⟨.hbm, 167, rfl⟩
abbrev main_cst_15 : Ref sig .tc := ⟨.hbm, 168, rfl⟩
abbrev main_v145 : Ref sig .tc := ⟨.hbm, 169, rfl⟩
abbrev main_v146 : Ref sig .tc := ⟨.hbm, 170, rfl⟩

abbrev nD : Nat := 1
abbrev τ : Topo := Topo.v7x

variable {F : FTy → Type} [FloatOps F]

class Facts₀ : Prop where
  bcast_S512x1024_S512x1024x1_0_1 : S512x1024.BroadcastsInDim S512x1024x1 (![0, 1] : Fin 2 → Fin S512x1024x1.rank)
  bcast_S1024x3_S1x1024x3_1_2 : S1024x3.BroadcastsInDim S1x1024x3 (![1, 2] : Fin 2 → Fin S1x1024x3.rank)
  bcast_S512x1024x1_S512x1024x3_0_1_2 : S512x1024x1.BroadcastsInDim S512x1024x3 (![0, 1, 2] : Fin 3 → Fin S512x1024x3.rank)
  bcast_S1x1024x3_S512x1024x3_0_1_2 : S1x1024x3.BroadcastsInDim S512x1024x3 (![0, 1, 2] : Fin 3 → Fin S512x1024x3.rank)
  shapeCasts_S512x1024x3_S512x3072 : S512x1024x3.ShapeCasts S512x3072
  bcast_S_S2000x6 : S_.BroadcastsInDim S2000x6 (![] : Fin 0 → Fin S2000x6.rank)
  bcast_S2000x6_S2000x6x1_0_1 : S2000x6.BroadcastsInDim S2000x6x1 (![0, 1] : Fin 2 → Fin S2000x6x1.rank)
  bcast_S2000x64_S1x2000x64_1_2 : S2000x64.BroadcastsInDim S1x2000x64 (![1, 2] : Fin 2 → Fin S1x2000x64.rank)
  bcast_S1x2000x64_S512x2000x64_0_1_2 : S1x2000x64.BroadcastsInDim S512x2000x64 (![0, 1, 2] : Fin 3 → Fin S512x2000x64.rank)
  slices_S512x2000x6_S512x2000x1_0_0_0 : S512x2000x6.Slices ![0, 0, 0] S512x2000x1
  slices_S512x2000x64_S512x2000x32_0_0_0 : S512x2000x64.Slices ![0, 0, 0] S512x2000x32
  bcast_S_S512x2000x1 : S_.BroadcastsInDim S512x2000x1 (![] : Fin 0 → Fin S512x2000x1.rank)
  bcast_S512x2000x1_S512x2000x32_0_1_2 : S512x2000x1.BroadcastsInDim S512x2000x32 (![0, 1, 2] : Fin 3 → Fin S512x2000x32.rank)
  slices_S512x2000x64_S512x2000x32_0_0_32 : S512x2000x64.Slices ![0, 0, 32] S512x2000x32
  slices_S512x2000x6_S512x2000x1_0_0_1 : S512x2000x6.Slices ![0, 0, 1] S512x2000x1
  slices_S512x2000x32_S512x2000x16_0_0_0 : S512x2000x32.Slices ![0, 0, 0] S512x2000x16
  bcast_S512x2000x1_S512x2000x16_0_1_2 : S512x2000x1.BroadcastsInDim S512x2000x16 (![0, 1, 2] : Fin 3 → Fin S512x2000x16.rank)
  slices_S512x2000x32_S512x2000x16_0_0_16 : S512x2000x32.Slices ![0, 0, 16] S512x2000x16
  slices_S512x2000x6_S512x2000x1_0_0_2 : S512x2000x6.Slices ![0, 0, 2] S512x2000x1
  slices_S512x2000x16_S512x2000x8_0_0_0 : S512x2000x16.Slices ![0, 0, 0] S512x2000x8
  bcast_S512x2000x1_S512x2000x8_0_1_2 : S512x2000x1.BroadcastsInDim S512x2000x8 (![0, 1, 2] : Fin 3 → Fin S512x2000x8.rank)
  slices_S512x2000x16_S512x2000x8_0_0_8 : S512x2000x16.Slices ![0, 0, 8] S512x2000x8
  slices_S512x2000x6_S512x2000x1_0_0_3 : S512x2000x6.Slices ![0, 0, 3] S512x2000x1
  slices_S512x2000x8_S512x2000x4_0_0_0 : S512x2000x8.Slices ![0, 0, 0] S512x2000x4
  bcast_S512x2000x1_S512x2000x4_0_1_2 : S512x2000x1.BroadcastsInDim S512x2000x4 (![0, 1, 2] : Fin 3 → Fin S512x2000x4.rank)
  slices_S512x2000x8_S512x2000x4_0_0_4 : S512x2000x8.Slices ![0, 0, 4] S512x2000x4
  slices_S512x2000x6_S512x2000x1_0_0_4 : S512x2000x6.Slices ![0, 0, 4] S512x2000x1
  slices_S512x2000x4_S512x2000x2_0_0_0 : S512x2000x4.Slices ![0, 0, 0] S512x2000x2
  bcast_S512x2000x1_S512x2000x2_0_1_2 : S512x2000x1.BroadcastsInDim S512x2000x2 (![0, 1, 2] : Fin 3 → Fin S512x2000x2.rank)
  slices_S512x2000x4_S512x2000x2_0_0_2 : S512x2000x4.Slices ![0, 0, 2] S512x2000x2
  slices_S512x2000x6_S512x2000x1_0_0_5 : S512x2000x6.Slices ![0, 0, 5] S512x2000x1
  slices_S512x2000x2_S512x2000x1_0_0_0 : S512x2000x2.Slices ![0, 0, 0] S512x2000x1
  slices_S512x2000x2_S512x2000x1_0_0_1 : S512x2000x2.Slices ![0, 0, 1] S512x2000x1
  shapeCasts_S512x2000x1_S512x2000 : S512x2000x1.ShapeCasts S512x2000
  bcast_S_S1000x6 : S_.BroadcastsInDim S1000x6 (![] : Fin 0 → Fin S1000x6.rank)
  bcast_S1000x6_S1000x6x1_0_1 : S1000x6.BroadcastsInDim S1000x6x1 (![0, 1] : Fin 2 → Fin S1000x6x1.rank)
  bcast_S1000x64_S1x1000x64_1_2 : S1000x64.BroadcastsInDim S1x1000x64 (![1, 2] : Fin 2 → Fin S1x1000x64.rank)
  bcast_S1x1000x64_S512x1000x64_0_1_2 : S1x1000x64.BroadcastsInDim S512x1000x64 (![0, 1, 2] : Fin 3 → Fin S512x1000x64.rank)
  slices_S512x1000x6_S512x1000x1_0_0_0 : S512x1000x6.Slices ![0, 0, 0] S512x1000x1
  slices_S512x1000x64_S512x1000x32_0_0_0 : S512x1000x64.Slices ![0, 0, 0] S512x1000x32
  bcast_S_S512x1000x1 : S_.BroadcastsInDim S512x1000x1 (![] : Fin 0 → Fin S512x1000x1.rank)
  bcast_S512x1000x1_S512x1000x32_0_1_2 : S512x1000x1.BroadcastsInDim S512x1000x32 (![0, 1, 2] : Fin 3 → Fin S512x1000x32.rank)
  slices_S512x1000x64_S512x1000x32_0_0_32 : S512x1000x64.Slices ![0, 0, 32] S512x1000x32
  slices_S512x1000x6_S512x1000x1_0_0_1 : S512x1000x6.Slices ![0, 0, 1] S512x1000x1
  slices_S512x1000x32_S512x1000x16_0_0_0 : S512x1000x32.Slices ![0, 0, 0] S512x1000x16
  bcast_S512x1000x1_S512x1000x16_0_1_2 : S512x1000x1.BroadcastsInDim S512x1000x16 (![0, 1, 2] : Fin 3 → Fin S512x1000x16.rank)
  slices_S512x1000x32_S512x1000x16_0_0_16 : S512x1000x32.Slices ![0, 0, 16] S512x1000x16
  slices_S512x1000x6_S512x1000x1_0_0_2 : S512x1000x6.Slices ![0, 0, 2] S512x1000x1
  slices_S512x1000x16_S512x1000x8_0_0_0 : S512x1000x16.Slices ![0, 0, 0] S512x1000x8
  bcast_S512x1000x1_S512x1000x8_0_1_2 : S512x1000x1.BroadcastsInDim S512x1000x8 (![0, 1, 2] : Fin 3 → Fin S512x1000x8.rank)
  slices_S512x1000x16_S512x1000x8_0_0_8 : S512x1000x16.Slices ![0, 0, 8] S512x1000x8
  slices_S512x1000x6_S512x1000x1_0_0_3 : S512x1000x6.Slices ![0, 0, 3] S512x1000x1
  slices_S512x1000x8_S512x1000x4_0_0_0 : S512x1000x8.Slices ![0, 0, 0] S512x1000x4
  bcast_S512x1000x1_S512x1000x4_0_1_2 : S512x1000x1.BroadcastsInDim S512x1000x4 (![0, 1, 2] : Fin 3 → Fin S512x1000x4.rank)
  slices_S512x1000x8_S512x1000x4_0_0_4 : S512x1000x8.Slices ![0, 0, 4] S512x1000x4
  slices_S512x1000x6_S512x1000x1_0_0_4 : S512x1000x6.Slices ![0, 0, 4] S512x1000x1
  slices_S512x1000x4_S512x1000x2_0_0_0 : S512x1000x4.Slices ![0, 0, 0] S512x1000x2
  bcast_S512x1000x1_S512x1000x2_0_1_2 : S512x1000x1.BroadcastsInDim S512x1000x2 (![0, 1, 2] : Fin 3 → Fin S512x1000x2.rank)
  slices_S512x1000x4_S512x1000x2_0_0_2 : S512x1000x4.Slices ![0, 0, 2] S512x1000x2
  slices_S512x1000x6_S512x1000x1_0_0_5 : S512x1000x6.Slices ![0, 0, 5] S512x1000x1
  slices_S512x1000x2_S512x1000x1_0_0_0 : S512x1000x2.Slices ![0, 0, 0] S512x1000x1
  slices_S512x1000x2_S512x1000x1_0_0_1 : S512x1000x2.Slices ![0, 0, 1] S512x1000x1
  shapeCasts_S512x1000x1_S512x1000 : S512x1000x1.ShapeCasts S512x1000
  shapeCasts_S512x1000_S512x10x100 : S512x1000.ShapeCasts S512x10x100
  reducesTo_S512x10x100_S512x10_d2 : S512x10x100.ReducesTo [2] S512x10
  h_S_ : 0 < S_.numel
  bcast_S_S512x10 : S_.BroadcastsInDim S512x10 (![] : Fin 0 → Fin S512x10.rank)
  gather_S512x3072_S2000x6x1_S512x2000x6_0_1_n_n_1_2_5121_wf : GatherDims.WF S512x3072 S2000x6x1 S512x2000x6 [0] [1] [] [1] [] 2 ![512, 1]
  gather_S512x2000_S1000x6x1_S512x1000x6_0_1_n_n_1_2_5121_wf : GatherDims.WF S512x2000 S1000x6x1 S512x1000x6 [0] [1] [] [1] [] 2 ![512, 1]

variable [Facts₀]

def gather_S512x3072_S2000x6x1_S512x2000x6_0_1_n_n_1_2_5121 : GatherDims S512x3072 S2000x6x1 S512x2000x6 where
  offsetDims := [0]
  collapsedSliceDims := [1]
  operandBatchingDims := []
  startIndicesBatchingDims := []
  startIndexMap := [1]
  indexVectorDim := 2
  sliceSizes := ![512, 1]
  wf := gather_S512x3072_S2000x6x1_S512x2000x6_0_1_n_n_1_2_5121_wf
def gather_S512x2000_S1000x6x1_S512x1000x6_0_1_n_n_1_2_5121 : GatherDims S512x2000 S1000x6x1 S512x1000x6 where
  offsetDims := [0]
  collapsedSliceDims := [1]
  operandBatchingDims := []
  startIndicesBatchingDims := []
  startIndexMap := [1]
  indexVectorDim := 2
  sliceSizes := ![512, 1]
  wf := gather_S512x2000_S1000x6x1_S512x1000x6_0_1_n_n_1_2_5121_wf

class Facts : Prop extends Facts₀ where

variable [Facts]
-- ==== Proof.Interp.lean ====
/-
  Multilinear interpolation over the 64 corners of a 6-cube, written two ways, over the reals.

  A look-up table `L` with 64 entries is interpolated at six coordinates `x 0 … x 5`; corner `c` carries, for every
  bit position `p` of `c`, the factor `x (5 - p)` when the bit is set and `1 - x (5 - p)` when it is clear.

  * The kernel builds the 64 corner weights by DOUBLING: from the single weight 1, for `k = 5, 4, …, 0` the weight
    vector `w` of length `h` becomes the vector of length `2 h` whose first half is `w · (1 - x k)` and whose second
    half is `w · x k`; the result is `∑ c, L c · w c`.
  * The reference HALVES the table: for `k = 0, 1, …, 5` the table `a` of length `2 h` becomes the table of length `h`
    with entries `a j · (1 - x k) + a (j + h) · x k`; the result is the one entry left.

  One doubling step against one halving step is `sum_dbl`; six of them give `weighted_eq_folded`.
-/
import Mathlib.Algebra.BigOperators.Group.Finset.Basic
import Mathlib.Algebra.BigOperators.Ring.Finset
import Mathlib.Algebra.BigOperators.Intervals
import Mathlib.Data.Real.Basic
import Mathlib.Tactic.Ring

namespace Cert.Interp

open Finset

/-- One doubling step of the weight build: a weight vector of length `h` becomes one of length `2 h`. -/
def dbl (h : ℕ) (w : ℕ → ℝ) (x : ℝ) : ℕ → ℝ := fun c => if c < h then w c * (1 - x) else w (c - h) * x

/-- One halving step of the table fold: a table of length `2 h` becomes one of length `h`. -/
def halve (h : ℕ) (a : ℕ → ℝ) (x : ℝ) : ℕ → ℝ := fun j => a j * (1 - x) + a (j + h) * x

/-- A table of length `2 h` against the doubled weights is the halved table against the weights. -/
theorem sum_dbl (h : ℕ) (a w : ℕ → ℝ) (x : ℝ) :
    ∑ c ∈ range (h + h), a c * dbl h w x c = ∑ j ∈ range h, halve h a x j * w j := by
  rw [Finset.sum_range_add]
  rw [← Finset.sum_add_distrib]
  refine Finset.sum_congr rfl fun j hj => ?_
  have hj' : j < h := Finset.mem_range.mp hj
  have h1 : dbl h w x j = w j * (1 - x) := by simp [dbl, hj']
  have h2 : dbl h w x (h + j) = w j * x := by simp [dbl]
  rw [h1, h2, Nat.add_comm h j]
  unfold halve
  ring

/-- The 64 corner weights the kernel builds from six coordinates. -/
def weights (x : Fin 6 → ℝ) : ℕ → ℝ :=
  dbl 32 (dbl 16 (dbl 8 (dbl 4 (dbl 2 (dbl 1 (fun _ => 1) (x 5)) (x 4)) (x 3)) (x 2)) (x 1)) (x 0)

/-- The kernel's value: the table against the corner weights. -/
def weighted (L : ℕ → ℝ) (x : Fin 6 → ℝ) : ℝ := ∑ c ∈ range 64, L c * weights x c

/-- The reference's value: the table halved six times. -/
def folded (L : ℕ → ℝ) (x : Fin 6 → ℝ) : ℝ :=
  halve 1 (halve 2 (halve 4 (halve 8 (halve 16 (halve 32 L (x 0)) (x 1)) (x 2)) (x 3)) (x 4)) (x 5) 0

/-- The two spellings of the interpolation agree. -/
theorem weighted_eq_folded (L : ℕ → ℝ) (x : Fin 6 → ℝ) : weighted L x = folded L x := by
  unfold weighted weights folded
  rw [show (64 : ℕ) = 32 + 32 from rfl, sum_dbl, show (32 : ℕ) = 16 + 16 from rfl, sum_dbl]
  rw [show (16 : ℕ) = 8 + 8 from rfl, sum_dbl, show (8 : ℕ) = 4 + 4 from rfl, sum_dbl]
  rw [show (4 : ℕ) = 2 + 2 from rfl, sum_dbl, show (2 : ℕ) = 1 + 1 from rfl, sum_dbl]
  simp

/-- The interpolation depends on the table and the coordinates only through their values. -/
theorem folded_congr {L L' : ℕ → ℝ} {x x' : Fin 6 → ℝ} (hL : ∀ c, c < 64 → L c = L' c) (hx : ∀ k, x k = x' k) :
    folded L x = folded L' x' := by
  have hx' : x = x' := funext hx
  subst hx'
  rw [← weighted_eq_folded, ← weighted_eq_folded]
  unfold weighted
  exact Finset.sum_congr rfl fun c hc => by rw [hL c (Finset.mem_range.mp hc)]

end Cert.Interp
-- ==== Proof.Lut.lean ====
/-
  Shared vocabulary of the value proof.

  * `at2 f i j`: a rank-2 real array read at natural coordinates, `0` outside the array. Zero padding of a table
    (rows appended to the look-up tables, zero index words appended to the index tables) is this convention.
  * `nat2 f i j`: a rank-2 array of 32-bit words read at natural coordinates as a natural number, `0` outside.
  * `re f`: the real numbers under an array of extended reals.
  * `grouped`: what both programs do last, to a [512, 1000] array: split each row into 10 groups of 100, add each
    group up from zero, divide by the constant the source writes 3.3333333.
-/
import proofs.«400014_j26731876450941_3_alg».proof.Proof.Interp
import Idealize.ShloMosaic.PureOps.Ideal
import Idealize.ShloMosaic.Lib.ValueIdx

noncomputable section

namespace Cert.Lut

open Idealize.ShloMosaic Idealize.ShloMosaic.ValueIdx

/-- A rank-2 real array at natural coordinates; `0` outside the array. -/
def at2 {A B : ℕ} (f : (⟨2, ![A, B]⟩ : Shape).Idx → ℝ) (i j : ℕ) : ℝ :=
  if h : i < A ∧ j < B then f (ix2 ⟨i, h.1⟩ ⟨j, h.2⟩) else 0

theorem at2_ix {A B : ℕ} (f : (⟨2, ![A, B]⟩ : Shape).Idx → ℝ) (p : Fin A) (q : Fin B) : at2 f p.val q.val = f (ix2 p q) := by
  unfold at2; rw [dif_pos ⟨p.isLt, q.isLt⟩]

theorem at2_of_not {A B : ℕ} (f : (⟨2, ![A, B]⟩ : Shape).Idx → ℝ) (i j : ℕ) (h : ¬ (i < A ∧ j < B)) : at2 f i j = 0 := by
  unfold at2; rw [dif_neg h]

/-- A rank-2 array of 32-bit words at natural coordinates, read unsigned; `0` outside the array. -/
def nat2 {A B : ℕ} (f : (⟨2, ![A, B]⟩ : Shape).Idx → BitVec 32) (i j : ℕ) : ℕ :=
  if h : i < A ∧ j < B then (f (ix2 ⟨i, h.1⟩ ⟨j, h.2⟩)).toNat else 0

theorem nat2_ix {A B : ℕ} (f : (⟨2, ![A, B]⟩ : Shape).Idx → BitVec 32) (p : Fin A) (q : Fin B) : nat2 f p.val q.val = (f (ix2 p q)).toNat := by
  unfold nat2; rw [dif_pos ⟨p.isLt, q.isLt⟩]

theorem nat2_of_not {A B : ℕ} (f : (⟨2, ![A, B]⟩ : Shape).Idx → BitVec 32) (i j : ℕ) (h : ¬ (i < A ∧ j < B)) : nat2 f i j = 0 := by
  unfold nat2; rw [dif_neg h]

/-- The real numbers under an array of extended reals. -/
def re {S : Shape} (f : S.Idx → EReal) : S.Idx → ℝ := fun i => (f i).toReal

/-- The last stage of both programs: the [512, 1000] array viewed [512, 10, 100], each group of 100 added up from
    zero, the [512, 10] sums divided by the constant 3.3333333 (its f32 word). The four side conditions are the
    shape facts the printed operations take; being propositions, any two proofs of them give the same function. -/
def grouped (hsc : (⟨2, ![512, 1000]⟩ : Shape).ShapeCasts ⟨3, ![512, 10, 100]⟩)
    (hred : (⟨3, ![512, 10, 100]⟩ : Shape).ReducesTo [2] ⟨2, ![512, 10]⟩) (hS : 0 < (⟨0, ![]⟩ : Shape).numel)
    (hb : (⟨0, ![]⟩ : Shape).BroadcastsInDim ⟨2, ![512, 10]⟩ (![] : Fin 0 → Fin 2))
    (A : FVec Ideal ⟨2, ![512, 1000]⟩ .f32) : FVec Ideal ⟨2, ![512, 10]⟩ .f32 :=
  Host.divf (F := Ideal) (Host.reduceAdd (F := Ideal) (shapeCast ⟨3, ![512, 10, 100]⟩ A hsc) (constant (F := Ideal) ⟨0, ![]⟩ .f32 0x00000000#32) hred hS)
    (broadcastInDim ⟨2, ![512, 10]⟩ ![] hb (constant (F := Ideal) ⟨0, ![]⟩ .f32 0x40555555#32))

end Cert.Lut

end
-- ==== Proof.KBody0.lean ====
/-
  Layer 1's kernel body at one output element.

  The body receives a [128, 3072] block of 0/1 activations, a [256, 6] block of index words and a [64, 256] block of the
  transposed look-up table. For output column `q` and each `k < 6` it gathers activation number `idx[q, k]` of row `p`
  as the product of the row with the indicator column `i ↦ [i = idx[q, k]]` (so an index outside the block's 3072
  columns gathers 0), builds the 64 corner weights from the six gathered values by doubling, and adds up the table
  column against the weights.
-/
import proofs.«400014_j26731876450941_3_alg».proof.Proof.Gen.KernelIdeal.Frame
import proofs.«400014_j26731876450941_3_alg».proof.Proof.Lut
import Idealize.ShloMosaic.Lib.ValueLayout
import Idealize.ShloMosaic.Lib.IdealHost

noncomputable section

namespace Cert.KernelIdeal.Body0

open Cert.KernelIdeal Cert.KernelIdeal.Gen Idealize.ShloMosaic Idealize.ShloMosaic.ValueIdx Cert.Lut

/-- A one-column matrix cast to a vector reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `k` of the index block, taken as a row and broadcast down 3072 rows, reads at `(i, q)` the index word `idx[q, k]`. -/
theorem idxRow_apply (x1 : IVec S256x6 32) (o : ℕ) (k : Fin 6) (hk : k.val = o) (hs : S256x6.Slices ![0, o] S256x1)
    (i : Fin 3072) (q : Fin 256) :
    broadcastTo S3072x256 (shapeCast S1x256 (shapeCast S256 (extractStridedSlice S256x1 ![0, o] x1 hs) shapeCasts_S256x1_S256)
      shapeCasts_S256_S1x256) broadcasts_S1x256_S3072x256 (ix2 i q) = x1 (ix2 q k) := by
  rw [broadcastTo_1b_ab_apply, shapeCast_a_1a_apply, shapeCast_a1_a_apply]
  exact slice2_axis1_apply o x1 hs q 0 k (by simp [hk])

/-- A word equals the word of a number below 2^32 exactly when its unsigned reading is that number. -/
theorem ofNat_eq_iff (i : ℕ) (hi : i < 2 ^ 32) (w : BitVec 32) : BitVec.ofNat 32 i = w ↔ i = w.toNat := by
  constructor
  · intro h
    have := congrArg BitVec.toNat h
    rw [BitVec.toNat_ofNat, Nat.mod_eq_of_lt hi] at this
    exact this
  · intro h
    apply BitVec.eq_of_toNat_eq
    rw [BitVec.toNat_ofNat, Nat.mod_eq_of_lt hi, h]

/-- The indicator bit of an equality of words, widened and read signed, is 1 or 0. -/
theorem toInt_setWidth_cmpi_eq (a b : BitVec 32) :
    (((IntOp.cmpi .eq a b).setWidth 32).toInt : ℝ) = if a = b then 1 else 0 := by
  by_cases h : a = b
  · subst h
    rw [if_pos rfl]
    have : IntOp.cmpi .eq a a = 1#1 := by simp [IntOp.cmpi]
    rw [this]
    norm_num
  · rw [if_neg h]
    have : IntOp.cmpi .eq a b = 0#1 := by
      have hb : (a == b) = false := by simpa using h
      simp [IntOp.cmpi, hb]
    rw [this]
    norm_num

/-- One selector at `(i, q)`: 1 when `i` is the index word of row `q`, column `k`, else 0. -/
theorem sel_apply (x1 : IVec S256x6 32) (o : ℕ) (k : Fin 6) (hk : k.val = o) (hs : S256x6.Slices ![0, o] S256x1)
    (i : Fin 3072) (q : Fin 256) :
    (truncf .bf16 (sitofp .f32 (extui 32 (cmpi .eq (iota .tc S3072x256 32 [0] iota_S3072x256_d0_w32)
      (broadcastTo S3072x256 (shapeCast S1x256 (shapeCast S256 (extractStridedSlice S256x1 ![0, o] x1 hs) shapeCasts_S256x1_S256)
        shapeCasts_S256_S1x256) broadcasts_S1x256_S3072x256)) natLt_1_32)) bitsLt_bf16_f32 : FVec Ideal S3072x256 .bf16) (ix2 i q)
      = (((if i.val = (x1 (ix2 q k)).toNat then 1 else 0 : ℝ)) : EReal) := by
  show ((((IntOp.cmpi .eq (iota .tc S3072x256 32 [0] iota_S3072x256_d0_w32 (ix2 i q))
      (broadcastTo S3072x256 (shapeCast S1x256 (shapeCast S256 (extractStridedSlice S256x1 ![0, o] x1 hs) shapeCasts_S256x1_S256)
        shapeCasts_S256_S1x256) broadcasts_S1x256_S3072x256 (ix2 i q))).setWidth 32).toInt : ℝ) : EReal) = _
  rw [iota_single_apply, idxRow_apply x1 o k hk hs i q, toInt_setWidth_cmpi_eq]
  congr 1
  have hi : i.val < 2 ^ 32 := by have := i.isLt; omega
  have := ofNat_eq_iff i.val hi (x1 (ix2 q k))
  show (if BitVec.ofNat 32 i.val = x1 (ix2 q k) then (1 : ℝ) else 0) = _
  by_cases h : i.val = (x1 (ix2 q k)).toNat
  · rw [if_pos h, if_pos (this.mpr h)]
  · rw [if_neg h, if_neg (fun e => h (this.mp e))]

/-- The product's left operand index at output `j` and contraction position `k`: its row is `j`'s row … -/
theorem lhs_D0_0 (j : S128x256.Idx) (k : dot_S128x3072_S3072x256_S128x256_1_0_0_1_n_n.contr.Idx) :
    (dot_S128x3072_S3072x256_S128x256_1_0_0_1_n_n.lhsIdx j k 0).val = (j 0).val := by
  unfold DotDims.lhsIdx
  rw [dif_neg (show ¬(0 : Fin S128x3072.rank) ∈ dot_S128x3072_S3072x256_S128x256_1_0_0_1_n_n.lhsBatch by decide),
    dif_pos (show (0 : Fin S128x3072.rank) ∈ dot_S128x3072_S3072x256_S128x256_1_0_0_1_n_n.lhsNonContracting by decide)]
  rfl

/-- … its column is the contraction position; -/
theorem lhs_D0_1 (j : S128x256.Idx) (k : dot_S128x3072_S3072x256_S128x256_1_0_0_1_n_n.contr.Idx) :
    (dot_S128x3072_S3072x256_S128x256_1_0_0_1_n_n.lhsIdx j k 1).val = (k ⟨0, by decide⟩).val :=
  dot_S128x3072_S3072x256_S128x256_1_0_0_1_n_n.lhsIdx_val_of_single rfl j k

/-- the right operand index's row is the contraction position … -/
theorem rhs_D0_0 (j : S128x256.Idx) (k : dot_S128x3072_S3072x256_S128x256_1_0_0_1_n_n.contr.Idx) :
    (dot_S128x3072_S3072x256_S128x256_1_0_0_1_n_n.rhsIdx j k 0).val = (k ⟨0, by decide⟩).val :=
  dot_S128x3072_S3072x256_S128x256_1_0_0_1_n_n.rhsIdx_val_of_single rfl j k

/-- … and its column is `j`'s column. -/
theorem rhs_D0_1 (j : S128x256.Idx) (k : dot_S128x3072_S3072x256_S128x256_1_0_0_1_n_n.contr.Idx) :
    (dot_S128x3072_S3072x256_S128x256_1_0_0_1_n_n.rhsIdx j k 1).val = (j 1).val := by
  unfold DotDims.rhsIdx
  rw [dif_neg (show ¬(1 : Fin S3072x256.rank) ∈ dot_S128x3072_S3072x256_S128x256_1_0_0_1_n_n.rhsBatch by decide),
    dif_pos (show (1 : Fin S3072x256.rank) ∈ dot_S128x3072_S3072x256_S128x256_1_0_0_1_n_n.rhsNonContracting by decide)]
  rfl

/-- The product of row `p` of a real block with an indicator column `i ↦ [i = n]`: entry `n` of the row, 0 when `n` is
    outside the block. -/
theorem gather_apply (H : S128x3072.Idx → ℝ) (R : FVec Ideal S3072x256 .bf16) (n : ℕ) (p : Fin 128) (q : Fin 256)
    (hR : ∀ i : Fin 3072, R (ix2 i q) = (((if i.val = n then 1 else 0 : ℝ)) : EReal)) :
    matmul (F := Ideal) (φ₁ := .bf16) dot_S128x3072_S3072x256_S128x256_1_0_0_1_n_n none (fun i => ((H i : ℝ) : EReal)) R
        (constant (F := Ideal) S128x256 .f32 0x00000000#32) (ix2 p q)
      = ((at2 H p.val n : ℝ) : EReal) := by
  refine (Ideal.matmul_constant_zero_apply (φ₁ := .bf16) dot_S128x3072_S3072x256_S128x256_1_0_0_1_n_n none _ R (ix2 p q)).trans ?_
  rw [← Equiv.sum_comp (contrEquiv1 dot_S128x3072_S3072x256_S128x256_1_0_0_1_n_n 3072 rfl rfl).symm]
  have hl : ∀ i : Fin 3072, dot_S128x3072_S3072x256_S128x256_1_0_0_1_n_n.lhsIdx (ix2 p q)
      ((contrEquiv1 dot_S128x3072_S3072x256_S128x256_1_0_0_1_n_n 3072 rfl rfl).symm i) = ix2 p i := fun i =>
    Shape.idx_ext₂ (lhs_D0_0 _ _)
      ((lhs_D0_1 _ _).trans (contrEquiv1_symm_val dot_S128x3072_S3072x256_S128x256_1_0_0_1_n_n 3072 rfl rfl i))
  have hr : ∀ i : Fin 3072, dot_S128x3072_S3072x256_S128x256_1_0_0_1_n_n.rhsIdx (ix2 p q)
      ((contrEquiv1 dot_S128x3072_S3072x256_S128x256_1_0_0_1_n_n 3072 rfl rfl).symm i) = ix2 i q := fun i =>
    Shape.idx_ext₂
      ((rhs_D0_0 _ _).trans (contrEquiv1_symm_val dot_S128x3072_S3072x256_S128x256_1_0_0_1_n_n 3072 rfl rfl i))
      (rhs_D0_1 _ _)
  simp only [hl, hr, hR]
  by_cases hn : n < 3072
  · rw [Finset.sum_eq_single (⟨n, hn⟩ : Fin 3072)]
    · rw [if_pos rfl, EReal.coe_one, mul_one]
      unfold at2
      rw [dif_pos ⟨p.isLt, hn⟩]
    · intro i _ hi
      have : ¬ i.val = n := fun e => hi (Fin.ext e)
      rw [if_neg this, EReal.coe_zero, mul_zero]
    · intro h; exact absurd (Finset.mem_univ _) h
  · rw [at2_of_not H p.val n (fun h => hn h.2), EReal.coe_zero]
    refine Finset.sum_eq_zero fun i _ => ?_
    have : ¬ i.val = n := fun e => hn (e ▸ i.isLt)
    rw [if_neg this, EReal.coe_zero, mul_zero]

/-- The f32 word of 1.0, as the scalar a splat takes, is the extended real one. -/
theorem one_f32 : (Scalar.ofBits (F := Ideal) .f32 0x3F800000#32) = (1 : EReal) := Ideal.ofBits_one_f32

/-- A [128, 256] array cast to [128, 1, 256] reads, at `(p, u, q)`, the operand at `(p, q)`. -/
theorem shapeCast_mid_apply {α : Type} (x : S128x256.Idx → α) (p : Fin 128) (u : Fin 1) (q : Fin 256) :
    shapeCast S128x1x256 x shapeCasts_S128x256_S128x1x256 (ix3 p u q) = x (ix2 p q) :=
  shapeCast_apply x _ _ _ (by
    have hu : u.val = 0 := by omega
    rw [Shape.rowMajor_val_three, Shape.rowMajor_val_two]
    show p.val * 256 + q.val = (p.val * 1 + u.val) * 256 + q.val
    rw [hu]; omega)

/-- A [128, 1, 256] array broadcast along its unit axis reads, at `(p, c, q)`, the operand at `(p, 0, q)`. -/
theorem broadcastTo_mid_apply {α : Type} {h : ℕ} (x : S128x1x256.Idx → α) (hb : S128x1x256.Broadcasts ⟨3, ![128, h, 256]⟩)
    (p : Fin 128) (c : Fin h) (q : Fin 256) :
    broadcastTo ⟨3, ![128, h, 256]⟩ x hb (ix3 p c q) = x (ix3 p (0 : Fin 1) q) :=
  broadcastTo_apply x hb _ _ (fun a => by
    match a with
    | ⟨0, _⟩ => rfl
    | ⟨1, _⟩ => rfl
    | ⟨2, _⟩ => rfl)

/-- Two arrays of one shape [128, h, 256] laid end to end along axis 1, read at `(p, c, q)`: the first at `c` when
    `c < h`, else the second at `c - h`. -/
theorem concat2_apply {α : Type} {h h2 : ℕ} (hh : h2 = h + h) (A B : (⟨3, ![128, h, 256]⟩ : Shape).Idx → α)
    (hc : Shape.Concatenates [⟨3, ![128, h, 256]⟩, ⟨3, ![128, h, 256]⟩] ⟨3, ![128, h2, 256]⟩ 1)
    (p : Fin 128) (c : Fin h2) (q : Fin 256) :
    concatenate ⟨3, ![128, h2, 256]⟩ 1 [⟨⟨3, ![128, h, 256]⟩, A⟩, ⟨⟨3, ![128, h, 256]⟩, B⟩] hc (ix3 p c q)
      = if hlt : c.val < h then A (ix3 p ⟨c.val, hlt⟩ q) else B (ix3 p ⟨c.val - h, by have := c.isLt; omega⟩ q) := by
  by_cases hlt : c.val < h
  · rw [dif_pos hlt]
    exact concatenate_pair_apply_left (t := ⟨3, ![128, h2, 256]⟩) (s₁ := ⟨3, ![128, h, 256]⟩) (s₂ := ⟨3, ![128, h, 256]⟩) 1 A B hc
      (ix3 p c q) rfl (ix3 p ⟨c.val, hlt⟩ q) (fun b => by
        match b with
        | ⟨0, _⟩ => rfl
        | ⟨1, _⟩ => rfl
        | ⟨2, _⟩ => rfl)
  · rw [dif_neg hlt]
    exact concatenate_pair_apply_right (t := ⟨3, ![128, h2, 256]⟩) (s₁ := ⟨3, ![128, h, 256]⟩) (s₂ := ⟨3, ![128, h, 256]⟩) 1 A B hc
      (ix3 p c q) rfl rfl (ix3 p ⟨c.val - h, by have := c.isLt; omega⟩ q) (fun b hb => by
        match b with
        | ⟨0, _⟩ => rfl
        | ⟨1, _⟩ => exact absurd (Fin.ext rfl) hb
        | ⟨2, _⟩ => rfl)
      (by show c.val - h + h = c.val; omega)

/-- ONE DOUBLING STEP at `(p, c, q)`: when the weight array reads the reals `W c` along axis 1 and the gathered array
    reads the real `X`, the concatenation of `w · (1 − x)` and `w · x` reads `dbl h W X c`. -/
theorem dbl_step {h h2 : ℕ} (hh : h2 = h + h)
    (w : FVec Ideal ⟨3, ![128, h, 256]⟩ .f32) (x : FVec Ideal S128x256 .f32)
    (hb : S128x1x256.Broadcasts ⟨3, ![128, h, 256]⟩)
    (hc : Shape.Concatenates [⟨3, ![128, h, 256]⟩, ⟨3, ![128, h, 256]⟩] ⟨3, ![128, h2, 256]⟩ 1)
    (W : ℕ → ℝ) (X : ℝ) (p : Fin 128) (q : Fin 256)
    (hw : ∀ c : Fin h, w (ix3 p c q) = ((W c.val : ℝ) : EReal)) (hx : x (ix2 p q) = ((X : ℝ) : EReal)) (c : Fin h2) :
    concatenate ⟨3, ![128, h2, 256]⟩ 1
        [⟨⟨3, ![128, h, 256]⟩, mulf w (broadcastTo ⟨3, ![128, h, 256]⟩
            (subf (broadcast S128x1x256 (Scalar.ofBits (F := Ideal) .f32 0x3F800000#32))
              (shapeCast S128x1x256 x shapeCasts_S128x256_S128x1x256)) hb)⟩,
         ⟨⟨3, ![128, h, 256]⟩, mulf w (broadcastTo ⟨3, ![128, h, 256]⟩
            (shapeCast S128x1x256 x shapeCasts_S128x256_S128x1x256) hb)⟩] hc (ix3 p c q)
      = ((Cert.Interp.dbl h W X c.val : ℝ) : EReal) := by
  rw [concat2_apply hh]
  unfold Cert.Interp.dbl
  by_cases hlt : c.val < h
  · rw [dif_pos hlt, if_pos hlt, mulf_apply, broadcastTo_mid_apply, subf_apply, broadcast_apply, shapeCast_mid_apply, hw, hx,
      one_f32]
    rw [← EReal.coe_one, ← EReal.coe_sub, ← EReal.coe_mul]
  · rw [dif_neg hlt, if_neg hlt, mulf_apply, broadcastTo_mid_apply, shapeCast_mid_apply, hw, hx, ← EReal.coe_mul]

/-- THE FIRST DOUBLING STEP at `(p, c, q)`: from the all-ones array of one row, the concatenation of `1 · (1 − x)` and
    `1 · x` reads `dbl 1 (fun _ => 1) X c`. -/
theorem dbl_first (x : FVec Ideal S128x256 .f32) (X : ℝ) (p : Fin 128) (q : Fin 256)
    (hx : x (ix2 p q) = ((X : ℝ) : EReal)) (c : Fin 2) :
    concatenate S128x2x256 1
        [⟨S128x1x256, mulf (broadcast S128x1x256 (Scalar.ofBits (F := Ideal) .f32 0x3F800000#32))
            (subf (broadcast S128x1x256 (Scalar.ofBits (F := Ideal) .f32 0x3F800000#32))
              (shapeCast S128x1x256 x shapeCasts_S128x256_S128x1x256))⟩,
         ⟨S128x1x256, mulf (broadcast S128x1x256 (Scalar.ofBits (F := Ideal) .f32 0x3F800000#32))
            (shapeCast S128x1x256 x shapeCasts_S128x256_S128x1x256)⟩]
        concatenates_S128x1x256_S128x1x256_S128x2x256_d1 (ix3 p c q)
      = ((Cert.Interp.dbl 1 (fun _ => 1) X c.val : ℝ) : EReal) := by
  rw [concat2_apply (h := 1) (h2 := 2) rfl]
  unfold Cert.Interp.dbl
  by_cases hlt : c.val < 1
  · rw [dif_pos hlt, if_pos hlt, mulf_apply, subf_apply, broadcast_apply, shapeCast_mid_apply, hx, one_f32]
    rw [← EReal.coe_one, ← EReal.coe_sub, ← EReal.coe_mul]
  · rw [dif_neg hlt, if_neg hlt, mulf_apply, broadcast_apply, shapeCast_mid_apply, hx, one_f32, ← EReal.coe_one, ← EReal.coe_mul]

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A [1, 64, 256] array broadcast along its unit axis reads, at `(p, c, q)`, the operand at `(0, c, q)`. -/
theorem broadcastTo_lead_apply {α : Type} (x : S1x64x256.Idx → α) (p : Fin 128) (c : Fin 64) (q : Fin 256) :
    broadcastTo S128x64x256 x broadcasts_S1x64x256_S128x64x256 (ix3 p c q) = x (ix3 (0 : Fin 1) c q) :=
  broadcastTo_apply x _ _ _ (fun a => by
    match a with
    | ⟨0, _⟩ => rfl
    | ⟨1, _⟩ => rfl
    | ⟨2, _⟩ => rfl)

/-- THE LAST STAGE at `(p, q)`: the table column against the 64 weights, added up from zero. -/
theorem reduce_apply (x2 : FVec Ideal S64x256 .f32) (w : FVec Ideal S128x64x256 .f32) (L W : ℕ → ℝ) (p : Fin 128) (q : Fin 256)
    (hx2 : ∀ c : Fin 64, x2 (ix2 c q) = ((L c.val : ℝ) : EReal)) (hw : ∀ c : Fin 64, w (ix3 p c q) = ((W c.val : ℝ) : EReal)) :
    multiReduction (F := Ideal) .add [1] S128x256
        (mulf (broadcastTo S128x64x256 (shapeCast S1x64x256 x2 shapeCasts_S64x256_S1x64x256) broadcasts_S1x64x256_S128x64x256) w)
        0x00000000#32 reduces_S128x64x256_S128x256 (.inl rfl) rfl (ix2 p q)
      = ((∑ c ∈ Finset.range 64, L c * W c : ℝ) : EReal) := by
  refine (Ideal.multiReduction_add_single _ 0x00000000#32 reduces_S128x64x256_S128x256 (.inl rfl) rfl (ix2 p q)).trans ?_
  have hl : ∀ k : Fin 64, reduces_S128x64x256_S128x256.lift (ix2 p q) k = ix3 p k q := fun k => funext fun a => by
    match a with
    | ⟨0, _⟩ => exact Fin.ext rfl
    | ⟨1, _⟩ => exact Fin.ext rfl
    | ⟨2, _⟩ => exact Fin.ext rfl
  rw [coe_sum, ← Fin.sum_univ_eq_sum_range (fun c => ((L c * W c : ℝ) : EReal)) 64]
  refine Finset.sum_congr rfl fun (k : Fin 64) _ => ?_
  rw [hl k, mulf_apply, broadcastTo_lead_apply, shapeCast_ab_1ab_apply, hx2, hw, ← EReal.coe_mul]

/-- ONE SELECTOR-AND-PRODUCT SITE at `(p, q)`: activation number `idx[q, k]` of row `p`, 0 when the index word is outside the
    block's columns. -/
theorem site_apply (H : S128x3072.Idx → ℝ) (x1 : IVec S256x6 32) (o : ℕ) (k : Fin 6) (hk : k.val = o)
    (hs : S256x6.Slices ![0, o] S256x1) (p : Fin 128) (q : Fin 256) :
    matmul (F := Ideal) (φ₁ := .bf16) dot_S128x3072_S3072x256_S128x256_1_0_0_1_n_n none (fun i => ((H i : ℝ) : EReal))
        (truncf .bf16 (sitofp .f32 (extui 32 (cmpi .eq (iota .tc S3072x256 32 [0] iota_S3072x256_d0_w32)
      (broadcastTo S3072x256 (shapeCast S1x256 (shapeCast S256 (extractStridedSlice S256x1 ![0, o] x1 hs) shapeCasts_S256x1_S256)
        shapeCasts_S256_S1x256) broadcasts_S1x256_S3072x256)) natLt_1_32)) bitsLt_bf16_f32)
        (constant (F := Ideal) S128x256 .f32 0x00000000#32) (ix2 p q)
      = ((at2 H p.val (nat2 x1 q.val k.val) : ℝ) : EReal) := by
  rw [nat2_ix x1 q k]
  exact gather_apply H _ _ p q (fun i => sel_apply x1 o k hk hs i q)

/-- The activation block cast to its own shape is itself; -/
theorem pay2_eq (v0 : Vec Ideal S128x3072 .bf16) : k0_pay2 (F := Ideal) v0 = v0 := shapeCast_self _ _
/-- so is the index block; -/
theorem pay3_eq (v2 : Vec Ideal S256x6 .i32) : k0_pay3 (F := Ideal) v2 = v2 := shapeCast_self _ _
/-- so is the table block. -/
theorem pay4_eq (v4 : Vec Ideal S64x256 .f32) : k0_pay4 (F := Ideal) v4 = v4 := shapeCast_self _ _

/-- The gathered array for column 0 of the index block at `(p, q)`. -/
theorem pay5_apply (H : S128x3072.Idx → ℝ) (x1 : Vec Ideal S256x6 .i32) (p : Fin 128) (q : Fin 256) :
    k0_pay5 (F := Ideal) (fun i => ((H i : ℝ) : EReal)) x1 (ix2 p q)
      = ((at2 H p.val (nat2 x1 q.val (0 : Fin 6).val) : ℝ) : EReal) := by
  unfold k0_pay5
  rw [pay2_eq, pay3_eq]
  exact site_apply H x1 0 0 rfl slices_S256x6_o0_0_S256x1 p q

/-- The gathered array for column 1 of the index block at `(p, q)`. -/
theorem pay6_apply (H : S128x3072.Idx → ℝ) (x1 : Vec Ideal S256x6 .i32) (p : Fin 128) (q : Fin 256) :
    k0_pay6 (F := Ideal) (fun i => ((H i : ℝ) : EReal)) x1 (ix2 p q)
      = ((at2 H p.val (nat2 x1 q.val (1 : Fin 6).val) : ℝ) : EReal) := by
  unfold k0_pay6
  rw [pay2_eq, pay3_eq]
  exact site_apply H x1 1 1 rfl slices_S256x6_o0_1_S256x1 p q

/-- The gathered array for column 2 of the index block at `(p, q)`. -/
theorem pay7_apply (H : S128x3072.Idx → ℝ) (x1 : Vec Ideal S256x6 .i32) (p : Fin 128) (q : Fin 256) :
    k0_pay7 (F := Ideal) (fun i => ((H i : ℝ) : EReal)) x1 (ix2 p q)
      = ((at2 H p.val (nat2 x1 q.val (2 : Fin 6).val) : ℝ) : EReal) := by
  unfold k0_pay7
  rw [pay2_eq, pay3_eq]
  exact site_apply H x1 2 2 rfl slices_S256x6_o0_2_S256x1 p q

/-- The gathered array for column 3 of the index block at `(p, q)`. -/
theorem pay8_apply (H : S128x3072.Idx → ℝ) (x1 : Vec Ideal S256x6 .i32) (p : Fin 128) (q : Fin 256) :
    k0_pay8 (F := Ideal) (fun i => ((H i : ℝ) : EReal)) x1 (ix2 p q)
      = ((at2 H p.val (nat2 x1 q.val (3 : Fin 6).val) : ℝ) : EReal) := by
  unfold k0_pay8
  rw [pay2_eq, pay3_eq]
  exact site_apply H x1 3 3 rfl slices_S256x6_o0_3_S256x1 p q

/-- The comparison for column 4 of the index block, with the block's self-cast removed. -/
theorem pay9_eq (x1 : Vec Ideal S256x6 .i32) :
    k0_pay9 (F := Ideal) x1 = cmpi .eq (iota .tc S3072x256 32 [0] iota_S3072x256_d0_w32)
      (broadcastTo S3072x256 (shapeCast S1x256 (shapeCast S256 (extractStridedSlice S256x1 ![0, 4] x1 slices_S256x6_o0_4_S256x1)
        shapeCasts_S256x1_S256) shapeCasts_S256_S1x256) broadcasts_S1x256_S3072x256) := by
  unfold k0_pay9
  rw [pay3_eq]

/-- The first five doubling steps at `(p, c, q)`, over the gathered values of columns 5 and 4 (computed inside) and three
    gathered arrays read as reals. -/
theorem pay10_apply (H : S128x3072.Idx → ℝ) (x1 : Vec Ideal S256x6 .i32) (v24 v33 v42 : FVec Ideal S128x256 .f32)
    (X1 X2 X3 : ℝ) (p : Fin 128) (q : Fin 256)
    (h24 : v24 (ix2 p q) = ((X1 : ℝ) : EReal)) (h33 : v33 (ix2 p q) = ((X2 : ℝ) : EReal))
    (h42 : v42 (ix2 p q) = ((X3 : ℝ) : EReal)) (c : Fin 32) :
    k0_pay10 (F := Ideal) (fun i => ((H i : ℝ) : EReal)) x1 (iota .tc S3072x256 32 [0] iota_S3072x256_d0_w32) v24 v33 v42
        (cmpi .eq (iota .tc S3072x256 32 [0] iota_S3072x256_d0_w32)
          (broadcastTo S3072x256 (shapeCast S1x256 (shapeCast S256 (extractStridedSlice S256x1 ![0, 4] x1 slices_S256x6_o0_4_S256x1)
            shapeCasts_S256x1_S256) shapeCasts_S256_S1x256) broadcasts_S1x256_S3072x256)) (ix3 p c q)
      = ((Cert.Interp.dbl 16 (Cert.Interp.dbl 8 (Cert.Interp.dbl 4 (Cert.Interp.dbl 2 (Cert.Interp.dbl 1 (fun _ => 1)
          (at2 H p.val (nat2 x1 q.val (5 : Fin 6).val))) (at2 H p.val (nat2 x1 q.val (4 : Fin 6).val))) X3) X2) X1 c.val : ℝ) : EReal) := by
  unfold k0_pay10
  exact dbl_step (h := 16) (h2 := 32) rfl _ _ _ _ _ _ p q
    (fun c => dbl_step (h := 8) (h2 := 16) rfl _ _ _ _ _ _ p q
      (fun c => dbl_step (h := 4) (h2 := 8) rfl _ _ _ _ _ _ p q
        (fun c => dbl_step (h := 2) (h2 := 4) rfl _ _ _ _ _ _ p q
          (fun c => dbl_first _ _ p q (site_apply H x1 5 5 rfl slices_S256x6_o0_5_S256x1 p q) c)
          (site_apply H x1 4 4 rfl slices_S256x6_o0_4_S256x1 p q) c)
        h42 c)
      h33 c)
    h24 c

/-- The last doubling step, the product with the table column and the sum, at `(p, q)`. -/
theorem pay1_apply (v5 : FVec Ideal S64x256 .f32) (v15 : FVec Ideal S128x256 .f32) (v99 : FVec Ideal S128x32x256 .f32)
    (L W : ℕ → ℝ) (X0 : ℝ) (p : Fin 128) (q : Fin 256)
    (h5 : ∀ c : Fin 64, v5 (ix2 c q) = ((L c.val : ℝ) : EReal)) (h15 : v15 (ix2 p q) = ((X0 : ℝ) : EReal))
    (h99 : ∀ c : Fin 32, v99 (ix3 p c q) = ((W c.val : ℝ) : EReal)) :
    k0_pay1 (F := Ideal) v5 v15 v99 (ix2 p q) = ((∑ c ∈ Finset.range 64, L c * Cert.Interp.dbl 32 W X0 c : ℝ) : EReal) := by
  unfold k0_pay1
  exact reduce_apply _ _ L (Cert.Interp.dbl 32 W X0) p q h5
    (fun c => dbl_step (h := 32) (h2 := 64) rfl _ _ _ _ W X0 p q h99 h15 c)

/-- The body's stored block at `(p, q)`, over finite inputs: the table column `q` against the corner weights of the six
    activations row `p` gathers at the index words of row `q`. -/
theorem out0_3_apply (H : S128x3072.Idx → ℝ) (x1 : Vec Ideal S256x6 .i32) (L : S64x256.Idx → ℝ) (p : Fin 128) (q : Fin 256) :
    out0_3 (F := Ideal) (fun i => ((H i : ℝ) : EReal)) x1 (fun i => ((L i : ℝ) : EReal)) (ix2 p q)
      = ((Cert.Interp.weighted (fun c => at2 L c q.val) (fun k => at2 H p.val (nat2 x1 q.val k.val)) : ℝ) : EReal) := by
  have hz : (![0, 0] : Fin 2 → ℕ) = fun _ => 0 := by
    funext a
    match a with
    | ⟨0, _⟩ => rfl
    | ⟨1, _⟩ => rfl
  unfold out0_3
  rw [View.canon_unit_zero hz]
  simp only [View.ld_unit_zero (S := S128x3072) hz, View.ld_unit_zero (S := S256x6) hz, View.ld_unit_zero (S := S64x256) hz]
  rw [pay4_eq, pay2_eq, pay3_eq, pay9_eq]
  unfold Cert.Interp.weighted Cert.Interp.weights
  exact pay1_apply _ _ _ (fun c => at2 L c q.val) _ _ p q (fun c => by rw [at2_ix])
    (pay5_apply H x1 p q)
    (fun c => pay10_apply H x1 _ _ _ _ _ _ p q (pay6_apply H x1 p q) (pay7_apply H x1 p q) (pay8_apply H x1 p q) c)

end Cert.KernelIdeal.Body0

end
-- ==== Proof.KBody1.lean ====
/-
  Layer 2's kernel body at one output element.

  As layer 1's, over a [128, 2048] block of real activations, with one difference: each gathered value is the sum of two
  products with the indicator column, one of the activations `h` and one of `h - h`. Over finite activations the
  second is a product with zeros, so the gathered value is again activation number `idx[q, k]` of row `p` (0 for an
  index outside the block's 2048 columns).
-/
import proofs.«400014_j26731876450941_3_alg».proof.Proof.Gen.KernelIdeal.Frame
import proofs.«400014_j26731876450941_3_alg».proof.Proof.Lut
import Idealize.ShloMosaic.Lib.IdealHost
import Idealize.ShloMosaic.Lib.Pipeline.Value

noncomputable section

namespace Cert.KernelIdeal.Body1

open Cert.KernelIdeal Cert.KernelIdeal.Gen Idealize.ShloMosaic Idealize.ShloMosaic.ValueIdx Cert.Lut

/-- The 0/1 word of an equality test of two 32-bit words, read as an extended real. -/
theorem sel_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases h : a = b
  · subst h
    simp
  · have : (a == b) = false := by simpa using h
    simp [this, h]

/-- A natural below 2 ^ 32 is a word's value exactly when its word is that word. -/
theorem ofNat_eq_iff (i : ℕ) (hi : i < 2 ^ 32) (w : BitVec 32) : BitVec.ofNat 32 i = w ↔ i = w.toNat := by
  constructor
  · intro h; rw [← h, BitVec.toNat_ofNat, Nat.mod_eq_of_lt hi]
  · intro h; rw [h, BitVec.ofNat_toNat, BitVec.setWidth_eq]

/-- The index column of the slice at offset `k`, broadcast down the 2048 rows, read at `(i, q)`: the index word
    `idx[q, k]`. -/
theorem idxrow_apply (x1 : IVec S256x6 32) (off : Fin 2 → ℕ) (kk : Fin 6) (h0 : off 0 = 0) (h1 : off 1 = kk.val)
    (hs : S256x6.Slices off S256x1) (hc1 : S256x1.ShapeCasts S256) (hc2 : S256.ShapeCasts S1x256)
    (hb : S1x256.Broadcasts S2048x256) (i : Fin 2048) (q : Fin 256) :
    broadcastTo S2048x256 (shapeCast S1x256 (shapeCast S256 (extractStridedSlice S256x1 off x1 hs) hc1) hc2) hb (ix2 i q)
      = x1 (ix2 q kk) := by
  refine (broadcastTo_apply _ hb (ix2 i q) (ix2 (0 : Fin 1) q) fun a => ?_).trans ?_
  · match a with
    | ⟨0, _⟩ => rfl
    | ⟨1, _⟩ => rfl
  refine (shapeCast_apply _ hc2 (ix2 (0 : Fin 1) q) (ix1 q) ?_).trans ?_
  · rw [Shape.rowMajor_val_one, Shape.rowMajor_val_two]
    show q.val = 0 * 256 + q.val
    omega
  refine (shapeCast_apply _ hc1 (ix1 q) (ix2 q (0 : Fin 1)) ?_).trans ?_
  · rw [Shape.rowMajor_val_one, Shape.rowMajor_val_two]
    show q.val * 1 + 0 = q.val
    omega
  refine extractStridedSlice_apply off x1 hs (ix2 q (0 : Fin 1)) (ix2 q kk) fun a => ?_
  match a with
  | ⟨0, _⟩ => show q.val = off 0 + q.val; rw [h0]; omega
  | ⟨1, _⟩ => show kk.val = off 1 + 0; rw [h1]; omega

/-- The selector of slice `k` at `(i, q)`: one where row `i` is the index word `idx[q, k]`, zero elsewhere. -/
theorem sel_apply (x1 : IVec S256x6 32) (off : Fin 2 → ℕ) (kk : Fin 6) (h0 : off 0 = 0) (h1 : off 1 = kk.val)
    (hs : S256x6.Slices off S256x1) (hc1 : S256x1.ShapeCasts S256) (hc2 : S256.ShapeCasts S1x256)
    (hb : S1x256.Broadcasts S2048x256) (hI : S2048x256.Iotas .tc 32 [0]) (h132 : 1 < 32)
    (hbf : FTy.bits .bf16 < FTy.bits .f32) (i : Fin 2048) (q : Fin 256) :
    (truncf .bf16 (sitofp .f32 (extui 32 (cmpi .eq (iota .tc S2048x256 32 [0] hI)
      (broadcastTo S2048x256 (shapeCast S1x256 (shapeCast S256 (extractStridedSlice S256x1 off x1 hs) hc1) hc2) hb)) h132)) hbf
        : FVec Ideal S2048x256 .bf16) (ix2 i q)
      = if i.val = (x1 (ix2 q kk)).toNat then 1 else 0 := by
  show (FloatOps.sitofp (F := Ideal) .f32 ((IntOp.cmpi .eq (iota .tc S2048x256 32 [0] hI (ix2 i q))
      (broadcastTo S2048x256 (shapeCast S1x256 (shapeCast S256 (extractStridedSlice S256x1 off x1 hs) hc1) hc2) hb (ix2 i q))).setWidth 32) : EReal) = _
  rw [sel_word, idxrow_apply x1 off kk h0 h1, iota_single_apply]
  have hi : i.val < 2 ^ 32 := lt_trans i.isLt (by norm_num)
  by_cases h : i.val = (x1 (ix2 q kk)).toNat
  · rw [if_pos h, if_pos ((ofNat_eq_iff _ hi _).mpr h)]
  · rw [if_neg h, if_neg (fun h' => h ((ofNat_eq_iff _ hi _).mp h'))]

/-- The product's left index on its kept axis is the output row … -/
theorem lhs_mm_0 (j : S128x256.Idx) (k : dot_S128x2048_S2048x256_S128x256_1_0_0_1_n_n.contr.Idx) :
    (dot_S128x2048_S2048x256_S128x256_1_0_0_1_n_n.lhsIdx j k 0).val = (j 0).val := by
  unfold DotDims.lhsIdx
  rw [dif_neg (show ¬(0 : Fin S128x2048.rank) ∈ dot_S128x2048_S2048x256_S128x256_1_0_0_1_n_n.lhsBatch by decide),
    dif_pos (show (0 : Fin S128x2048.rank) ∈ dot_S128x2048_S2048x256_S128x256_1_0_0_1_n_n.lhsNonContracting by decide)]
  rfl
/-- … on its contracted axis the contraction position … -/
theorem lhs_mm_1 (j : S128x256.Idx) (k : dot_S128x2048_S2048x256_S128x256_1_0_0_1_n_n.contr.Idx) :
    (dot_S128x2048_S2048x256_S128x256_1_0_0_1_n_n.lhsIdx j k 1).val = (k ⟨0, by decide⟩).val :=
  dot_S128x2048_S2048x256_S128x256_1_0_0_1_n_n.lhsIdx_val_of_single rfl j k
/-- … the right index on its contracted axis the contraction position … -/
theorem rhs_mm_0 (j : S128x256.Idx) (k : dot_S128x2048_S2048x256_S128x256_1_0_0_1_n_n.contr.Idx) :
    (dot_S128x2048_S2048x256_S128x256_1_0_0_1_n_n.rhsIdx j k 0).val = (k ⟨0, by decide⟩).val :=
  dot_S128x2048_S2048x256_S128x256_1_0_0_1_n_n.rhsIdx_val_of_single rfl j k
/-- … and on its kept axis the output column. -/
theorem rhs_mm_1 (j : S128x256.Idx) (k : dot_S128x2048_S2048x256_S128x256_1_0_0_1_n_n.contr.Idx) :
    (dot_S128x2048_S2048x256_S128x256_1_0_0_1_n_n.rhsIdx j k 1).val = (j 1).val := by
  unfold DotDims.rhsIdx
  rw [dif_neg (show ¬(1 : Fin S2048x256.rank) ∈ dot_S128x2048_S2048x256_S128x256_1_0_0_1_n_n.rhsBatch by decide),
    dif_pos (show (1 : Fin S2048x256.rank) ∈ dot_S128x2048_S2048x256_S128x256_1_0_0_1_n_n.rhsNonContracting by decide)]
  rfl

/-- The matrix product into the zero accumulator at `(p, q)`: the sum over the 2048 contracted positions. -/
theorem mm_apply (A : FVec Ideal S128x2048 .bf16) (B : FVec Ideal S2048x256 .bf16) (p : Fin 128) (q : Fin 256) :
    matmul dot_S128x2048_S2048x256_S128x256_1_0_0_1_n_n none A B (constant (F := Ideal) S128x256 .f32 0x00000000#32) (ix2 p q)
      = ∑ i : Fin 2048, A (ix2 p i) * B (ix2 i q) := by
  simp only [matmul]
  rw [Ideal.matmul_constant_zero_apply,
    ← Equiv.sum_comp (contrEquiv1 dot_S128x2048_S2048x256_S128x256_1_0_0_1_n_n 2048 rfl rfl).symm]
  refine Finset.sum_congr rfl fun k _ => ?_
  have hk := contrEquiv1_symm_val dot_S128x2048_S2048x256_S128x256_1_0_0_1_n_n 2048 rfl rfl k
  have el : dot_S128x2048_S2048x256_S128x256_1_0_0_1_n_n.lhsIdx (ix2 p q)
      ((contrEquiv1 dot_S128x2048_S2048x256_S128x256_1_0_0_1_n_n 2048 rfl rfl).symm k) = ix2 p k :=
    funext fun a => Fin.ext (by
      match a with
      | ⟨0, _⟩ => exact lhs_mm_0 _ _
      | ⟨1, _⟩ => exact (lhs_mm_1 _ _).trans hk)
  have er : dot_S128x2048_S2048x256_S128x256_1_0_0_1_n_n.rhsIdx (ix2 p q)
      ((contrEquiv1 dot_S128x2048_S2048x256_S128x256_1_0_0_1_n_n 2048 rfl rfl).symm k) = ix2 k q :=
    funext fun a => Fin.ext (by
      match a with
      | ⟨0, _⟩ => exact (rhs_mm_0 _ _).trans hk
      | ⟨1, _⟩ => exact rhs_mm_1 _ _)
  rw [el, er]

/-- A finite sum of real numbers, each read as an extended real, is their sum read as an extended real. -/
theorem coe_sum {ι : Type} (s : Finset ι) (f : ι → ℝ) :
    (∑ i ∈ s, ((f i : ℝ) : EReal)) = ((∑ i ∈ s, f i : ℝ) : EReal) := by
  classical
  refine Finset.induction_on s (by simp) fun a s ha ih => ?_
  rw [Finset.sum_insert ha, Finset.sum_insert ha, ih, EReal.coe_add]

/-- Row `p` of a real block against the indicator of position `n`: entry `n` of the row, zero when `n` is outside
    the row. -/
theorem gather_sum (H : S128x2048.Idx → ℝ) (p : Fin 128) (n : ℕ) :
    ∑ i : Fin 2048, ((H (ix2 p i) : ℝ) : EReal) * (if i.val = n then (1 : EReal) else 0)
      = ((at2 H p.val n : ℝ) : EReal) := by
  have h1 : ∀ i : Fin 2048, ((H (ix2 p i) : ℝ) : EReal) * (if i.val = n then (1 : EReal) else 0)
      = (((if i.val = n then H (ix2 p i) else 0 : ℝ)) : EReal) := by
    intro i
    by_cases h : i.val = n
    · rw [if_pos h, if_pos h, mul_one]
    · rw [if_neg h, if_neg h, mul_zero, EReal.coe_zero]
  rw [Finset.sum_congr rfl fun i _ => h1 i, coe_sum]
  congr 1
  by_cases hn : n < 2048
  · rw [Finset.sum_eq_single (⟨n, hn⟩ : Fin 2048)]
    · rw [if_pos rfl]; exact (at2_ix H p ⟨n, hn⟩).symm
    · intro b _ hb; rw [if_neg (fun h => hb (Fin.ext h))]
    · intro h; exact absurd (Finset.mem_univ _) h
  · rw [at2_of_not H _ _ (fun h => hn h.2)]
    exact Finset.sum_eq_zero fun i _ => if_neg (fun h : i.val = n => hn (by rw [← h]; exact i.isLt))

/-- One gathered value at `(p, q)`: the sum of two products with the selector of slice `k`, the first of a block
    that reads the real row `H[p, ·]`, the second of a block that reads zero on row `p`, is `H[p, idx[q, k]]`
    (zero for an index outside the row). -/
theorem gathered_apply (H : S128x2048.Idx → ℝ) (A B : FVec Ideal S128x2048 .bf16) (p : Fin 128)
    (hA : ∀ i : Fin 2048, A (ix2 p i) = ((H (ix2 p i) : ℝ) : EReal)) (hB : ∀ i : Fin 2048, B (ix2 p i) = 0)
    (x1 : IVec S256x6 32) (off : Fin 2 → ℕ) (kk : Fin 6) (h0 : off 0 = 0) (h1 : off 1 = kk.val)
    (hs : S256x6.Slices off S256x1) (hc1 : S256x1.ShapeCasts S256) (hc2 : S256.ShapeCasts S1x256)
    (hb : S1x256.Broadcasts S2048x256) (hI : S2048x256.Iotas .tc 32 [0]) (h132 : 1 < 32)
    (hbf : FTy.bits .bf16 < FTy.bits .f32) (q : Fin 256) :
    addf
      (matmul dot_S128x2048_S2048x256_S128x256_1_0_0_1_n_n none A
        (truncf .bf16 (sitofp .f32 (extui 32 (cmpi .eq (iota .tc S2048x256 32 [0] hI)
          (broadcastTo S2048x256 (shapeCast S1x256 (shapeCast S256 (extractStridedSlice S256x1 off x1 hs) hc1) hc2) hb)) h132)) hbf)
        (constant (F := Ideal) S128x256 .f32 0x00000000#32))
      (matmul dot_S128x2048_S2048x256_S128x256_1_0_0_1_n_n none B
        (truncf .bf16 (sitofp .f32 (extui 32 (cmpi .eq (iota .tc S2048x256 32 [0] hI)
          (broadcastTo S2048x256 (shapeCast S1x256 (shapeCast S256 (extractStridedSlice S256x1 off x1 hs) hc1) hc2) hb)) h132)) hbf)
        (constant (F := Ideal) S128x256 .f32 0x00000000#32)) (ix2 p q)
      = ((at2 H p.val (x1 (ix2 q kk)).toNat : ℝ) : EReal) := by
  rw [addf_apply, mm_apply, mm_apply]
  have e1 : ∀ i : Fin 2048, A (ix2 p i) *
      (truncf .bf16 (sitofp .f32 (extui 32 (cmpi .eq (iota .tc S2048x256 32 [0] hI)
          (broadcastTo S2048x256 (shapeCast S1x256 (shapeCast S256 (extractStridedSlice S256x1 off x1 hs) hc1) hc2) hb)) h132)) hbf
          : FVec Ideal S2048x256 .bf16) (ix2 i q)
      = ((H (ix2 p i) : ℝ) : EReal) * (if i.val = (x1 (ix2 q kk)).toNat then (1 : EReal) else 0) := fun i => by
    rw [hA, sel_apply x1 off kk h0 h1]
  have e2 : ∀ i : Fin 2048, B (ix2 p i) *
      (truncf .bf16 (sitofp .f32 (extui 32 (cmpi .eq (iota .tc S2048x256 32 [0] hI)
          (broadcastTo S2048x256 (shapeCast S1x256 (shapeCast S256 (extractStridedSlice S256x1 off x1 hs) hc1) hc2) hb)) h132)) hbf
          : FVec Ideal S2048x256 .bf16) (ix2 i q) = 0 := fun i => by
    rw [hB, zero_mul]
  rw [Finset.sum_congr rfl fun i _ => e1 i, Finset.sum_congr rfl fun i _ => e2 i, Finset.sum_const_zero, add_zero,
    gather_sum]

/-- A block `w : [128, h, 256]` reads the real vector `W` along its middle axis at row `p`, column `q`. -/
def Reads3 {h : ℕ} (w : FVec Ideal ⟨3, ![128, h, 256]⟩ .f32) (p : Fin 128) (q : Fin 256) (W : ℕ → ℝ) : Prop :=
  ∀ c : Fin h, w (ix3 p c q) = ((W c.val : ℝ) : EReal)

/-- Two blocks laid end to end along the middle axis, read in the first one's span … -/
theorem concat2_apply_lo {h h2 : ℕ} (u v : FVec Ideal ⟨3, ![128, h, 256]⟩ .f32)
    (hc : Shape.Concatenates [(⟨3, ![128, h, 256]⟩ : Shape), ⟨3, ![128, h, 256]⟩] ⟨3, ![128, h2, 256]⟩ 1)
    (p : Fin 128) (c : Fin h2) (q : Fin 256) (hlt : c.val < h) :
    concatenate ⟨3, ![128, h2, 256]⟩ 1 [⟨⟨3, ![128, h, 256]⟩, u⟩, ⟨⟨3, ![128, h, 256]⟩, v⟩] hc (ix3 p c q)
      = u (ix3 p ⟨c.val, hlt⟩ q) := by
  refine concatenate_apply_piece (t := ⟨3, ![128, h2, 256]⟩) (1 : Fin 3) [⟨⟨3, ![128, h, 256]⟩, u⟩, ⟨⟨3, ![128, h, 256]⟩, v⟩] hc (ix3 p c q) 0 Nat.zero_lt_two _ u rfl rfl 0 rfl
    (ix3 p ⟨c.val, hlt⟩ q) (fun b hb => ?_) ?_
  · match b with
    | ⟨0, _⟩ => rfl
    | ⟨1, _⟩ => exact absurd (Fin.ext rfl) hb
    | ⟨2, _⟩ => rfl
  · show 0 + c.val = c.val; omega

/-- … and in the second one's. -/
theorem concat2_apply_hi {h h2 : ℕ} (u v : FVec Ideal ⟨3, ![128, h, 256]⟩ .f32)
    (hc : Shape.Concatenates [(⟨3, ![128, h, 256]⟩ : Shape), ⟨3, ![128, h, 256]⟩] ⟨3, ![128, h2, 256]⟩ 1)
    (p : Fin 128) (c : Fin h2) (q : Fin 256) (hge : h ≤ c.val) (hlt : c.val - h < h) :
    concatenate ⟨3, ![128, h2, 256]⟩ 1 [⟨⟨3, ![128, h, 256]⟩, u⟩, ⟨⟨3, ![128, h, 256]⟩, v⟩] hc (ix3 p c q)
      = v (ix3 p ⟨c.val - h, hlt⟩ q) := by
  refine concatenate_apply_piece (t := ⟨3, ![128, h2, 256]⟩) (1 : Fin 3) [⟨⟨3, ![128, h, 256]⟩, u⟩, ⟨⟨3, ![128, h, 256]⟩, v⟩] hc (ix3 p c q) 1 Nat.one_lt_two _ v rfl rfl h ?_
    (ix3 p ⟨c.val - h, hlt⟩ q) (fun b hb => ?_) ?_
  · simp
  · match b with
    | ⟨0, _⟩ => rfl
    | ⟨1, _⟩ => exact absurd (Fin.ext rfl) hb
    | ⟨2, _⟩ => rfl
  · show h + (c.val - h) = c.val; omega

/-- One doubling step: a block that reads `W`, times a block that reads `1 - X` everywhere, followed along the
    middle axis by the same block times one that reads `X` everywhere, reads the doubled vector. -/
theorem dbl_reads {h h2 : ℕ} (hh : h2 = h + h) (w a b : FVec Ideal ⟨3, ![128, h, 256]⟩ .f32)
    (hc : Shape.Concatenates [(⟨3, ![128, h, 256]⟩ : Shape), ⟨3, ![128, h, 256]⟩] ⟨3, ![128, h2, 256]⟩ 1)
    (p : Fin 128) (q : Fin 256) (W : ℕ → ℝ) (X : ℝ) (hw : Reads3 w p q W)
    (ha : ∀ c : Fin h, a (ix3 p c q) = ((1 - X : ℝ) : EReal)) (hb : ∀ c : Fin h, b (ix3 p c q) = ((X : ℝ) : EReal)) :
    Reads3 (concatenate ⟨3, ![128, h2, 256]⟩ 1 [⟨⟨3, ![128, h, 256]⟩, mulf w a⟩, ⟨⟨3, ![128, h, 256]⟩, mulf w b⟩] hc)
      p q (Cert.Interp.dbl h W X) := by
  intro c
  show _ = (((if c.val < h then W c.val * (1 - X) else W (c.val - h) * X) : ℝ) : EReal)
  by_cases hlt : c.val < h
  · rw [concat2_apply_lo _ _ hc p c q hlt, mulf_apply, hw, ha, if_pos hlt, ← EReal.coe_mul]
  · have hge : h ≤ c.val := Nat.le_of_not_lt hlt
    have hlt' : c.val - h < h := by have := c.isLt; omega
    rw [concat2_apply_hi _ _ hc p c q hge hlt', mulf_apply, hw, hb, if_neg hlt, ← EReal.coe_mul]

/-- A `[128, 1, 256]` block broadcast along its middle axis reads, at `(p, c, q)`, its entry `(p, 0, q)`. -/
theorem bcast3_apply {h : ℕ} (x : FVec Ideal S128x1x256 .f32) (hb : S128x1x256.Broadcasts ⟨3, ![128, h, 256]⟩)
    (p : Fin 128) (c : Fin h) (q : Fin 256) :
    broadcastTo ⟨3, ![128, h, 256]⟩ x hb (ix3 p c q) = x (ix3 p (0 : Fin 1) q) := by
  refine broadcastTo_apply x hb (ix3 p c q) (ix3 p (0 : Fin 1) q) fun a => ?_
  match a with
  | ⟨0, _⟩ => rfl
  | ⟨1, _⟩ => rfl
  | ⟨2, _⟩ => rfl

/-- A `[128, 256]` block viewed `[128, 1, 256]` reads, at `(p, 0, q)`, its entry `(p, q)`. -/
theorem cast3_apply (g : FVec Ideal S128x256 .f32) (hc : S128x256.ShapeCasts S128x1x256) (p : Fin 128) (q : Fin 256) :
    shapeCast S128x1x256 g hc (ix3 p (0 : Fin 1) q) = g (ix2 p q) := by
  refine shapeCast_apply g hc _ (ix2 p q) ?_
  rw [Shape.rowMajor_val_two, Shape.rowMajor_val_three]
  show p.val * 256 + q.val = (p.val * 1 + 0) * 256 + q.val
  omega

/-- The splat of the word of one reads one. -/
theorem ones_apply (s : Shape) (i : s.Idx) :
    (broadcast s (Scalar.ofBits (F := Ideal) .f32 0x3F800000#32) : FVec Ideal s .f32) i = 1 := by
  show Ideal.ofBits .f32 0x3F800000#32 = 1
  exact Ideal.ofBits_one_f32

/-- One less a block that reads the real `X` reads `1 - X`. -/
theorem one_sub_apply (s : Shape) (x : FVec Ideal s .f32) (i : s.Idx) (X : ℝ) (hx : x i = ((X : ℝ) : EReal)) :
    subf (broadcast s (Scalar.ofBits (F := Ideal) .f32 0x3F800000#32)) x i = ((1 - X : ℝ) : EReal) := by
  rw [subf_apply, ones_apply, hx, EReal.coe_sub, EReal.coe_one]

/-- The doubling step as the body spells it from the second step on: the block times the broadcast of one less the
    reshaped gathered value, then the block times the broadcast of the reshaped gathered value. -/
theorem dbl_step {h h2 : ℕ} (hh : h2 = h + h) (w : FVec Ideal ⟨3, ![128, h, 256]⟩ .f32) (xs : FVec Ideal S128x1x256 .f32)
    (hb : S128x1x256.Broadcasts ⟨3, ![128, h, 256]⟩)
    (hc : Shape.Concatenates [(⟨3, ![128, h, 256]⟩ : Shape), ⟨3, ![128, h, 256]⟩] ⟨3, ![128, h2, 256]⟩ 1)
    (p : Fin 128) (q : Fin 256) (W : ℕ → ℝ) (X : ℝ) (hw : Reads3 w p q W)
    (hx : xs (ix3 p (0 : Fin 1) q) = ((X : ℝ) : EReal)) :
    Reads3 (concatenate ⟨3, ![128, h2, 256]⟩ 1
      [⟨⟨3, ![128, h, 256]⟩, mulf w (broadcastTo ⟨3, ![128, h, 256]⟩
          (subf (broadcast S128x1x256 (Scalar.ofBits (F := Ideal) .f32 0x3F800000#32)) xs) hb)⟩,
        ⟨⟨3, ![128, h, 256]⟩, mulf w (broadcastTo ⟨3, ![128, h, 256]⟩ xs hb)⟩] hc)
      p q (Cert.Interp.dbl h W X) :=
  dbl_reads hh w _ _ hc p q W X hw
    (fun c => (bcast3_apply _ hb p c q).trans (one_sub_apply _ xs _ X hx))
    (fun c => (bcast3_apply _ hb p c q).trans hx)

/-- The last stage at `(p, q)`: the table block broadcast over the rows, times the weight block, added up along the
    middle axis from zero, is the sum over the 64 corners of table entry times weight. -/
theorem final_apply (T : FVec Ideal S64x256 .f32) (w : FVec Ideal S128x64x256 .f32) (hc : S64x256.ShapeCasts S1x64x256)
    (hb : S1x64x256.Broadcasts S128x64x256) (hr : S128x64x256.Reduces [1] S128x256) (hφ : FKind.Formats .f32)
    (hacc : (0x00000000#32 : BitVec 32) = FKind.add.neutral .f32 hφ) (p : Fin 128) (q : Fin 256) :
    multiReduction (F := Ideal) .add [1] S128x256 (mulf (broadcastTo S128x64x256 (shapeCast S1x64x256 T hc) hb) w)
      0x00000000#32 hr hφ hacc (ix2 p q) = ∑ c : Fin 64, T (ix2 c q) * w (ix3 p c q) := by
  refine (Ideal.multiReduction_add_single _ _ hr hφ hacc (ix2 p q)).trans ?_
  refine Finset.sum_congr rfl fun (c : Fin 64) _ => ?_
  have e : hr.lift (ix2 p q) c = ix3 p c q := funext fun a => Fin.ext (by
    match a with
    | ⟨0, _⟩ => rfl
    | ⟨1, _⟩ => rfl
    | ⟨2, _⟩ => rfl)
  rw [e, mulf_apply]
  congr 1
  refine (broadcastTo_apply _ hb (ix3 p c q) (ix3 (0 : Fin 1) c q) fun a => ?_).trans ?_
  · match a with
    | ⟨0, _⟩ => rfl
    | ⟨1, _⟩ => rfl
    | ⟨2, _⟩ => rfl
  refine shapeCast_apply T hc _ (ix2 c q) ?_
  rw [Shape.rowMajor_val_two, Shape.rowMajor_val_three]
  show c.val * 256 + q.val = (0 * 64 + c.val) * 256 + q.val
  omega

/-- The last stage over a real table block and a weight block that reads the real weights `W`. -/
theorem final_reads (L : S64x256.Idx → ℝ) (T : FVec Ideal S64x256 .f32) (q : Fin 256) (hT : ∀ c : Fin 64, T (ix2 c q) = ((L (ix2 c q) : ℝ) : EReal))
    (w : FVec Ideal S128x64x256 .f32) (hc : S64x256.ShapeCasts S1x64x256)
    (hb : S1x64x256.Broadcasts S128x64x256) (hr : S128x64x256.Reduces [1] S128x256) (hφ : FKind.Formats .f32)
    (hacc : (0x00000000#32 : BitVec 32) = FKind.add.neutral .f32 hφ) (p : Fin 128) (W : ℕ → ℝ)
    (hw : Reads3 w p q W) :
    multiReduction (F := Ideal) .add [1] S128x256 (mulf (broadcastTo S128x64x256 (shapeCast S1x64x256 T hc) hb) w)
      0x00000000#32 hr hφ hacc (ix2 p q)
      = ((∑ c ∈ Finset.range 64, at2 L c q.val * W c : ℝ) : EReal) := by
  rw [final_apply, Finset.sum_range, ← coe_sum]
  refine Finset.sum_congr rfl fun c _ => ?_
  rw [hT, hw c, at2_ix L c q, EReal.coe_mul]

/-- The gathered value, with the index word read as a natural number at natural coordinates. -/
theorem gathered_nat (H : S128x2048.Idx → ℝ) (A B : FVec Ideal S128x2048 .bf16) (p : Fin 128)
    (hA : ∀ i : Fin 2048, A (ix2 p i) = ((H (ix2 p i) : ℝ) : EReal)) (hB : ∀ i : Fin 2048, B (ix2 p i) = 0)
    (x1 : IVec S256x6 32) (off : Fin 2 → ℕ) (kk : Fin 6) (h0 : off 0 = 0) (h1 : off 1 = kk.val)
    (hs : S256x6.Slices off S256x1) (hc1 : S256x1.ShapeCasts S256) (hc2 : S256.ShapeCasts S1x256)
    (hb : S1x256.Broadcasts S2048x256) (hI : S2048x256.Iotas .tc 32 [0]) (h132 : 1 < 32)
    (hbf : FTy.bits .bf16 < FTy.bits .f32) (q : Fin 256) :
    addf
      (matmul dot_S128x2048_S2048x256_S128x256_1_0_0_1_n_n none A
        (truncf .bf16 (sitofp .f32 (extui 32 (cmpi .eq (iota .tc S2048x256 32 [0] hI)
          (broadcastTo S2048x256 (shapeCast S1x256 (shapeCast S256 (extractStridedSlice S256x1 off x1 hs) hc1) hc2) hb)) h132)) hbf)
        (constant (F := Ideal) S128x256 .f32 0x00000000#32))
      (matmul dot_S128x2048_S2048x256_S128x256_1_0_0_1_n_n none B
        (truncf .bf16 (sitofp .f32 (extui 32 (cmpi .eq (iota .tc S2048x256 32 [0] hI)
          (broadcastTo S2048x256 (shapeCast S1x256 (shapeCast S256 (extractStridedSlice S256x1 off x1 hs) hc1) hc2) hb)) h132)) hbf)
        (constant (F := Ideal) S128x256 .f32 0x00000000#32)) (ix2 p q)
      = ((at2 H p.val (nat2 x1 q.val kk.val) : ℝ) : EReal) :=
  (gathered_apply H A B p hA hB x1 off kk h0 h1 hs hc1 hc2 hb hI h132 hbf q).trans (by rw [nat2_ix])

/-- The activation block narrowed: the block itself. -/
theorem pay3_apply (v0 : Vec Ideal S128x2048 .f32) (i : S128x2048.Idx) : k1_pay3 (F := Ideal) v0 i = v0 i := by
  unfold k1_pay3 k1_pay2
  rw [truncf_apply, shapeCast_self]

/-- The block of real activations less itself, narrowed: zero. -/
theorem pay4_apply (H : S128x2048.Idx → ℝ) (i : S128x2048.Idx) :
    k1_pay4 (F := Ideal) (fun i => ((H i : ℝ) : EReal)) i = 0 := by
  unfold k1_pay4 k1_pay2
  rw [truncf_apply, subf_apply, shapeCast_self, ← EReal.coe_sub, sub_self, EReal.coe_zero]

/-- The index block, and the table block, pass through their identity reshapes. -/
theorem pay5_eq (v6 : Vec Ideal S256x6 .i32) : k1_pay5 (F := Ideal) v6 = v6 := by
  unfold k1_pay5; exact shapeCast_self _ _
theorem pay6_eq (v8 : Vec Ideal S64x256 .f32) : k1_pay6 (F := Ideal) v8 = v8 := by
  unfold k1_pay6; exact shapeCast_self _ _

/-- Gathered value 0 at `(p, q)`. -/
theorem pay7_apply (H : S128x2048.Idx → ℝ) (x1 : Vec Ideal S256x6 .i32) (p : Fin 128) (q : Fin 256) :
    k1_pay7 (F := Ideal) (fun i => ((H i : ℝ) : EReal)) x1 (ix2 p q)
      = ((at2 H p.val (nat2 x1 q.val (0 : Fin 6).val) : ℝ) : EReal) := by
  unfold k1_pay7
  exact (gathered_nat H _ _ p (fun i => pay3_apply _ _) (fun i => pay4_apply H _) (k1_pay5 (F := Ideal) x1) ![0, 0] 0 rfl rfl
    _ _ _ _ _ _ _ q).trans (by rw [pay5_eq])

/-- Gathered value 1 at `(p, q)`. -/
theorem pay8_apply (H : S128x2048.Idx → ℝ) (x1 : Vec Ideal S256x6 .i32) (p : Fin 128) (q : Fin 256) :
    k1_pay8 (F := Ideal) (fun i => ((H i : ℝ) : EReal)) x1 (ix2 p q)
      = ((at2 H p.val (nat2 x1 q.val (1 : Fin 6).val) : ℝ) : EReal) := by
  unfold k1_pay8
  exact (gathered_nat H _ _ p (fun i => pay3_apply _ _) (fun i => pay4_apply H _) (k1_pay5 (F := Ideal) x1) ![0, 1] 1 rfl rfl
    _ _ _ _ _ _ _ q).trans (by rw [pay5_eq])

/-- Gathered value 2 at `(p, q)`. -/
theorem pay9_apply (H : S128x2048.Idx → ℝ) (x1 : Vec Ideal S256x6 .i32) (p : Fin 128) (q : Fin 256) :
    k1_pay9 (F := Ideal) (fun i => ((H i : ℝ) : EReal)) x1 (ix2 p q)
      = ((at2 H p.val (nat2 x1 q.val (2 : Fin 6).val) : ℝ) : EReal) := by
  unfold k1_pay9
  exact (gathered_nat H _ _ p (fun i => pay3_apply _ _) (fun i => pay4_apply H _) (k1_pay5 (F := Ideal) x1) ![0, 2] 2 rfl rfl
    _ _ _ _ _ _ _ q).trans (by rw [pay5_eq])

/-- Gathered value 3, reshaped, at `(p, 0, q)`. -/
theorem pay12_apply (H : S128x2048.Idx → ℝ) (A B : FVec Ideal S128x2048 .bf16) (p : Fin 128)
    (hA : ∀ i : Fin 2048, A (ix2 p i) = ((H (ix2 p i) : ℝ) : EReal)) (hB : ∀ i : Fin 2048, B (ix2 p i) = 0)
    (x1 : Vec Ideal S256x6 .i32) (hI : S2048x256.Iotas .tc 32 [0]) (q : Fin 256) :
    k1_pay12 (F := Ideal) A B (iota .tc S2048x256 32 [0] hI) (k1_pay10 (F := Ideal) x1) (ix3 p (0 : Fin 1) q)
      = ((at2 H p.val (nat2 x1 q.val (3 : Fin 6).val) : ℝ) : EReal) := by
  unfold k1_pay12 k1_pay10
  exact (cast3_apply _ _ p q).trans ((gathered_nat H A B p hA hB (k1_pay5 (F := Ideal) x1) ![0, 3] 3 rfl rfl
    _ _ _ _ _ _ _ q).trans (by rw [pay5_eq]))

/-- One less gathered value 3, broadcast to four corners, at `(p, c, q)`. -/
theorem pay13_apply (H : S128x2048.Idx → ℝ) (A B : FVec Ideal S128x2048 .bf16) (p : Fin 128)
    (hA : ∀ i : Fin 2048, A (ix2 p i) = ((H (ix2 p i) : ℝ) : EReal)) (hB : ∀ i : Fin 2048, B (ix2 p i) = 0)
    (x1 : Vec Ideal S256x6 .i32) (hI : S2048x256.Iotas .tc 32 [0]) (c : Fin 4) (q : Fin 256) :
    k1_pay13 (F := Ideal) A B (iota .tc S2048x256 32 [0] hI) (k1_pay10 (F := Ideal) x1) (ix3 p c q)
      = ((1 - at2 H p.val (nat2 x1 q.val (3 : Fin 6).val) : ℝ) : EReal) := by
  unfold k1_pay13
  exact (bcast3_apply _ _ p c q).trans (one_sub_apply _ _ _ _ (pay12_apply H A B p hA hB x1 hI q))

/-- The first two doubling steps (gathered values 5 and 4): the four corner weights. -/
theorem pay11_reads (H : S128x2048.Idx → ℝ) (A B : FVec Ideal S128x2048 .bf16) (p : Fin 128)
    (hA : ∀ i : Fin 2048, A (ix2 p i) = ((H (ix2 p i) : ℝ) : EReal)) (hB : ∀ i : Fin 2048, B (ix2 p i) = 0)
    (x1 : IVec S256x6 32) (hI : S2048x256.Iotas .tc 32 [0]) (q : Fin 256) :
    Reads3 (k1_pay11 (F := Ideal) A B x1 (iota .tc S2048x256 32 [0] hI)) p q
      (Cert.Interp.dbl 2 (Cert.Interp.dbl 1 (fun _ => 1) (at2 H p.val (nat2 x1 q.val (5 : Fin 6).val)))
        (at2 H p.val (nat2 x1 q.val (4 : Fin 6).val))) := by
  unfold k1_pay11
  refine dbl_step (by rfl) _ _ _ _ p q _ _ ?_
    ((cast3_apply _ _ p q).trans (gathered_nat H A B p hA hB x1 ![0, 4] 4 rfl rfl _ _ _ _ _ _ _ q))
  have hx5 := (cast3_apply _ shapeCasts_S128x256_S128x1x256 p q).trans (gathered_nat H A B p hA hB x1 ![0, 5] 5 rfl rfl
    slices_S256x6_o0_5_S256x1 shapeCasts_S256x1_S256 shapeCasts_S256_S1x256 broadcasts_S1x256_S2048x256 hI natLt_1_32
    bitsLt_bf16_f32 q)
  refine dbl_reads (by rfl) _ _ _ _ p q _ _ (fun c => (ones_apply _ _).trans EReal.coe_one.symm) (fun c => ?_) (fun c => ?_)
  · obtain rfl : c = 0 := Subsingleton.elim _ _
    exact one_sub_apply _ _ _ _ hx5
  · obtain rfl : c = 0 := Subsingleton.elim _ _
    exact hx5

/-- The body's stored block at `(p, q)`, over finite inputs: the table column `q` against the corner weights of the six
    activations row `p` gathers at the index words of row `q`. -/
theorem out1_3_apply (H : S128x2048.Idx → ℝ) (x1 : Vec Ideal S256x6 .i32) (L : S64x256.Idx → ℝ) (p : Fin 128) (q : Fin 256) :
    out1_3 (F := Ideal) (fun i => ((H i : ℝ) : EReal)) x1 (fun i => ((L i : ℝ) : EReal)) (ix2 p q)
      = ((Cert.Interp.weighted (fun c => at2 L c q.val) (fun k => at2 H p.val (nat2 x1 q.val k.val)) : ℝ) : EReal) := by
  have hz : (![0, 0] : Fin 2 → ℕ) = fun _ => 0 := funext fun a => by fin_cases a <;> rfl
  unfold out1_3
  refine (congrFun (View.canon_unit_zero hz _ _) (ix2 p q)).trans ?_
  rw [View.ld_unit_zero (S := S128x2048) hz, View.ld_unit_zero (S := S256x6) hz, View.ld_unit_zero (S := S64x256) hz,
    pay5_eq, pay6_eq]
  have hA : ∀ i : Fin 2048, k1_pay3 (F := Ideal) (fun i => ((H i : ℝ) : EReal)) (ix2 p i) = ((H (ix2 p i) : ℝ) : EReal) :=
    fun i => pay3_apply _ _
  have hB : ∀ i : Fin 2048, k1_pay4 (F := Ideal) (fun i => ((H i : ℝ) : EReal)) (ix2 p i) = 0 := fun i => pay4_apply H _
  unfold k1_pay1
  show _ = ((∑ c ∈ Finset.range 64,
    at2 L c q.val * Cert.Interp.weights (fun k : Fin 6 => at2 H p.val (nat2 x1 q.val k.val)) c : ℝ) : EReal)
  refine final_reads L (fun i => ((L i : ℝ) : EReal)) q (fun c => rfl) _ _ _ _ _ _ p _ ?_
  unfold Cert.Interp.weights
  refine dbl_step (by rfl) _ _ _ _ p q _ _ ?_ ((cast3_apply _ _ p q).trans (pay7_apply H x1 p q))
  refine dbl_step (by rfl) _ _ _ _ p q _ _ ?_ ((cast3_apply _ _ p q).trans (pay8_apply H x1 p q))
  refine dbl_step (by rfl) _ _ _ _ p q _ _ ?_ ((cast3_apply _ _ p q).trans (pay9_apply H x1 p q))
  refine dbl_reads (by rfl) _ _ _ _ p q _ _ ?_ (fun c => pay13_apply H _ _ p hA hB x1 _ c q)
    (fun c => (bcast3_apply _ _ p c q).trans (pay12_apply H _ _ p hA hB x1 _ q))
  exact pay11_reads H _ _ p hA hB x1 _ q

end Cert.KernelIdeal.Body1

end
-- ==== Proof.KCover.lean ====
/-
  From blocks to arrays, for both layers.

  Layer 1 runs on a 4 × 8 grid: point (bi, oi) reads rows 128 bi … of the [512, 3072] activations (all columns), rows
  256 oi … of the [2048, 6] index table, columns 256 oi … of the [64, 2048] transposed look-up table, and writes block
  (bi, oi) of the [512, 2048] result. Layer 2 is the same on a 4 × 4 grid over [512, 2048] activations, a [1024, 6]
  index table, a [64, 1024] table and a [512, 1024] result. Every result block is written by exactly one point, and the
  blocks fill the result; what point (bi, oi) writes is the restriction to its block of ONE function of the whole arrays.
-/
import proofs.«400014_j26731876450941_3_alg».proof.Proof.KBody0
import proofs.«400014_j26731876450941_3_alg».proof.Proof.KBody1
import Idealize.ShloMosaic.Lib.Pipeline.Value

noncomputable section

namespace Cert.KernelIdeal.Cover

open Cert.KernelIdeal Cert.KernelIdeal.Gen Idealize.ShloMosaic Idealize.ShloMosaic.TcCoe Idealize.ShloMosaic.ValueIdx Idealize.SL.Sem Cert.Lut

variable (V : (c : Dev nD) → (b : Ref sig .tc) → Buf (Elt Ideal) ((c : Thread nD τ).loc b))

/-! ## Reading a block at natural coordinates -/

/-- A block of `a` rows of a real array, starting at row `r` and holding all columns, read at natural coordinates inside
    its rows, is the array read `r` rows further down. -/
theorem at2_rows {A B a : ℕ} (f : (⟨2, ![A, B]⟩ : Shape).Idx → ℝ) (g : (⟨2, ![a, B]⟩ : Shape).Idx → ℝ) (r : ℕ) (hr : r + a ≤ A)
    (hg : ∀ (i : Fin a) (j : Fin B), g (ix2 i j) = f (ix2 ⟨r + i.val, by omega⟩ j)) (i : Fin a) (j : ℕ) :
    at2 g i.val j = at2 f (r + i.val) j := by
  unfold at2
  by_cases h : j < B
  · rw [dif_pos ⟨i.isLt, h⟩, dif_pos ⟨by omega, h⟩]
    exact hg i ⟨j, h⟩
  · rw [dif_neg (fun h' => h h'.2), dif_neg (fun h' => h h'.2)]

/-- A block of `b` columns of a real array, starting at column `s` and holding all rows, read at natural coordinates
    inside its columns, is the array read `s` columns further right. -/
theorem at2_cols {A B b : ℕ} (f : (⟨2, ![A, B]⟩ : Shape).Idx → ℝ) (g : (⟨2, ![A, b]⟩ : Shape).Idx → ℝ) (s : ℕ) (hs : s + b ≤ B)
    (hg : ∀ (i : Fin A) (j : Fin b), g (ix2 i j) = f (ix2 i ⟨s + j.val, by omega⟩)) (i : ℕ) (j : Fin b) :
    at2 g i j.val = at2 f i (s + j.val) := by
  unfold at2
  by_cases h : i < A
  · rw [dif_pos ⟨h, j.isLt⟩, dif_pos ⟨h, by omega⟩]
    exact hg ⟨i, h⟩ j
  · rw [dif_neg (fun h' => h h'.1), dif_neg (fun h' => h h'.1)]

/-- A block of `a` rows of an array of 32-bit words, starting at row `r` and holding all columns, read as natural numbers. -/
theorem nat2_rows {A B a : ℕ} (f : (⟨2, ![A, B]⟩ : Shape).Idx → BitVec 32) (g : (⟨2, ![a, B]⟩ : Shape).Idx → BitVec 32) (r : ℕ)
    (hr : r + a ≤ A) (hg : ∀ (i : Fin a) (j : Fin B), g (ix2 i j) = f (ix2 ⟨r + i.val, by omega⟩ j)) (i : Fin a) (j : ℕ) :
    nat2 g i.val j = nat2 f (r + i.val) j := by
  unfold nat2
  by_cases h : j < B
  · rw [dif_pos ⟨i.isLt, h⟩, dif_pos ⟨by omega, h⟩]
    exact congrArg BitVec.toNat (hg i ⟨j, h⟩)
  · rw [dif_neg (fun h' => h h'.2), dif_neg (fun h' => h h'.2)]

/-! ## One output element, from the blocks and from the arrays -/

/-- The interpolation a grid point computes at element `(p, q)` of its block, from its blocks of the activations (rows
    `r …`, all columns), of the index table (rows `s …`) and of the look-up table (columns `s …`), is the interpolation of the
    whole arrays at row `r + p` and column `s + q`. -/
theorem weighted_block {R C N a b : ℕ} (H : (⟨2, ![R, C]⟩ : Shape).Idx → ℝ) (IDX : (⟨2, ![N, 6]⟩ : Shape).Idx → BitVec 32)
    (LT : (⟨2, ![64, N]⟩ : Shape).Idx → ℝ) (Hb : (⟨2, ![a, C]⟩ : Shape).Idx → ℝ) (x1 : (⟨2, ![b, 6]⟩ : Shape).Idx → BitVec 32)
    (Lb : (⟨2, ![64, b]⟩ : Shape).Idx → ℝ) (r s : ℕ) (hr : r + a ≤ R) (hs : s + b ≤ N)
    (hH : ∀ (i : Fin a) (j : Fin C), Hb (ix2 i j) = H (ix2 ⟨r + i.val, by omega⟩ j))
    (hI : ∀ (i : Fin b) (k : Fin 6), x1 (ix2 i k) = IDX (ix2 ⟨s + i.val, by omega⟩ k))
    (hL : ∀ (cc : Fin 64) (j : Fin b), Lb (ix2 cc j) = LT (ix2 cc ⟨s + j.val, by omega⟩))
    (p : Fin a) (q : Fin b) (row col : ℕ) (hrow : row = r + p.val) (hcol : col = s + q.val) :
    Cert.Interp.weighted (fun c => at2 Lb c q.val) (fun k => at2 Hb p.val (nat2 x1 q.val k.val))
      = Cert.Interp.weighted (fun c' => at2 LT c' col) (fun k => at2 H row (nat2 IDX col k.val)) := by
  subst hrow hcol
  have e1 : (fun c => at2 Lb c q.val) = fun c' => at2 LT c' (s + q.val) := funext fun c => at2_cols LT Lb s hs hL c q
  have e2 : (fun k : Fin 6 => at2 Hb p.val (nat2 x1 q.val k.val)) = fun k => at2 H (r + p.val) (nat2 IDX (s + q.val) k.val) :=
    funext fun k => by rw [nat2_rows IDX x1 s hs hI q k.val]; exact at2_rows H Hb r hr hH p _
  rw [e1, e2]

/-! ## Layer 1: grid 4 × 8 -/

/-- What layer 1 leaves in its result array, as one function of the arrays it is entered with. -/
def layer0 (H : S512x3072.Idx → ℝ) (IDX : Vec Ideal S2048x6 .i32) (LT : S64x2048.Idx → ℝ) : S512x2048.Idx → EReal :=
  fun j => ((Cert.Interp.weighted (fun c' => at2 LT c' (j 1).val)
    (fun k => at2 H (j 0).val (nat2 IDX (j 1).val k.val)) : ℝ) : EReal)

/-- The index maps of layer 1, evaluated over its 32 grid points: the activations' block follows the result block's row
    index and has column index 0; the index table's block has the result block's column index as its row index; the
    look-up table's block has it as its column index; the result block's indices stay below 4 and 8. -/
theorem blockIdx0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every one of the 4 × 8 result blocks is some grid point's. -/
theorem blockIdx0_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-- What grid point `t` of layer 1 writes back is its block of `layer0` of the entry arrays. -/
theorem flushed0 (c : Dev nD) (H : S512x3072.Idx → ℝ) (LT : S64x2048.Idx → ℝ)
    (h0 : V c (Pipeline.arrRef spec0 0) = fun i => ((H i : ℝ) : EReal))
    (h2 : V c (Pipeline.arrRef spec0 2) = fun i => ((LT i : ℝ) : EReal)) (t : Fin cfg0.N) :
    (dat0 (F := Ideal) V c).flushed 3 t
      = ((cfg0.win 3).blk t).view.read (Elt Ideal) (layer0 H (V c (Pipeline.arrRef spec0 1)) LT) := by
  show (cfg0.win 3).cut (grid0.coords t) ((dat0 V c).after 3 t) = _
  rw [after0_3]
  funext y
  obtain ⟨p, q, rfl⟩ : ∃ (p : Fin 128) (q : Fin 256), y = ix2 p q := ⟨y 0, y 1, eq_ix2 y⟩
  obtain ⟨e00, e01, e10, e11, e20, e21, b0, b1⟩ := blockIdx0 t
  -- the activations' block and the table's block are finite, being blocks of finite arrays
  have hA : (iblk0 V c 0 t : Vec Ideal S128x3072 .bf16) = fun i => ((H (((cfg0.win 0).blk t).view.emb i) : ℝ) : EReal) := by
    unfold iblk0; rw [h0]; rfl
  have hT : (iblk0 V c 2 t : Vec Ideal S64x256 .f32) = fun i => ((LT (((cfg0.win 2).blk t).view.emb i) : ℝ) : EReal) := by
    unfold iblk0; rw [h2]; rfl
  show out0_3 (iblk0 V c 0 t) (iblk0 V c 1 t) (iblk0 V c 2 t) (ix2 p q)
    = layer0 H (V c (Pipeline.arrRef spec0 1)) LT (((cfg0.win 3).blk t).view.emb (ix2 p q))
  rw [hA, hT]
  refine (Body0.out0_3_apply (fun i => H (((cfg0.win 0).blk t).view.emb i)) (iblk0 V c 1 t)
    (fun i => LT (((cfg0.win 2).blk t).view.emb i)) p q).trans ?_
  unfold layer0
  -- a block's coordinate in its array is its block index times the block's size plus the coordinate inside the block
  refine congrArg (fun x : ℝ => (x : EReal)) (weighted_block H (V c (Pipeline.arrRef spec0 1)) LT _ (iblk0 V c 1 t) _
    (win0_3.index t (0 : Fin 2) * 128) (win0_3.index t (1 : Fin 2) * 256) (by omega) (by omega) ?_ ?_ ?_ p q _ _ ?_ ?_)
  · intro i j
    refine congrArg H (funext fun a => Fin.ext ?_)
    match a with
    | ⟨0, _⟩ => show win0_0.index t (0 : Fin 2) * 128 + 1 * i.val = win0_3.index t (0 : Fin 2) * 128 + i.val; omega
    | ⟨1, _⟩ => show win0_0.index t (1 : Fin 2) * 3072 + 1 * j.val = j.val; omega
  · intro i k
    show (V c (Pipeline.arrRef spec0 1) : S2048x6.Idx → BitVec 32) (((cfg0.win 1).blk t).view.emb (ix2 i k)) = _
    refine congrArg (V c (Pipeline.arrRef spec0 1) : S2048x6.Idx → BitVec 32) (funext fun a => Fin.ext ?_)
    match a with
    | ⟨0, _⟩ => show win0_1.index t (0 : Fin 2) * 256 + 1 * i.val = win0_3.index t (1 : Fin 2) * 256 + i.val; omega
    | ⟨1, _⟩ => show win0_1.index t (1 : Fin 2) * 6 + 1 * k.val = k.val; omega
  · intro cc j
    refine congrArg LT (funext fun a => Fin.ext ?_)
    match a with
    | ⟨0, _⟩ => show win0_2.index t (0 : Fin 2) * 64 + 1 * cc.val = cc.val; omega
    | ⟨1, _⟩ => show win0_2.index t (1 : Fin 2) * 256 + 1 * j.val = win0_3.index t (1 : Fin 2) * 256 + j.val; omega
  · show win0_3.index t (0 : Fin 2) * 128 + 1 * p.val = _; omega
  · show win0_3.index t (1 : Fin 2) * 256 + 1 * q.val = _; omega

/-- An index of the result array is in grid point `t`'s block iff each coordinate is in the block's range on its axis. -/
theorem mem_block0 (t : Fin cfg0.N) (i : S512x2048.Idx) :
    i ∈ ((cfg0.win 3).blk t).view.set ↔ ∀ a : Fin 2, win0_3.index t a * S128x256.size a ≤ (i a).val
      ∧ (i a).val < win0_3.index t a * S128x256.size a + S128x256.size a := by
  show i ∈ ((View.whole main_v10).slice (win0_3.rect t)).set ↔ _
  rw [View.set_slice_whole, Rect.mem_set_unit]
  exact Iff.rfl

/-- Every element `(b, o)` of the result is written back: by the grid point whose result block is `(b / 128, o / 256)`. -/
theorem covered0 (i : S512x2048.Idx) :
    ∃ t : Fin cfg0.N, (cfg0.win 3).flush t = true ∧ i ∈ ((cfg0.win 3).blk t).view.set := by
  have hi0 : (i 0).val < 512 := (i 0).isLt
  have hi1 : (i 1).val < 2048 := (i 1).isLt
  obtain ⟨t, ht⟩ := blockIdx0_onto ⟨(i 0).val / 128, by omega⟩ ⟨(i 1).val / 256, by omega⟩
  have q0 : win0_3.index t (0 : Fin 2) = (i 0).val / 128 := congrFun ht 0
  have q1 : win0_3.index t (1 : Fin 2) = (i 1).val / 256 := congrFun ht 1
  refine ⟨t, flush0_3 t, ?_⟩
  rw [mem_block0]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 256 ≤ (i 1).val ∧ (i 1).val < win0_3.index t (1 : Fin 2) * 256 + 256
    omega

/-- Layer 1's result array after the region, when it is entered with finite activations `H` and a finite table `LT`:
    at `(b, o)` the table column `o` against the corner weights of the six activations of row `b` at the index words
    of row `o`. -/
theorem arr0 (c : Dev nD) (H : S512x3072.Idx → ℝ) (LT : S64x2048.Idx → ℝ)
    (h0 : V c (Pipeline.arrRef spec0 0) = fun i => ((H i : ℝ) : EReal))
    (h2 : V c (Pipeline.arrRef spec0 2) = fun i => ((LT i : ℝ) : EReal)) :
    (dat0 (F := Ideal) V c).arrAt 3 cfg0.N = fun j : S512x2048.Idx =>
      ((Cert.Interp.weighted (fun c' => at2 LT c' (j 1).val)
          (fun k => at2 H (j 0).val (nat2 (V c (Pipeline.arrRef spec0 1)) (j 1).val k.val)) : ℝ) : EReal) :=
  (dat0 (F := Ideal) V c).arrAt_eq_of_cover 3 (layer0 H (V c (Pipeline.arrRef spec0 1)) LT)
    (fun t _ => flushed0 V c H LT h0 h2 t) covered0

/-! ## Layer 2: grid 4 × 4 -/

/-- What layer 2 leaves in its result array, as one function of the arrays it is entered with. -/
def layer1 (H : S512x2048.Idx → ℝ) (IDX : Vec Ideal S1024x6 .i32) (LT : S64x1024.Idx → ℝ) : S512x1024.Idx → EReal :=
  fun j => ((Cert.Interp.weighted (fun c' => at2 LT c' (j 1).val)
    (fun k => at2 H (j 0).val (nat2 IDX (j 1).val k.val)) : ℝ) : EReal)

/-- The index maps of layer 2, evaluated over its 16 grid points: the same relations as in layer 1, the result block's
    indices both below 4. -/
theorem blockIdx1 : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 3 ∧ win1_3.index t (1 : Fin 2) ≤ 3 :=
  (by decide +kernel : ∀ t : Fin grid1.N, _)

/-- Every one of the 4 × 4 result blocks is some grid point's. -/
theorem blockIdx1_onto : ∀ (q0 : Fin 4) (q1 : Fin 4), ∃ t : Fin cfg1.N, win1_3.index t = ![q0.val, q1.val] :=
  (by decide +kernel : ∀ (q0 : Fin 4) (q1 : Fin 4), ∃ t : Fin grid1.N, win1_3.index t = ![q0.val, q1.val])

/-- What grid point `t` of layer 2 writes back is its block of `layer1` of the entry arrays. -/
theorem flushed1 (c : Dev nD) (H : S512x2048.Idx → ℝ) (LT : S64x1024.Idx → ℝ)
    (h0 : V c (Pipeline.arrRef spec1 0) = fun i => ((H i : ℝ) : EReal))
    (h2 : V c (Pipeline.arrRef spec1 2) = fun i => ((LT i : ℝ) : EReal)) (t : Fin cfg1.N) :
    (dat1 (F := Ideal) V c).flushed 3 t
      = ((cfg1.win 3).blk t).view.read (Elt Ideal) (layer1 H (V c (Pipeline.arrRef spec1 1)) LT) := by
  show (cfg1.win 3).cut (grid1.coords t) ((dat1 V c).after 3 t) = _
  rw [after1_3]
  funext y
  obtain ⟨p, q, rfl⟩ : ∃ (p : Fin 128) (q : Fin 256), y = ix2 p q := ⟨y 0, y 1, eq_ix2 y⟩
  obtain ⟨e00, e01, e10, e11, e20, e21, b0, b1⟩ := blockIdx1 t
  -- the activations' block and the table's block are finite, being blocks of finite arrays
  have hA : (iblk1 V c 0 t : Vec Ideal S128x2048 .f32) = fun i => ((H (((cfg1.win 0).blk t).view.emb i) : ℝ) : EReal) := by
    unfold iblk1; rw [h0]; rfl
  have hT : (iblk1 V c 2 t : Vec Ideal S64x256 .f32) = fun i => ((LT (((cfg1.win 2).blk t).view.emb i) : ℝ) : EReal) := by
    unfold iblk1; rw [h2]; rfl
  show out1_3 (iblk1 V c 0 t) (iblk1 V c 1 t) (iblk1 V c 2 t) (ix2 p q)
    = layer1 H (V c (Pipeline.arrRef spec1 1)) LT (((cfg1.win 3).blk t).view.emb (ix2 p q))
  rw [hA, hT]
  refine (Body1.out1_3_apply (fun i => H (((cfg1.win 0).blk t).view.emb i)) (iblk1 V c 1 t)
    (fun i => LT (((cfg1.win 2).blk t).view.emb i)) p q).trans ?_
  unfold layer1
  -- a block's coordinate in its array is its block index times the block's size plus the coordinate inside the block
  refine congrArg (fun x : ℝ => (x : EReal)) (weighted_block H (V c (Pipeline.arrRef spec1 1)) LT _ (iblk1 V c 1 t) _
    (win1_3.index t (0 : Fin 2) * 128) (win1_3.index t (1 : Fin 2) * 256) (by omega) (by omega) ?_ ?_ ?_ p q _ _ ?_ ?_)
  · intro i j
    refine congrArg H (funext fun a => Fin.ext ?_)
    match a with
    | ⟨0, _⟩ => show win1_0.index t (0 : Fin 2) * 128 + 1 * i.val = win1_3.index t (0 : Fin 2) * 128 + i.val; omega
    | ⟨1, _⟩ => show win1_0.index t (1 : Fin 2) * 2048 + 1 * j.val = j.val; omega
  · intro i k
    show (V c (Pipeline.arrRef spec1 1) : S1024x6.Idx → BitVec 32) (((cfg1.win 1).blk t).view.emb (ix2 i k)) = _
    refine congrArg (V c (Pipeline.arrRef spec1 1) : S1024x6.Idx → BitVec 32) (funext fun a => Fin.ext ?_)
    match a with
    | ⟨0, _⟩ => show win1_1.index t (0 : Fin 2) * 256 + 1 * i.val = win1_3.index t (1 : Fin 2) * 256 + i.val; omega
    | ⟨1, _⟩ => show win1_1.index t (1 : Fin 2) * 6 + 1 * k.val = k.val; omega
  · intro cc j
    refine congrArg LT (funext fun a => Fin.ext ?_)
    match a with
    | ⟨0, _⟩ => show win1_2.index t (0 : Fin 2) * 64 + 1 * cc.val = cc.val; omega
    | ⟨1, _⟩ => show win1_2.index t (1 : Fin 2) * 256 + 1 * j.val = win1_3.index t (1 : Fin 2) * 256 + j.val; omega
  · show win1_3.index t (0 : Fin 2) * 128 + 1 * p.val = _; omega
  · show win1_3.index t (1 : Fin 2) * 256 + 1 * q.val = _; omega

/-- An index of the result array is in grid point `t`'s block iff each coordinate is in the block's range on its axis. -/
theorem mem_block1 (t : Fin cfg1.N) (i : S512x1024.Idx) :
    i ∈ ((cfg1.win 3).blk t).view.set ↔ ∀ a : Fin 2, win1_3.index t a * S128x256.size a ≤ (i a).val
      ∧ (i a).val < win1_3.index t a * S128x256.size a + S128x256.size a := by
  show i ∈ ((View.whole main_v14).slice (win1_3.rect t)).set ↔ _
  rw [View.set_slice_whole, Rect.mem_set_unit]
  exact Iff.rfl

/-- Every element `(b, o)` of the result is written back: by the grid point whose result block is `(b / 128, o / 256)`. -/
theorem covered1 (i : S512x1024.Idx) :
    ∃ t : Fin cfg1.N, (cfg1.win 3).flush t = true ∧ i ∈ ((cfg1.win 3).blk t).view.set := by
  have hi0 : (i 0).val < 512 := (i 0).isLt
  have hi1 : (i 1).val < 1024 := (i 1).isLt
  obtain ⟨t, ht⟩ := blockIdx1_onto ⟨(i 0).val / 128, by omega⟩ ⟨(i 1).val / 256, by omega⟩
  have q0 : win1_3.index t (0 : Fin 2) = (i 0).val / 128 := congrFun ht 0
  have q1 : win1_3.index t (1 : Fin 2) = (i 1).val / 256 := congrFun ht 1
  refine ⟨t, flush1_3 t, ?_⟩
  rw [mem_block1]
  intro a
  match a with
  | ⟨0, _⟩ =>
    show win1_3.index t (0 : Fin 2) * 128 ≤ (i 0).val ∧ (i 0).val < win1_3.index t (0 : Fin 2) * 128 + 128
    omega
  | ⟨1, _⟩ =>
    show win1_3.index t (1 : Fin 2) * 256 ≤ (i 1).val ∧ (i 1).val < win1_3.index t (1 : Fin 2) * 256 + 256
    omega

/-- Layer 2's result array after the region, likewise. -/
theorem arr1 (c : Dev nD) (H : S512x2048.Idx → ℝ) (LT : S64x1024.Idx → ℝ)
    (h0 : V c (Pipeline.arrRef spec1 0) = fun i => ((H i : ℝ) : EReal))
    (h2 : V c (Pipeline.arrRef spec1 2) = fun i => ((LT i : ℝ) : EReal)) :
    (dat1 (F := Ideal) V c).arrAt 3 cfg1.N = fun j : S512x1024.Idx =>
      ((Cert.Interp.weighted (fun c' => at2 LT c' (j 1).val)
          (fun k => at2 H (j 0).val (nat2 (V c (Pipeline.arrRef spec1 1)) (j 1).val k.val)) : ℝ) : EReal) :=
  (dat1 (F := Ideal) V c).arrAt_eq_of_cover 3 (layer1 H (V c (Pipeline.arrRef spec1 1)) LT)
    (fun t _ => flushed1 V c H LT h0 h2 t) covered1

end Cert.KernelIdeal.Cover

end
-- ==== Proof.KHost.lean ====
/-
  The kernel program's host side, read.

  Before layer 1's region the host operations write its three operand arrays: the thermometer code of `x` against
  `thresholds` ([512, 3072]: entry (b, 3 f + t) is 1 when x[b, f] > thresholds[f, t], else 0), the first index table
  with 48 zero rows appended ([2048, 6]), and the first look-up table with 48 zero rows appended, transposed ([64, 2048]).
  Between the regions they write the second index table with 24 zero rows appended ([1024, 6]) and the second look-up
  table with 24 zero rows appended, transposed ([64, 1024]); layer 2's activations are layer 1's result array, untouched.
  After layer 2's region they keep the first 1000 columns of its result and take the grouped sums.
-/
import proofs.«400014_j26731876450941_3_alg».proof.Proof.Gen.KernelIdeal.Frame
import proofs.«400014_j26731876450941_3_alg».proof.Proof.Lut
import Idealize.ShloMosaic.Lib.StableHlo.Run
import Idealize.ShloMosaic.Lib.Pipeline.Value
import Idealize.ShloMosaic.Lib.KernelVsHost

noncomputable section

namespace Cert.KernelIdeal.HostSide

open Cert.KernelIdeal Cert.KernelIdeal.Gen
open Idealize.ShloMosaic Idealize.ShloMosaic.TcCoe Idealize.ShloMosaic.ValueIdx Idealize.SL.Sem Cert.Lut

/-! ## Rows appended to a rank-2 array -/

section AppendedRows
variable {α : Type}

/-- A rank-2 array with `hi` rows appended, read at (p, q): the array's entry when p is one of its rows, the padding
    value on the appended rows. -/
theorem pad_rows_apply {A A' B hi : ℕ} (x : (⟨2, ![A, B]⟩ : Shape).Idx → α) {u : Shape} (v : u.Idx → α)
    (h : (⟨2, ![A, B]⟩ : Shape).Pads (![0, 0] : Fin 2 → ℕ) ![hi, 0] ![0, 0] ⟨2, ![A', B]⟩) (hu : 0 < u.numel)
    (p : Fin A') (q : Fin B) :
    pad ⟨2, ![A', B]⟩ ![0, 0] ![hi, 0] ![0, 0] x v h hu (ix2 p q)
      = if hp : p.val < A then x (ix2 ⟨p.val, hp⟩ q) else v (Shape.Idx.first hu) := by
  by_cases hp : p.val < A
  · rw [dif_pos hp]
    refine pad_apply_of_inside _ _ _ x v h hu _ _ fun a => ?_
    match a with
    | ⟨0, _⟩ => show p.val = 0 + p.val * (0 + 1); omega
    | ⟨1, _⟩ => show q.val = 0 + q.val * (0 + 1); omega
  · rw [dif_neg hp]
    refine pad_apply_of_not_inside _ _ _ x v h hu _ (0 : Fin 2) fun h3 => hp ?_
    have h4 : (p.val - 0) / (0 + 1) < A := h3.2.2
    simpa using h4

/-- Zero words appended as rows do not change an index table read at natural coordinates: on the appended rows the
    padded table holds the zero word, and a read outside the original table is 0 as well. -/
theorem nat2_pad_rows {A A' B hi : ℕ} (x : (⟨2, ![A, B]⟩ : Shape).Idx → BitVec 32) {u : Shape} (v : u.Idx → BitVec 32)
    (h : (⟨2, ![A, B]⟩ : Shape).Pads (![0, 0] : Fin 2 → ℕ) ![hi, 0] ![0, 0] ⟨2, ![A', B]⟩) (hu : 0 < u.numel)
    (hA : A ≤ A') (hv : v (Shape.Idx.first hu) = 0#32) (o k : ℕ) :
    nat2 (pad ⟨2, ![A', B]⟩ ![0, 0] ![hi, 0] ![0, 0] x v h hu) o k = nat2 x o k := by
  by_cases hok : o < A' ∧ k < B
  · have e : nat2 (pad ⟨2, ![A', B]⟩ ![0, 0] ![hi, 0] ![0, 0] x v h hu) o k = _ := nat2_ix _ ⟨o, hok.1⟩ ⟨k, hok.2⟩
    rw [e, pad_rows_apply]
    by_cases hp : o < A
    · rw [dif_pos hp]; exact (nat2_ix x ⟨o, hp⟩ ⟨k, hok.2⟩).symm
    · rw [dif_neg hp, hv, nat2_of_not x o k fun h' => hp h'.1]; rfl
  · rw [nat2_of_not _ o k hok, nat2_of_not x o k fun h' => hok ⟨Nat.lt_of_lt_of_le h'.1 hA, h'.2⟩]

/-- A finite table with zero rows appended, then transposed, at (a, b): the real entry (b, a) of the table, read as 0
    outside it. -/
theorem padT_real_at {A A' B hi : ℕ} (x : (⟨2, ![A, B]⟩ : Shape).Idx → EReal) {u : Shape} (v : u.Idx → EReal)
    (h : (⟨2, ![A, B]⟩ : Shape).Pads (![0, 0] : Fin 2 → ℕ) ![hi, 0] ![0, 0] ⟨2, ![A', B]⟩) (hu : 0 < u.numel)
    (ht : (⟨2, ![A', B]⟩ : Shape).Transposes [1, 0] ⟨2, ![B, A']⟩)
    (hv : v (Shape.Idx.first hu) = 0) (hfin : ∀ i, x i = (((x i).toReal : ℝ) : EReal)) (a : Fin B) (b : Fin A') :
    transpose ⟨2, ![B, A']⟩ [1, 0] (pad ⟨2, ![A', B]⟩ ![0, 0] ![hi, 0] ![0, 0] x v h hu) ht (ix2 a b)
      = ((at2 (re x) b.val a.val : ℝ) : EReal) := by
  refine (transpose_apply _ _ ht (ix2 a b) (ix2 b a) fun d => ?_).trans ?_
  · match d with
    | ⟨0, _⟩ => rfl
    | ⟨1, _⟩ => rfl
  · rw [pad_rows_apply]
    by_cases hp : b.val < A
    · rw [dif_pos hp, hfin]
      have e : at2 (re x) b.val a.val = _ := at2_ix (re x) ⟨b.val, hp⟩ a
      rw [e]; rfl
    · rw [dif_neg hp, hv, at2_of_not (re x) _ _ fun h' => hp h'.1]; rfl

/-- The same as an equation of arrays. -/
theorem padT_real {A A' B hi : ℕ} (x : (⟨2, ![A, B]⟩ : Shape).Idx → EReal) {u : Shape} (v : u.Idx → EReal)
    (h : (⟨2, ![A, B]⟩ : Shape).Pads (![0, 0] : Fin 2 → ℕ) ![hi, 0] ![0, 0] ⟨2, ![A', B]⟩) (hu : 0 < u.numel)
    (ht : (⟨2, ![A', B]⟩ : Shape).Transposes [1, 0] ⟨2, ![B, A']⟩)
    (hv : v (Shape.Idx.first hu) = 0) (hfin : ∀ i, x i = (((x i).toReal : ℝ) : EReal)) :
    transpose ⟨2, ![B, A']⟩ [1, 0] (pad ⟨2, ![A', B]⟩ ![0, 0] ![hi, 0] ![0, 0] x v h hu) ht
      = fun j => ((at2 (re x) (j 1).val (j 0).val : ℝ) : EReal) := by
  funext j
  obtain ⟨a, b, rfl⟩ : ∃ (a : Fin B) (b : Fin A'), j = ix2 a b := ⟨j 0, j 1, eq_ix2 j⟩
  exact padT_real_at x v h hu ht hv hfin a b

end AppendedRows

variable (m : (ℓ : Loc nD τ sig) → Buf (Elt Ideal) ℓ) (ρ : Dev nD → PrngReg)

/-- The thermometer code as the kernel's host side writes it. -/
def thermo (x : FVec Ideal S512x1024 .f32) (thr : FVec Ideal S1024x3 .f32) : FVec Ideal S512x3072 .bf16 :=
  shapeCast S512x3072 (uitofp (F := Ideal) .bf16 (cmpf (F := Ideal) .ogt
    (broadcastInDim S512x1024x3 ![0, 1, 2] bcast_S512x1024x1_S512x1024x3_0_1_2 (broadcastInDim S512x1024x1 ![0, 1] bcast_S512x1024_S512x1024x1_0_1 x))
    (broadcastInDim S512x1024x3 ![0, 1, 2] bcast_S1x1024x3_S512x1024x3_0_1_2 (broadcastInDim S1x1024x3 ![1, 2] bcast_S1024x3_S1x1024x3_1_2 thr))))
    shapeCasts_S512x1024x3_S512x3072

/-- Every entry of the thermometer code is a finite real (it is 0 or 1). -/
theorem thermo_real (x : FVec Ideal S512x1024 .f32) (thr : FVec Ideal S1024x3 .f32) (i : S512x3072.Idx) :
    thermo x thr i = (((thermo x thr i).toReal : ℝ) : EReal) := by
  -- an entry is the conversion of a one-bit word: the coercion of the real number of that word
  unfold thermo shapeCast uitofp
  exact (EReal.toReal_coe _).symm ▸ rfl

/-- Layer 1's activations at the region's entry: the thermometer code of the first two arguments. -/
theorem V5_w0 (c : Dev nD) : V5 m ρ c (Pipeline.arrRef spec0 0)
    = thermo (m ((c : Thread nD τ).loc main_arg0)) (m ((c : Thread nD τ).loc main_arg1)) := by
  -- the fold through the host operations before the first region, read at %6
  show StableHlo.after hostOps0_4 (StableHlo.after hostOps0_3 (StableHlo.after hostOps0_2 (StableHlo.after hostOps0_1
    (StableHlo.after hostOps0 (W0 m ρ c))))) (Proc.devRef .tc main_v6) = _
  simp only [hostOps0, hostOps0_1, hostOps0_2, hostOps0_3, hostOps0_4]
  after_results <;> rfl

/-- Layer 1's index table at the region's entry: the fourth argument with 48 rows of the zero word appended. -/
theorem V5_w1_eq (c : Dev nD) : V5 m ρ c (Pipeline.arrRef spec0 1)
    = pad S2048x6 ![0, 0] ![48, 0] ![0, 0] (m ((c : Thread nD τ).loc main_arg3)) (constantI S_ 32 0#32)
        pads_S2000x6_S2048x6_0480_000 h_S_ := by
  show StableHlo.after hostOps0_4 (StableHlo.after hostOps0_3 (StableHlo.after hostOps0_2 (StableHlo.after hostOps0_1
    (StableHlo.after hostOps0 (W0 m ρ c))))) (Proc.devRef .tc main_v7) = _
  simp only [hostOps0, hostOps0_1, hostOps0_2, hostOps0_3, hostOps0_4]
  after_results <;> rfl

/-- Layer 1's index table at the region's entry reads, at natural coordinates, as the fourth argument does (the
    appended rows are zero words, which is what a read outside the argument gives). -/
theorem V5_w1_nat (c : Dev nD) (o k : ℕ) :
    nat2 (V5 m ρ c (Pipeline.arrRef spec0 1)) o k = nat2 (m ((c : Thread nD τ).loc main_arg3)) o k := by
  rw [V5_w1_eq]
  exact nat2_pad_rows _ _ pads_S2000x6_S2048x6_0480_000 h_S_ (by decide) rfl o k

/-- Layer 1's table at the region's entry: the third argument with 48 rows of the converted zero word appended,
    transposed. -/
theorem V5_w2_eq (c : Dev nD) : V5 m ρ c (Pipeline.arrRef spec0 2)
    = transpose S64x2048 [1, 0] (pad S2048x64 ![0, 0] ![48, 0] ![0, 0] (m ((c : Thread nD τ).loc main_arg2))
        (sitofp (F := Ideal) .f32 (constantI S_ 32 0#32)) pads_S2000x64_S2048x64_0480_000 h_S_)
        transposes_S2048x64_S64x2048_1_0 := by
  show StableHlo.after hostOps0_4 (StableHlo.after hostOps0_3 (StableHlo.after hostOps0_2 (StableHlo.after hostOps0_1
    (StableHlo.after hostOps0 (W0 m ρ c))))) (Proc.devRef .tc main_v9) = _
  simp only [hostOps0, hostOps0_1, hostOps0_2, hostOps0_3, hostOps0_4]
  after_results <;> rfl

/-- Layer 1's table at the region's entry, over a finite third argument: entry (c', o) is the argument's entry (o, c'),
    zero for the appended rows. -/
theorem V5_w2 (c : Dev nD)
    (hfin : ∀ i, m ((c : Thread nD τ).loc main_arg2) i = (((m ((c : Thread nD τ).loc main_arg2) i).toReal : ℝ) : EReal)) :
    V5 m ρ c (Pipeline.arrRef spec0 2)
      = fun j : S64x2048.Idx => ((at2 (re (m ((c : Thread nD τ).loc main_arg2))) (j 1).val (j 0).val : ℝ) : EReal) := by
  rw [V5_w2_eq]
  -- the padding value is the signed conversion of the zero word: the extended real 0
  exact padT_real _ _ pads_S2000x64_S2048x64_0480_000 h_S_ transposes_S2048x64_S64x2048_1_0 (by
    show (((0#32 : BitVec 32).toInt : ℝ) : EReal) = 0
    simp) hfin

/-- Layer 2's activations at its region's entry are layer 1's result array. -/
theorem V11_w0 (c : Dev nD) : V11 m ρ c (Pipeline.arrRef spec1 0) = (dat0 (F := Ideal) (V5 m ρ) c).arrAt 3 cfg0.N := by
  -- no host operation between the regions writes %10, and at the first region's exit it is that region's result array
  refine Eq.trans ?_ (W6_arr m ρ c 3)
  show StableHlo.after hostOps1_4 (StableHlo.after hostOps1_3 (StableHlo.after hostOps1_2 (StableHlo.after hostOps1_1
    (StableHlo.after hostOps1 (W6 m ρ c))))) (Proc.devRef .tc main_v10) = _
  simp only [hostOps1, hostOps1_1, hostOps1_2, hostOps1_3, hostOps1_4]
  after_results

/-- The sixth argument at the first region's exit is as launched: it is none of that region's arrays and no host
    operation before it writes it. -/
theorem W6_arg5 (c : Dev nD) : W6 m ρ c (Proc.devRef .tc main_arg5) = m ((c : Thread nD τ).loc main_arg5) := by
  rw [W6_of_ne m ρ c main_arg5 (by decide)]
  show StableHlo.after hostOps0_4 (StableHlo.after hostOps0_3 (StableHlo.after hostOps0_2 (StableHlo.after hostOps0_1
    (StableHlo.after hostOps0 (W0 m ρ c))))) (Proc.devRef .tc main_arg5) = _
  simp only [hostOps0, hostOps0_1, hostOps0_2, hostOps0_3, hostOps0_4]
  after_results <;> rfl

/-- The fifth argument at the first region's exit is as launched. -/
theorem W6_arg4 (c : Dev nD) : W6 m ρ c (Proc.devRef .tc main_arg4) = m ((c : Thread nD τ).loc main_arg4) := by
  rw [W6_of_ne m ρ c main_arg4 (by decide)]
  show StableHlo.after hostOps0_4 (StableHlo.after hostOps0_3 (StableHlo.after hostOps0_2 (StableHlo.after hostOps0_1
    (StableHlo.after hostOps0 (W0 m ρ c))))) (Proc.devRef .tc main_arg4) = _
  simp only [hostOps0, hostOps0_1, hostOps0_2, hostOps0_3, hostOps0_4]
  after_results <;> rfl

/-- Layer 2's index table at its region's entry: the sixth argument with 24 rows of the zero word appended. -/
theorem V11_w1_eq (c : Dev nD) : V11 m ρ c (Pipeline.arrRef spec1 1)
    = pad S1024x6 ![0, 0] ![24, 0] ![0, 0] (m ((c : Thread nD τ).loc main_arg5)) (constantI S_ 32 0#32)
        pads_S1000x6_S1024x6_0240_000 h_S_ := by
  rw [← W6_arg5 m ρ c]
  show StableHlo.after hostOps1_4 (StableHlo.after hostOps1_3 (StableHlo.after hostOps1_2 (StableHlo.after hostOps1_1
    (StableHlo.after hostOps1 (W6 m ρ c))))) (Proc.devRef .tc main_v11) = _
  simp only [hostOps1, hostOps1_1, hostOps1_2, hostOps1_3, hostOps1_4]
  after_results <;> rfl

/-- Layer 2's index table at its region's entry reads as the sixth argument does. -/
theorem V11_w1_nat (c : Dev nD) (o k : ℕ) :
    nat2 (V11 m ρ c (Pipeline.arrRef spec1 1)) o k = nat2 (m ((c : Thread nD τ).loc main_arg5)) o k := by
  rw [V11_w1_eq]
  exact nat2_pad_rows _ _ pads_S1000x6_S1024x6_0240_000 h_S_ (by decide) rfl o k

/-- Layer 2's table at its region's entry: the fifth argument with 24 rows of the converted zero word appended,
    transposed. -/
theorem V11_w2_eq (c : Dev nD) : V11 m ρ c (Pipeline.arrRef spec1 2)
    = transpose S64x1024 [1, 0] (pad S1024x64 ![0, 0] ![24, 0] ![0, 0] (m ((c : Thread nD τ).loc main_arg4))
        (sitofp (F := Ideal) .f32 (constantI S_ 32 0#32)) pads_S1000x64_S1024x64_0240_000 h_S_)
        transposes_S1024x64_S64x1024_1_0 := by
  rw [← W6_arg4 m ρ c]
  show StableHlo.after hostOps1_4 (StableHlo.after hostOps1_3 (StableHlo.after hostOps1_2 (StableHlo.after hostOps1_1
    (StableHlo.after hostOps1 (W6 m ρ c))))) (Proc.devRef .tc main_v13) = _
  simp only [hostOps1, hostOps1_1, hostOps1_2, hostOps1_3, hostOps1_4]
  after_results <;> rfl

/-- Layer 2's table at its region's entry, over a finite fifth argument. -/
theorem V11_w2 (c : Dev nD)
    (hfin : ∀ i, m ((c : Thread nD τ).loc main_arg4) i = (((m ((c : Thread nD τ).loc main_arg4) i).toReal : ℝ) : EReal)) :
    V11 m ρ c (Pipeline.arrRef spec1 2)
      = fun j : S64x1024.Idx => ((at2 (re (m ((c : Thread nD τ).loc main_arg4))) (j 1).val (j 0).val : ℝ) : EReal) := by
  rw [V11_w2_eq]
  exact padT_real _ _ pads_S1000x64_S1024x64_0240_000 h_S_ transposes_S1024x64_S64x1024_1_0 (by
    show (((0#32 : BitVec 32).toInt : ℝ) : EReal) = 0
    simp) hfin

/-- The result buffer after the last host operations: the grouped sums of the first 1000 columns of layer 2's result. -/
theorem W13_result (c : Dev nD) : W13 m ρ c (Proc.devRef .tc main_v19)
    = grouped shapeCasts_S512x1000_S512x10x100 reducesTo_S512x10x100_S512x10_d2 h_S_ bcast_S_S512x10
        (extractStridedSlice S512x1000 ![0, 0] ((dat1 (F := Ideal) (V11 m ρ) c).arrAt 3 cfg1.N) slices_S512x1024_S512x1000_0_0) := by
  -- at the second region's exit %14 is that region's result array; the last seven operations are the grouped sums of it
  rw [← W12_arr m ρ c 3]
  show StableHlo.after hostOps2 (W12 m ρ c) (Proc.devRef .tc main_v19) = _
  simp only [hostOps2]
  after_results <;> rfl

end Cert.KernelIdeal.HostSide

end
-- ==== Proof.RefLayer1.lean ====
/-
  The reference program's first look-up layer, read at an index.

  The reference computes the thermometer code of `x` against `thresholds` ([512, 3072] of 0/1), then twice a look-up
  layer: gather six activations per output column (`h[:, idx]`: a negative index is moved up by the width, and the
  gather clamps what is left into range — so an index already in range reads its own column), start from the column's
  table row of 64 entries, and halve it six times, fold `k` replacing entries `j` and `j + half` by
  `a j · (1 - x k) + a (j + half) · x k`; the one entry left is the layer's activation. Last come the grouped sums.
  Over finite tables and in-range indices every stage is the coercion of a real array, and a layer's activation at
  `(b, o)` is `Cert.Interp.folded` of table row `o` and the six gathered activations of row `b`.
-/
import proofs.«400014_j26731876450941_3_alg».proof.Proof.RefRun
import proofs.«400014_j26731876450941_3_alg».proof.Proof.Lut
import Idealize.ShloMosaic.Lib.Pipeline.Value
import Idealize.ShloMosaic.Lib.IdealHost
import Idealize.ShloMosaic.Lib.StableHlo.Predicate

noncomputable section

namespace Cert.ReferenceIdeal.Stages

open Cert.ReferenceIdeal Cert.ReferenceIdeal.Gen Cert.ReferenceIdeal.RunCopy
open Idealize.ShloMosaic Idealize.ShloMosaic.TcCoe Idealize.ShloMosaic.ValueIdx Idealize.SL.Sem Idealize.ShloMosaic.StableHlo Cert.Lut

namespace Layer1

/-- One halving fold read at an index: with the array's row `(b, o, ·)` the reals `a` and the gathered column's entry
    `(b, o, 0)` the real `x`, the fold's row is `halve h a x`. -/
theorem fold_step {B O n h : ℕ} (hn : h + h ≤ n)
    (hs0 : (⟨3, ![B, O, n]⟩ : Shape).Slices ![0, 0, 0] ⟨3, ![B, O, h]⟩)
    (hsh : (⟨3, ![B, O, n]⟩ : Shape).Slices ![0, 0, h] ⟨3, ![B, O, h]⟩)
    (hb : (⟨3, ![B, O, 1]⟩ : Shape).BroadcastsInDim ⟨3, ![B, O, h]⟩ ![0, 1, 2])
    (hc : (⟨0, ![]⟩ : Shape).BroadcastsInDim ⟨3, ![B, O, 1]⟩ ![])
    (A : FVec Ideal ⟨3, ![B, O, n]⟩ .f32) (X : FVec Ideal ⟨3, ![B, O, 1]⟩ .f32)
    (b : Fin B) (o : Fin O) (a : ℕ → ℝ) (x : ℝ)
    (hA : ∀ (j : ℕ) (hj : j < n), A (ix3 b o ⟨j, hj⟩) = ((a j : ℝ) : EReal))
    (hX : X (ix3 b o ⟨0, Nat.one_pos⟩) = ((x : ℝ) : EReal))
    (j : ℕ) (hj : j < h) :
    addf (mulf (extractStridedSlice ⟨3, ![B, O, h]⟩ ![0, 0, 0] A hs0)
          (broadcastInDim ⟨3, ![B, O, h]⟩ ![0, 1, 2] hb
            (subf (broadcastInDim ⟨3, ![B, O, 1]⟩ ![] hc (constant (F := Ideal) ⟨0, ![]⟩ .f32 0x3F800000#32)) X)))
        (mulf (extractStridedSlice ⟨3, ![B, O, h]⟩ ![0, 0, h] A hsh) (broadcastInDim ⟨3, ![B, O, h]⟩ ![0, 1, 2] hb X))
        (ix3 b o ⟨j, hj⟩)
      = ((Cert.Interp.halve h a x j : ℝ) : EReal) := by
  have e1 : extractStridedSlice ⟨3, ![B, O, h]⟩ ![0, 0, 0] A hs0 (ix3 b o ⟨j, hj⟩) = A (ix3 b o ⟨j, by omega⟩) :=
    extractStridedSlice_apply _ A hs0 _ _ (fun a => by
      match a with
      | ⟨0, _⟩ => show b.val = 0 + b.val; omega
      | ⟨1, _⟩ => show o.val = 0 + o.val; omega
      | ⟨2, _⟩ => show j = 0 + j; omega)
  have e2 : extractStridedSlice ⟨3, ![B, O, h]⟩ ![0, 0, h] A hsh (ix3 b o ⟨j, hj⟩) = A (ix3 b o ⟨j + h, by omega⟩) :=
    extractStridedSlice_apply _ A hsh _ _ (fun a => by
      match a with
      | ⟨0, _⟩ => show b.val = 0 + b.val; omega
      | ⟨1, _⟩ => show o.val = 0 + o.val; omega
      | ⟨2, _⟩ => show j + h = h + j; omega)
  have e3 : ∀ Y : FVec Ideal ⟨3, ![B, O, 1]⟩ .f32,
      broadcastInDim ⟨3, ![B, O, h]⟩ ![0, 1, 2] hb Y (ix3 b o ⟨j, hj⟩) = Y (ix3 b o ⟨0, Nat.one_pos⟩) := fun Y =>
    broadcastInDim_apply _ hb Y _ _ (fun a => by
      match a with
      | ⟨0, _⟩ =>
        show b.val = if B = 1 then 0 else b.val
        split_ifs with hB
        · have := b.isLt; omega
        · rfl
      | ⟨1, _⟩ =>
        show o.val = if O = 1 then 0 else o.val
        split_ifs with hO
        · have := o.isLt; omega
        · rfl
      | ⟨2, _⟩ => rfl)
  have e4 : subf (broadcastInDim ⟨3, ![B, O, 1]⟩ ![] hc (constant (F := Ideal) ⟨0, ![]⟩ .f32 0x3F800000#32)) X
      (ix3 b o ⟨0, Nat.one_pos⟩) = (((1 - x : ℝ)) : EReal) := by
    rw [subf_apply, broadcastInDim_scalar_apply, constant_apply, Ideal.ofBits_one_f32, hX, EReal.coe_sub, EReal.coe_one]
  rw [addf_apply, mulf_apply, mulf_apply, e1, e2, e3, e3, e4, hX, hA, hA]
  unfold Cert.Interp.halve
  rw [EReal.coe_add, EReal.coe_mul, EReal.coe_mul]

/-- The last fold (two entries to one; the gathered column is used as it is) read at an index. -/
theorem fold_last {B O : ℕ}
    (hs0 : (⟨3, ![B, O, 2]⟩ : Shape).Slices ![0, 0, 0] ⟨3, ![B, O, 1]⟩)
    (hs1 : (⟨3, ![B, O, 2]⟩ : Shape).Slices ![0, 0, 1] ⟨3, ![B, O, 1]⟩)
    (hc : (⟨0, ![]⟩ : Shape).BroadcastsInDim ⟨3, ![B, O, 1]⟩ ![])
    (A : FVec Ideal ⟨3, ![B, O, 2]⟩ .f32) (X : FVec Ideal ⟨3, ![B, O, 1]⟩ .f32)
    (b : Fin B) (o : Fin O) (a : ℕ → ℝ) (x : ℝ)
    (hA : ∀ (j : ℕ) (hj : j < 2), A (ix3 b o ⟨j, hj⟩) = ((a j : ℝ) : EReal))
    (hX : X (ix3 b o ⟨0, Nat.one_pos⟩) = ((x : ℝ) : EReal)) :
    addf (mulf (extractStridedSlice ⟨3, ![B, O, 1]⟩ ![0, 0, 0] A hs0)
          (subf (broadcastInDim ⟨3, ![B, O, 1]⟩ ![] hc (constant (F := Ideal) ⟨0, ![]⟩ .f32 0x3F800000#32)) X))
        (mulf (extractStridedSlice ⟨3, ![B, O, 1]⟩ ![0, 0, 1] A hs1) X)
        (ix3 b o ⟨0, Nat.one_pos⟩)
      = ((Cert.Interp.halve 1 a x 0 : ℝ) : EReal) := by
  have e1 : extractStridedSlice ⟨3, ![B, O, 1]⟩ ![0, 0, 0] A hs0 (ix3 b o ⟨0, Nat.one_pos⟩) = A (ix3 b o ⟨0, by omega⟩) :=
    extractStridedSlice_apply _ A hs0 _ _ (fun a => by
      match a with
      | ⟨0, _⟩ => show b.val = 0 + b.val; omega
      | ⟨1, _⟩ => show o.val = 0 + o.val; omega
      | ⟨2, _⟩ => show 0 = 0 + 0; omega)
  have e2 : extractStridedSlice ⟨3, ![B, O, 1]⟩ ![0, 0, 1] A hs1 (ix3 b o ⟨0, Nat.one_pos⟩) = A (ix3 b o ⟨0 + 1, by omega⟩) :=
    extractStridedSlice_apply _ A hs1 _ _ (fun a => by
      match a with
      | ⟨0, _⟩ => show b.val = 0 + b.val; omega
      | ⟨1, _⟩ => show o.val = 0 + o.val; omega
      | ⟨2, _⟩ => show 0 + 1 = 1 + 0; omega)
  have e4 : subf (broadcastInDim ⟨3, ![B, O, 1]⟩ ![] hc (constant (F := Ideal) ⟨0, ![]⟩ .f32 0x3F800000#32)) X
      (ix3 b o ⟨0, Nat.one_pos⟩) = (((1 - x : ℝ)) : EReal) := by
    rw [subf_apply, broadcastInDim_scalar_apply, constant_apply, Ideal.ofBits_one_f32, hX, EReal.coe_sub, EReal.coe_one]
  rw [addf_apply, mulf_apply, mulf_apply, e1, e2, e4, hX, hA, hA]
  unfold Cert.Interp.halve
  rw [EReal.coe_add, EReal.coe_mul, EReal.coe_mul]

/-- A trailing unit axis dropped: `[B, O, 1]` viewed `[B, O]` reads `(b, o, 0)` at `(b, o)`. -/
theorem shapeCast_dropLast_apply {α : Type} {B O : ℕ} (h : (⟨3, ![B, O, 1]⟩ : Shape).ShapeCasts ⟨2, ![B, O]⟩)
    (v : (⟨3, ![B, O, 1]⟩ : Shape).Idx → α) (b : Fin B) (o : Fin O) :
    shapeCast ⟨2, ![B, O]⟩ v h (ix2 b o) = v (ix3 b o ⟨0, Nat.one_pos⟩) :=
  shapeCast_apply v h _ _ (by
    rw [Shape.rowMajor_val_three, Shape.rowMajor_val_two]
    show (b.val * O + o.val) * 1 + 0 = b.val * O + o.val
    omega)

/-- The dimension numbers of `h[:, idx]`: operand `[B, N]`, start indices `[O, K, 1]`, result `[B, O, K]`; the
    result's axis 0 is the operand's whole axis 0, and the operand's axis 1 is collapsed and read at the start index. -/
abbrev colDims (B N O K : ℕ)
    (wf : GatherDims.WF ⟨2, ![B, N]⟩ ⟨3, ![O, K, 1]⟩ ⟨3, ![B, O, K]⟩ [0] [1] [] [1] [] 2 ![B, 1]) :
    GatherDims ⟨2, ![B, N]⟩ ⟨3, ![O, K, 1]⟩ ⟨3, ![B, O, K]⟩ where
  offsetDims := [0]
  collapsedSliceDims := [1]
  operandBatchingDims := []
  startIndicesBatchingDims := []
  startIndexMap := [1]
  indexVectorDim := 2
  sliceSizes := ![B, 1]
  wf := wf

/-- THE GATHER READ AT `(b, o, k)`: row `b` of the operand at the start index `idx[o, k, 0]`, read signed and clamped
    into `[0, N − 1]`. -/
theorem gather_cols_apply {α : Type} {B N O K w : ℕ} (hN : 0 < N)
    (wf : GatherDims.WF ⟨2, ![B, N]⟩ ⟨3, ![O, K, 1]⟩ ⟨3, ![B, O, K]⟩ [0] [1] [] [1] [] 2 ![B, 1])
    (x : (⟨2, ![B, N]⟩ : Shape).Idx → α) (idx : IVec ⟨3, ![O, K, 1]⟩ w) (b : Fin B) (o : Fin O) (k : Fin K) :
    Host.gather (colDims B N O K wf) x idx (ix3 b o k)
      = x (ix2 b ⟨min (idx (ix3 o k ⟨0, Nat.one_pos⟩)).toInt.toNat (N - 1), by omega⟩) := by
  unfold Host.gather
  refine congrArg x (funext fun a => ?_)
  match a with
  | ⟨0, _⟩ =>
    refine Fin.ext ?_
    show (colDims B N O K wf).start (ix3 b o k) idx 0 + (colDims B N O K wf).batchCoord (ix3 b o k) 0
        + (colDims B N O K wf).offCoord (ix3 b o k) 0 = b.val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept _ _).mpr ⟨show (0 : Fin 2) ∉ ([1] : List (Fin 2)) by decide, List.not_mem_nil⟩)]
    simp only [Nat.zero_add]
    rfl
  | ⟨1, _⟩ =>
    refine Fin.ext ?_
    show (colDims B N O K wf).start (ix3 b o k) idx 1 + (colDims B N O K wf).batchCoord (ix3 b o k) 1
        + (colDims B N O K wf).offCoord (ix3 b o k) 1 = min (idx (ix3 o k ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims B N O K wf).startIndexMap from List.mem_singleton.mpr rfl)]
    have hsi : (colDims B N O K wf).siIdx (ix3 b o k) ⟨List.idxOf (1 : Fin 2) (colDims B N O K wf).startIndexMap,
        List.idxOf_lt_length_iff.2 (List.mem_singleton.mpr rfl)⟩ = ix3 o k ⟨0, Nat.one_pos⟩ := by
      funext c; refine Fin.ext ?_
      match c with
      | ⟨0, _⟩ => rfl
      | ⟨1, _⟩ => rfl
      | ⟨2, _⟩ => rfl
    rw [hsi]
    rfl

/-- The start indices the gather reads, at `(o, k, 0)`: an index word that is not negative as a signed integer is kept
    (the move up by the width `N` is for negative words only), and the added unit axis reads through. -/
theorem index_apply {O K M : ℕ} (N : BitVec 32) (hM : M ≤ 2 ^ 31)
    (hb : (⟨2, ![O, K]⟩ : Shape).BroadcastsInDim ⟨3, ![O, K, 1]⟩ ![0, 1])
    (hc : (⟨0, ![]⟩ : Shape).BroadcastsInDim ⟨2, ![O, K]⟩ ![])
    (idx : IVec ⟨2, ![O, K]⟩ 32) (hidx : ∀ i, (idx i).toNat < M) (o : Fin O) (k : Fin K) :
    broadcastInDim ⟨3, ![O, K, 1]⟩ ![0, 1] hb
        (select (cmpi .slt idx (broadcastInDim ⟨2, ![O, K]⟩ ![] hc (constantI ⟨0, ![]⟩ 32 0#32)))
          (addi idx (broadcastInDim ⟨2, ![O, K]⟩ ![] hc (constantI ⟨0, ![]⟩ 32 N))) idx)
        (ix3 o k ⟨0, Nat.one_pos⟩)
      = idx (ix2 o k) := by
  refine (broadcastInDim_apply _ hb _ _ (ix2 o k) (fun a => ?_)).trans ?_
  · match a with
    | ⟨0, _⟩ =>
      show o.val = if O = 1 then 0 else o.val
      split_ifs with hO
      · have := o.isLt; omega
      · rfl
    | ⟨1, _⟩ =>
      show k.val = if K = 1 then 0 else k.val
      split_ifs with hK
      · have := k.isLt; omega
      · rfl
  · have hw := hidx (ix2 o k)
    have hc0 : IntOp.cmpi .slt (idx (ix2 o k)) 0#32 = 0#1 := by
      refine eq_zero_of_ne_one (fun h1 => ?_)
      have h2 := (Predicate.slt_iff_toNat (a := idx (ix2 o k)) (b := 0#32) (by omega) (by decide)).mp h1
      simp at h2
    show Scalar.select (IntOp.cmpi .slt (idx (ix2 o k)) 0#32) _ (idx (ix2 o k)) = idx (ix2 o k)
    rw [hc0, select_zero]

/-- Column `kk` of a `[B, O, K]` array, as a `[B, O, 1]` slice, reads `(b, o, kk)` at `(b, o, 0)`. -/
theorem column_apply {α : Type} {B O K : ℕ} (kk : ℕ) (hk : kk < K)
    (hs : (⟨3, ![B, O, K]⟩ : Shape).Slices ![0, 0, kk] ⟨3, ![B, O, 1]⟩)
    (G : (⟨3, ![B, O, K]⟩ : Shape).Idx → α) (b : Fin B) (o : Fin O) :
    extractStridedSlice ⟨3, ![B, O, 1]⟩ ![0, 0, kk] G hs (ix3 b o ⟨0, Nat.one_pos⟩) = G (ix3 b o ⟨kk, hk⟩) :=
  extractStridedSlice_apply _ G hs _ _ (fun a => by
    match a with
    | ⟨0, _⟩ => show b.val = 0 + b.val; omega
    | ⟨1, _⟩ => show o.val = 0 + o.val; omega
    | ⟨2, _⟩ => show kk = kk + 0; omega)

/-- The table `[O, C]` broadcast along a new leading axis to `[B, O, C]` reads `(o, c)` at `(b, o, c)`. -/
theorem table_bcast_apply {α : Type} {B O C : ℕ} (hO : O ≠ 1) (hC : C ≠ 1)
    (h1 : (⟨2, ![O, C]⟩ : Shape).BroadcastsInDim ⟨3, ![1, O, C]⟩ ![1, 2])
    (h2 : (⟨3, ![1, O, C]⟩ : Shape).BroadcastsInDim ⟨3, ![B, O, C]⟩ ![0, 1, 2])
    (T : (⟨2, ![O, C]⟩ : Shape).Idx → α) (b : Fin B) (o : Fin O) (c : Fin C) :
    broadcastInDim ⟨3, ![B, O, C]⟩ ![0, 1, 2] h2 (broadcastInDim ⟨3, ![1, O, C]⟩ ![1, 2] h1 T) (ix3 b o c) = T (ix2 o c) := by
  refine (broadcastInDim_apply _ h2 _ _ (ix3 ⟨0, Nat.one_pos⟩ o c) (fun a => ?_)).trans
    (broadcastInDim_apply _ h1 T _ (ix2 o c) (fun a => ?_))
  · match a with
    | ⟨0, _⟩ => rfl
    | ⟨1, _⟩ => show o.val = if O = 1 then 0 else o.val; rw [if_neg hO]
    | ⟨2, _⟩ => show c.val = if C = 1 then 0 else c.val; rw [if_neg hC]
  · match a with
    | ⟨0, _⟩ => show o.val = if O = 1 then 0 else o.val; rw [if_neg hO]
    | ⟨1, _⟩ => show c.val = if C = 1 then 0 else c.val; rw [if_neg hC]

end Layer1

variable (V0 : Valuation τ sig (Elt Ideal))

/-- The thermometer code as the reference writes it. -/
def thermo (x : FVec Ideal S512x1024 .f32) (thr : FVec Ideal S1024x3 .f32) : FVec Ideal S512x3072 .f32 :=
  shapeCast S512x3072 (uitofp (F := Ideal) .f32 (cmpf (F := Ideal) .ogt
    (broadcastInDim S512x1024x3 ![0, 1, 2] bcast_S512x1024x1_S512x1024x3_0_1_2 (broadcastInDim S512x1024x1 ![0, 1] bcast_S512x1024_S512x1024x1_0_1 x))
    (broadcastInDim S512x1024x3 ![0, 1, 2] bcast_S1x1024x3_S512x1024x3_0_1_2 (broadcastInDim S1x1024x3 ![1, 2] bcast_S1024x3_S1x1024x3_1_2 thr))))
    shapeCasts_S512x1024x3_S512x3072

/-- Layer 1's activations [512, 2000]: the last fold's one entry, the unit axis dropped. -/
def act1 : FVec Ideal S512x2000 .f32 :=
  shapeCast S512x2000 (addf (mulf (extractStridedSlice S512x2000x1 ![0, 0, 0] (res_main_v65 V0) slices_S512x2000x2_S512x2000x1_0_0_0) (subf (broadcastInDim S512x2000x1 ![] bcast_S_S512x2000x1 (constant S_ .f32 0x3F800000#32)) (res_main_v66 V0))) (mulf (extractStridedSlice S512x2000x1 ![0, 0, 1] (res_main_v65 V0) slices_S512x2000x2_S512x2000x1_0_0_1) (res_main_v66 V0))) shapeCasts_S512x2000x1_S512x2000

namespace Layer1

/-- The gathered activations at `(b, o, k)`: the thermometer entry of row `b` at the column the index word names. -/
theorem gathered_apply (Hb : S512x3072.Idx → ℝ)
    (hHb : thermo (V0 (Proc.devRef .tc main_arg0)) (V0 (Proc.devRef .tc main_arg1)) = fun i => ((Hb i : ℝ) : EReal))
    (hidx : ∀ i, (V0 (Proc.devRef .tc main_arg3) i).toNat < 3072) (b : Fin 512) (o : Fin 2000) (k : Fin 6) :
    res_main_v13 V0 (ix3 b o k) = ((at2 Hb b.val (nat2 (V0 (Proc.devRef .tc main_arg3)) o.val k.val) : ℝ) : EReal) := by
  have h13 : res_main_v13 V0 = Host.gather (colDims 512 3072 2000 6 gather_S512x3072_S2000x6x1_S512x2000x6_0_1_n_n_1_2_5121_wf)
      (thermo (V0 (Proc.devRef .tc main_arg0)) (V0 (Proc.devRef .tc main_arg1)))
      (broadcastInDim S2000x6x1 ![0, 1] bcast_S2000x6_S2000x6x1_0_1
        (select (cmpi .slt (V0 (Proc.devRef .tc main_arg3)) (broadcastInDim S2000x6 ![] bcast_S_S2000x6 (constantI S_ 32 0#32)))
          (addi (V0 (Proc.devRef .tc main_arg3)) (broadcastInDim S2000x6 ![] bcast_S_S2000x6 (constantI S_ 32 3072#32)))
          (V0 (Proc.devRef .tc main_arg3)))) := rfl
  have hw := hidx (ix2 o k)
  rw [h13, gather_cols_apply (by norm_num), hHb, nat2_ix]
  have h1 : (V0 (Proc.devRef .tc main_arg3) (ix2 o k)).toInt.toNat = (V0 (Proc.devRef .tc main_arg3) (ix2 o k)).toNat := by
    rw [Predicate.toInt_eq_toNat_of_lt (by omega)]; exact Int.toNat_natCast _
  have h2 : at2 Hb b.val (V0 (Proc.devRef .tc main_arg3) (ix2 o k)).toNat
      = Hb (ix2 b ⟨(V0 (Proc.devRef .tc main_arg3) (ix2 o k)).toNat, hw⟩) := at2_ix Hb b ⟨_, hw⟩
  rw [h2]
  refine congrArg (fun q : Fin 3072 => ((Hb (ix2 b q) : ℝ) : EReal)) (Fin.ext ?_)
  show min (BitVec.toInt _).toNat (3072 - 1) = (V0 (Proc.devRef .tc main_arg3) (ix2 o k)).toNat
  rw [index_apply 3072#32 (by norm_num) bcast_S2000x6_S2000x6x1_0_1 bcast_S_S2000x6 (V0 (Proc.devRef .tc main_arg3)) hidx o k, h1]
  omega

/-- The first table's row, broadcast over the batch, at `(b, o, j)`: a real. -/
theorem table_apply (hfin : ∀ i, V0 (Proc.devRef .tc main_arg2) i = (((V0 (Proc.devRef .tc main_arg2) i).toReal : ℝ) : EReal))
    (b : Fin 512) (o : Fin 2000) (j : ℕ) (hj : j < 64) :
    res_main_v15 V0 (ix3 b o ⟨j, hj⟩) = ((at2 (re (V0 (Proc.devRef .tc main_arg2))) o.val j : ℝ) : EReal) := by
  unfold res_main_v15
  rw [table_bcast_apply (by norm_num) (by norm_num), hfin]
  exact congrArg _ (at2_ix (re (V0 (Proc.devRef .tc main_arg2))) o ⟨j, hj⟩).symm

end Layer1

namespace Layer1

/-- Layer 1 at `(b, o)` from its two inputs at that position: the table row `L` and the six gathered activations
    `xs`. Stage by stage the array's row `(b, o, ·)` is the row before it, halved. -/
theorem act1_of (L : ℕ → ℝ) (xs : Fin 6 → ℝ) (b : Fin 512) (o : Fin 2000)
    (hL : ∀ (j : ℕ) (hj : j < 64), res_main_v15 V0 (ix3 b o ⟨j, hj⟩) = ((L j : ℝ) : EReal))
    (hx : ∀ k : Fin 6, res_main_v13 V0 (ix3 b o k) = ((xs k : ℝ) : EReal)) :
    act1 V0 (ix2 b o) = ((Cert.Interp.folded L xs : ℝ) : EReal) := by
  have hX0 : res_main_v16 V0 (ix3 b o ⟨0, Nat.one_pos⟩) = ((xs 0 : ℝ) : EReal) :=
    (column_apply 0 (by norm_num) slices_S512x2000x6_S512x2000x1_0_0_0 (res_main_v13 V0) b o).trans (hx 0)
  have hX1 : res_main_v26 V0 (ix3 b o ⟨0, Nat.one_pos⟩) = ((xs 1 : ℝ) : EReal) :=
    (column_apply 1 (by norm_num) slices_S512x2000x6_S512x2000x1_0_0_1 (res_main_v13 V0) b o).trans (hx 1)
  have hX2 : res_main_v36 V0 (ix3 b o ⟨0, Nat.one_pos⟩) = ((xs 2 : ℝ) : EReal) :=
    (column_apply 2 (by norm_num) slices_S512x2000x6_S512x2000x1_0_0_2 (res_main_v13 V0) b o).trans (hx 2)
  have hX3 : res_main_v46 V0 (ix3 b o ⟨0, Nat.one_pos⟩) = ((xs 3 : ℝ) : EReal) :=
    (column_apply 3 (by norm_num) slices_S512x2000x6_S512x2000x1_0_0_3 (res_main_v13 V0) b o).trans (hx 3)
  have hX4 : res_main_v56 V0 (ix3 b o ⟨0, Nat.one_pos⟩) = ((xs 4 : ℝ) : EReal) :=
    (column_apply 4 (by norm_num) slices_S512x2000x6_S512x2000x1_0_0_4 (res_main_v13 V0) b o).trans (hx 4)
  have hX5 : res_main_v66 V0 (ix3 b o ⟨0, Nat.one_pos⟩) = ((xs 5 : ℝ) : EReal) :=
    (column_apply 5 (by norm_num) slices_S512x2000x6_S512x2000x1_0_0_5 (res_main_v13 V0) b o).trans (hx 5)
  have h1 : ∀ (j : ℕ) (hj : j < 32), res_main_v25 V0 (ix3 b o ⟨j, hj⟩)
      = ((Cert.Interp.halve 32 L (xs 0) j : ℝ) : EReal) := fun j hj =>
    fold_step (by norm_num) slices_S512x2000x64_S512x2000x32_0_0_0 slices_S512x2000x64_S512x2000x32_0_0_32
      bcast_S512x2000x1_S512x2000x32_0_1_2 bcast_S_S512x2000x1 (res_main_v15 V0) (res_main_v16 V0) b o L (xs 0) hL hX0 j hj
  have h2 : ∀ (j : ℕ) (hj : j < 16), res_main_v35 V0 (ix3 b o ⟨j, hj⟩)
      = ((Cert.Interp.halve 16 (Cert.Interp.halve 32 L (xs 0)) (xs 1) j : ℝ) : EReal) := fun j hj =>
    fold_step (by norm_num) slices_S512x2000x32_S512x2000x16_0_0_0 slices_S512x2000x32_S512x2000x16_0_0_16
      bcast_S512x2000x1_S512x2000x16_0_1_2 bcast_S_S512x2000x1 (res_main_v25 V0) (res_main_v26 V0) b o _ (xs 1) h1 hX1 j hj
  have h3 : ∀ (j : ℕ) (hj : j < 8), res_main_v45 V0 (ix3 b o ⟨j, hj⟩)
      = ((Cert.Interp.halve 8 (Cert.Interp.halve 16 (Cert.Interp.halve 32 L (xs 0)) (xs 1)) (xs 2) j : ℝ) : EReal) := fun j hj =>
    fold_step (by norm_num) slices_S512x2000x16_S512x2000x8_0_0_0 slices_S512x2000x16_S512x2000x8_0_0_8
      bcast_S512x2000x1_S512x2000x8_0_1_2 bcast_S_S512x2000x1 (res_main_v35 V0) (res_main_v36 V0) b o _ (xs 2) h2 hX2 j hj
  have h4 : ∀ (j : ℕ) (hj : j < 4), res_main_v55 V0 (ix3 b o ⟨j, hj⟩)
      = ((Cert.Interp.halve 4 (Cert.Interp.halve 8 (Cert.Interp.halve 16 (Cert.Interp.halve 32 L (xs 0)) (xs 1)) (xs 2)) (xs 3) j : ℝ) : EReal) := fun j hj =>
    fold_step (by norm_num) slices_S512x2000x8_S512x2000x4_0_0_0 slices_S512x2000x8_S512x2000x4_0_0_4
      bcast_S512x2000x1_S512x2000x4_0_1_2 bcast_S_S512x2000x1 (res_main_v45 V0) (res_main_v46 V0) b o _ (xs 3) h3 hX3 j hj
  have h5 : ∀ (j : ℕ) (hj : j < 2), res_main_v65 V0 (ix3 b o ⟨j, hj⟩)
      = ((Cert.Interp.halve 2 (Cert.Interp.halve 4 (Cert.Interp.halve 8 (Cert.Interp.halve 16 (Cert.Interp.halve 32 L (xs 0)) (xs 1)) (xs 2)) (xs 3)) (xs 4) j : ℝ) : EReal) := fun j hj =>
    fold_step (by norm_num) slices_S512x2000x4_S512x2000x2_0_0_0 slices_S512x2000x4_S512x2000x2_0_0_2
      bcast_S512x2000x1_S512x2000x2_0_1_2 bcast_S_S512x2000x1 (res_main_v55 V0) (res_main_v56 V0) b o _ (xs 4) h4 hX4 j hj
  unfold act1
  rw [shapeCast_dropLast_apply]
  exact fold_last slices_S512x2000x2_S512x2000x1_0_0_0 slices_S512x2000x2_S512x2000x1_0_0_1 bcast_S_S512x2000x1
    (res_main_v65 V0) (res_main_v66 V0) b o _ (xs 5) h5 hX5

end Layer1

/-- Layer 1 at `(b, o)`, over a finite first table, first indices in range and real thermometer entries `Hb`. -/
theorem act1_apply (Hb : S512x3072.Idx → ℝ)
    (hHb : thermo (V0 (Proc.devRef .tc main_arg0)) (V0 (Proc.devRef .tc main_arg1)) = fun i => ((Hb i : ℝ) : EReal))
    (hfin : ∀ i, V0 (Proc.devRef .tc main_arg2) i = (((V0 (Proc.devRef .tc main_arg2) i).toReal : ℝ) : EReal))
    (hidx : ∀ i, (V0 (Proc.devRef .tc main_arg3) i).toNat < 3072) (b : Fin 512) (o : Fin 2000) :
    act1 V0 (ix2 b o) = ((Cert.Interp.folded (fun c' => at2 (re (V0 (Proc.devRef .tc main_arg2))) o.val c')
        (fun k => at2 Hb b.val (nat2 (V0 (Proc.devRef .tc main_arg3)) o.val k.val)) : ℝ) : EReal) :=
  Layer1.act1_of V0 _ _ b o (Layer1.table_apply V0 hfin b o) (Layer1.gathered_apply V0 Hb hHb hidx b o)

end Cert.ReferenceIdeal.Stages

end
-- ==== Proof.RefLayer2.lean ====
/-
  The reference program's second look-up layer and its result, read at an index.

  Layer 2 is layer 1 over other sizes: it gathers six of layer 1's 2000 activations per output column (a negative index
  is moved up by 2000 and the gather clamps into range, so an index already in range reads its own column), starts from
  the column's row of the second table and halves it six times. The program's result is the grouped sums of the
  [512, 1000] activations.
-/
import proofs.«400014_j26731876450941_3_alg».proof.Proof.RefLayer1

noncomputable section

namespace Cert.ReferenceIdeal.Stages.Layer2

open Idealize.ShloMosaic Idealize.ShloMosaic.ValueIdx

/-! ## Index words -/

/-- A word below `2 ^ 31` is its own signed reading. -/
theorem toInt_of_lt (w : BitVec 32) (hw : w.toNat < 2 ^ 31) : w.toInt = (w.toNat : ℤ) := by
  rw [BitVec.toInt_eq_toNat_cond, if_pos (by omega)]

/-- A word below `2 ^ 31` is not negative: the signed comparison with zero answers `0`. -/
theorem slt_zero_of_lt (w : BitVec 32) (hw : w.toNat < 2 ^ 31) : IntOp.cmpi .slt w 0#32 = 0#1 := by
  have h := toInt_of_lt w hw
  unfold IntOp.cmpi
  simp only [BitVec.slt, h]
  have h0 : (0#32 : BitVec 32).toInt = 0 := rfl
  rw [h0, decide_eq_false (by omega : ¬ ((w.toNat : ℤ) < 0))]
  rfl

/-- The start index of an in-range word: the select keeps the word, and the clamp into `[0, N − 1]` keeps it. -/
theorem start_word (w c : BitVec 32) (N : ℕ) (hN : N < 2 ^ 31) (hw : w.toNat < N) :
    min (Scalar.select (IntOp.cmpi .slt w 0#32) (IntOp.addi w c) w).toInt.toNat (N - 1) = w.toNat := by
  rw [slt_zero_of_lt w (by omega), select_zero, toInt_of_lt w (by omega), Int.toNat_natCast]
  omega

/-! ## The column gather -/

section Cols
variable {α : Type}

/-- The dimension numbers of `h[:, idx]`: operand `[B, N]`, start indices `[O, K, 1]`, result `[B, O, K]`; offset
    axis 0 of the result reads operand axis 0 whole, operand axis 1 is collapsed and indexed. -/
abbrev colDims (B N O K : ℕ)
    (wf : GatherDims.WF ⟨2, ![B, N]⟩ ⟨3, ![O, K, 1]⟩ ⟨3, ![B, O, K]⟩ [0] [1] [] [1] [] 2 ![B, 1]) :
    GatherDims ⟨2, ![B, N]⟩ ⟨3, ![O, K, 1]⟩ ⟨3, ![B, O, K]⟩ where
  offsetDims := [0]
  collapsedSliceDims := [1]
  operandBatchingDims := []
  startIndicesBatchingDims := []
  startIndexMap := [1]
  indexVectorDim := 2
  sliceSizes := ![B, 1]
  wf := wf

/-- The column gather read at `(b, o, k)`: row `b` of the operand at the start index `idx[o, k, 0]`, read signed and
    clamped into `[0, N − 1]`. -/
theorem gather_cols_apply {B N O K w : ℕ} (hN : 0 < N)
    (wf : GatherDims.WF ⟨2, ![B, N]⟩ ⟨3, ![O, K, 1]⟩ ⟨3, ![B, O, K]⟩ [0] [1] [] [1] [] 2 ![B, 1])
    (x : (⟨2, ![B, N]⟩ : Shape).Idx → α) (idx : IVec ⟨3, ![O, K, 1]⟩ w) (b : Fin B) (o : Fin O) (k : Fin K) :
    Host.gather (colDims B N O K wf) x idx (ix3 b o k)
      = x (ix2 b ⟨min (idx (ix3 o k (0 : Fin 1))).toInt.toNat (N - 1), by omega⟩) := by
  unfold Host.gather
  refine congrArg x (funext fun a => Fin.ext ?_)
  match a with
  | ⟨0, _⟩ =>
    show (colDims B N O K wf).start (ix3 b o k) idx 0 + (colDims B N O K wf).batchCoord (ix3 b o k) 0
      + (colDims B N O K wf).offCoord (ix3 b o k) 0 = b.val
    have hs : (colDims B N O K wf).start (ix3 b o k) idx 0 = 0 := by
      unfold GatherDims.start
      rw [dif_neg (show (0 : Fin 2) ∉ ([1] : List (Fin 2)) by decide)]
    have ho : (colDims B N O K wf).offCoord (ix3 b o k) 0 = b.val := by
      unfold GatherDims.offCoord
      rw [dif_pos ((GatherDims.mem_sKept _ _).mpr ⟨(show (0 : Fin 2) ∉ ([1] : List (Fin 2)) by decide), List.not_mem_nil⟩)]
      rfl
    rw [GatherDims.batchCoord_eq_zero _ _ _ List.not_mem_nil, hs, ho, Nat.add_zero, Nat.zero_add]
  | ⟨1, _⟩ =>
    show (colDims B N O K wf).start (ix3 b o k) idx 1 + (colDims B N O K wf).batchCoord (ix3 b o k) 1
      + (colDims B N O K wf).offCoord (ix3 b o k) 1 = min (idx (ix3 o k (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims B N O K wf).startIndexMap from List.mem_singleton.mpr rfl)]
    have hsi : (colDims B N O K wf).siIdx (ix3 b o k) ⟨List.idxOf (1 : Fin 2) (colDims B N O K wf).startIndexMap,
        List.idxOf_lt_length_iff.2 (List.mem_singleton.mpr rfl)⟩ = ix3 o k (0 : Fin 1) := by
      funext c; refine Fin.ext ?_
      match c with
      | ⟨0, _⟩ => rfl
      | ⟨1, _⟩ => rfl
      | ⟨2, _⟩ => rfl
    rw [hsi]
    rfl

/-- The gather as the reference writes it — a negative index word moved up by `c`, the words given a trailing unit
    axis — over index words all below `N`: entry `(b, o, k)` is the operand at `(b, idx[o, k])`. -/
theorem gathered_apply {B N O K : ℕ} (hN : N < 2 ^ 31)
    (wf : GatherDims.WF ⟨2, ![B, N]⟩ ⟨3, ![O, K, 1]⟩ ⟨3, ![B, O, K]⟩ [0] [1] [] [1] [] 2 ![B, 1])
    (hb1 : (⟨2, ![O, K]⟩ : Shape).BroadcastsInDim ⟨3, ![O, K, 1]⟩ ![0, 1])
    (hb0 : (⟨0, ![]⟩ : Shape).BroadcastsInDim ⟨2, ![O, K]⟩ ![])
    (x : (⟨2, ![B, N]⟩ : Shape).Idx → α) (idx : IVec ⟨2, ![O, K]⟩ 32) (c : BitVec 32)
    (hidx : ∀ i, (idx i).toNat < N) (b : Fin B) (o : Fin O) (k : Fin K) :
    Host.gather (colDims B N O K wf) x
        (broadcastInDim ⟨3, ![O, K, 1]⟩ ![0, 1] hb1
          (select (cmpi .slt idx (broadcastInDim ⟨2, ![O, K]⟩ ![] hb0 (constantI ⟨0, ![]⟩ 32 0#32)))
            (addi idx (broadcastInDim ⟨2, ![O, K]⟩ ![] hb0 (constantI ⟨0, ![]⟩ 32 c))) idx)) (ix3 b o k)
      = x (ix2 b ⟨(idx (ix2 o k)).toNat, hidx _⟩) := by
  have hpos : 0 < N := by have := hidx (ix2 o k); omega
  rw [gather_cols_apply hpos]
  refine congrArg x (congrArg (ix2 b) (Fin.ext ?_))
  show min (BitVec.toInt _).toNat (N - 1) = (idx (ix2 o k)).toNat
  rw [broadcastInDim_apply _ hb1 _ _ (ix2 o k) (fun a => by
    match a with
    | ⟨0, _⟩ =>
      show o.val = if O = 1 then 0 else o.val
      have := o.isLt; split <;> omega
    | ⟨1, _⟩ =>
      show k.val = if K = 1 then 0 else k.val
      have := k.isLt; split <;> omega)]
  exact start_word _ c N hN (hidx _)

end Cols

/-! ## The table row, a gathered column, a dropped unit axis -/

/-- A table `[O, C]` broadcast to `[B, O, C]` through `[1, O, C]` reads, at `(b, o, c)`, the table at `(o, c)`. -/
theorem table_apply {α : Type} {B O C : ℕ}
    (h1 : (⟨2, ![O, C]⟩ : Shape).BroadcastsInDim ⟨3, ![1, O, C]⟩ ![1, 2])
    (h2 : (⟨3, ![1, O, C]⟩ : Shape).BroadcastsInDim ⟨3, ![B, O, C]⟩ ![0, 1, 2])
    (T : (⟨2, ![O, C]⟩ : Shape).Idx → α) (b : Fin B) (o : Fin O) (c : Fin C) :
    broadcastInDim ⟨3, ![B, O, C]⟩ ![0, 1, 2] h2 (broadcastInDim ⟨3, ![1, O, C]⟩ ![1, 2] h1 T) (ix3 b o c) = T (ix2 o c) := by
  rw [broadcastInDim_apply _ h2 _ _ (ix3 (0 : Fin 1) o c) (fun a => by
    match a with
    | ⟨0, _⟩ => exact (if_pos rfl).symm
    | ⟨1, _⟩ =>
      show o.val = if O = 1 then 0 else o.val
      have := o.isLt; split <;> omega
    | ⟨2, _⟩ =>
      show c.val = if C = 1 then 0 else c.val
      have := c.isLt; split <;> omega)]
  exact broadcastInDim_apply _ h1 _ _ (ix2 o c) (fun a => by
    match a with
    | ⟨0, _⟩ =>
      show o.val = if O = 1 then 0 else o.val
      have := o.isLt; split <;> omega
    | ⟨1, _⟩ =>
      show c.val = if C = 1 then 0 else c.val
      have := c.isLt; split <;> omega)

/-- Column `k` of a `[B, O, K]` array, sliced out as `[B, O, 1]`, reads at `(b, o, 0)` the array at `(b, o, k)`. -/
theorem col_apply {α : Type} {B O K : ℕ} (k : Fin K)
    (hs : (⟨3, ![B, O, K]⟩ : Shape).Slices ![0, 0, k.val] ⟨3, ![B, O, 1]⟩)
    (G : (⟨3, ![B, O, K]⟩ : Shape).Idx → α) (b : Fin B) (o : Fin O) :
    extractStridedSlice ⟨3, ![B, O, 1]⟩ ![0, 0, k.val] G hs (ix3 b o (0 : Fin 1)) = G (ix3 b o k) :=
  extractStridedSlice_apply _ G hs _ _ (fun a => by
    match a with
    | ⟨0, _⟩ => exact (Nat.zero_add _).symm
    | ⟨1, _⟩ => exact (Nat.zero_add _).symm
    | ⟨2, _⟩ => exact (Nat.add_zero _).symm)

/-- A trailing unit axis dropped: `[a, b, 1]` cast to `[a, b]` reads `(i, j)` at `(i, j, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-! ## One fold -/

/-- One fold read at an index: over a row `A(b, o, ·)` of reals `a` and a real coordinate `x`, the fold's row is
    `a` halved at `x`. -/
theorem fold_apply {B O n h : ℕ}
    (hs0 : (⟨3, ![B, O, n]⟩ : Shape).Slices ![0, 0, 0] ⟨3, ![B, O, h]⟩)
    (hs1 : (⟨3, ![B, O, n]⟩ : Shape).Slices ![0, 0, h] ⟨3, ![B, O, h]⟩)
    (hb : (⟨3, ![B, O, 1]⟩ : Shape).BroadcastsInDim ⟨3, ![B, O, h]⟩ ![0, 1, 2])
    (hc : (⟨0, ![]⟩ : Shape).BroadcastsInDim ⟨3, ![B, O, 1]⟩ ![])
    (A : FVec Ideal ⟨3, ![B, O, n]⟩ .f32) (X : FVec Ideal ⟨3, ![B, O, 1]⟩ .f32)
    (b : Fin B) (o : Fin O) (a : ℕ → ℝ) (x : ℝ)
    (hA : ∀ j : Fin n, A (ix3 b o j) = ((a j.val : ℝ) : EReal))
    (hX : X (ix3 b o (0 : Fin 1)) = ((x : ℝ) : EReal)) (hn : n = h + h) (j : Fin h) :
    addf (mulf (extractStridedSlice ⟨3, ![B, O, h]⟩ ![0, 0, 0] A hs0)
            (broadcastInDim ⟨3, ![B, O, h]⟩ ![0, 1, 2] hb
              (subf (broadcastInDim ⟨3, ![B, O, 1]⟩ ![] hc (constant (F := Ideal) ⟨0, ![]⟩ .f32 0x3F800000#32)) X)))
         (mulf (extractStridedSlice ⟨3, ![B, O, h]⟩ ![0, 0, h] A hs1)
            (broadcastInDim ⟨3, ![B, O, h]⟩ ![0, 1, 2] hb X)) (ix3 b o j)
      = ((Cert.Interp.halve h a x j.val : ℝ) : EReal) := by
  subst hn
  have e0 : extractStridedSlice ⟨3, ![B, O, h]⟩ ![0, 0, 0] A hs0 (ix3 b o j) = A (ix3 b o ⟨j.val, by omega⟩) :=
    extractStridedSlice_apply _ A hs0 _ _ (fun a => by
      match a with
      | ⟨0, _⟩ => exact (Nat.zero_add _).symm
      | ⟨1, _⟩ => exact (Nat.zero_add _).symm
      | ⟨2, _⟩ => exact (Nat.zero_add _).symm)
  have e1 : extractStridedSlice ⟨3, ![B, O, h]⟩ ![0, 0, h] A hs1 (ix3 b o j) = A (ix3 b o ⟨j.val + h, by omega⟩) :=
    extractStridedSlice_apply _ A hs1 _ _ (fun a => by
      match a with
      | ⟨0, _⟩ => exact (Nat.zero_add _).symm
      | ⟨1, _⟩ => exact (Nat.zero_add _).symm
      | ⟨2, _⟩ => exact Nat.add_comm _ _)
  have eb : ∀ Y : FVec Ideal ⟨3, ![B, O, 1]⟩ .f32,
      broadcastInDim ⟨3, ![B, O, h]⟩ ![0, 1, 2] hb Y (ix3 b o j) = Y (ix3 b o (0 : Fin 1)) := fun Y =>
    broadcastInDim_apply _ hb Y _ _ (fun a => by
      match a with
      | ⟨0, _⟩ =>
        show b.val = if B = 1 then 0 else b.val
        have := b.isLt; split <;> omega
      | ⟨1, _⟩ =>
        show o.val = if O = 1 then 0 else o.val
        have := o.isLt; split <;> omega
      | ⟨2, _⟩ => exact (if_pos rfl).symm)
  rw [addf_apply, mulf_apply, mulf_apply, e0, e1, eb, eb, subf_apply, broadcastInDim_scalar_apply, constant_apply,
    Ideal.ofBits_one_f32, hX, hA, hA]
  unfold Cert.Interp.halve
  rw [EReal.coe_add, EReal.coe_mul, EReal.coe_mul, EReal.coe_sub, EReal.coe_one]

/-- The last fold (two entries to one; the coordinate is not broadcast) read at its one index. -/
theorem fold_last_apply {B O : ℕ}
    (hs0 : (⟨3, ![B, O, 2]⟩ : Shape).Slices ![0, 0, 0] ⟨3, ![B, O, 1]⟩)
    (hs1 : (⟨3, ![B, O, 2]⟩ : Shape).Slices ![0, 0, 1] ⟨3, ![B, O, 1]⟩)
    (hc : (⟨0, ![]⟩ : Shape).BroadcastsInDim ⟨3, ![B, O, 1]⟩ ![])
    (A : FVec Ideal ⟨3, ![B, O, 2]⟩ .f32) (X : FVec Ideal ⟨3, ![B, O, 1]⟩ .f32)
    (b : Fin B) (o : Fin O) (a : ℕ → ℝ) (x : ℝ)
    (hA : ∀ j : Fin 2, A (ix3 b o j) = ((a j.val : ℝ) : EReal))
    (hX : X (ix3 b o (0 : Fin 1)) = ((x : ℝ) : EReal)) :
    addf (mulf (extractStridedSlice ⟨3, ![B, O, 1]⟩ ![0, 0, 0] A hs0)
            (subf (broadcastInDim ⟨3, ![B, O, 1]⟩ ![] hc (constant (F := Ideal) ⟨0, ![]⟩ .f32 0x3F800000#32)) X))
         (mulf (extractStridedSlice ⟨3, ![B, O, 1]⟩ ![0, 0, 1] A hs1) X) (ix3 b o (0 : Fin 1))
      = ((Cert.Interp.halve 1 a x 0 : ℝ) : EReal) := by
  have e0 : extractStridedSlice ⟨3, ![B, O, 1]⟩ ![0, 0, 0] A hs0 (ix3 b o (0 : Fin 1)) = A (ix3 b o (0 : Fin 2)) :=
    col_apply (0 : Fin 2) hs0 A b o
  have e1 : extractStridedSlice ⟨3, ![B, O, 1]⟩ ![0, 0, 1] A hs1 (ix3 b o (0 : Fin 1)) = A (ix3 b o (1 : Fin 2)) :=
    col_apply (1 : Fin 2) hs1 A b o
  rw [addf_apply, mulf_apply, mulf_apply, e0, e1, subf_apply, broadcastInDim_scalar_apply, constant_apply,
    Ideal.ofBits_one_f32, hX, hA, hA]
  unfold Cert.Interp.halve
  rw [EReal.coe_add, EReal.coe_mul, EReal.coe_mul, EReal.coe_sub, EReal.coe_one]
  rfl

end Cert.ReferenceIdeal.Stages.Layer2

namespace Cert.ReferenceIdeal.Stages

open Cert.ReferenceIdeal Cert.ReferenceIdeal.Gen Cert.ReferenceIdeal.RunCopy
open Idealize.ShloMosaic Idealize.ShloMosaic.TcCoe Idealize.ShloMosaic.ValueIdx Idealize.SL.Sem Idealize.ShloMosaic.StableHlo Cert.Lut

variable (V0 : Valuation τ sig (Elt Ideal))

/-- Layer 2's activations [512, 1000]. -/
def act2 : FVec Ideal S512x1000 .f32 :=
  shapeCast S512x1000 (addf (mulf (extractStridedSlice S512x1000x1 ![0, 0, 0] (res_main_v133 V0) slices_S512x1000x2_S512x1000x1_0_0_0) (subf (broadcastInDim S512x1000x1 ![] bcast_S_S512x1000x1 (constant S_ .f32 0x3F800000#32)) (res_main_v134 V0))) (mulf (extractStridedSlice S512x1000x1 ![0, 0, 1] (res_main_v133 V0) slices_S512x1000x2_S512x1000x1_0_0_1) (res_main_v134 V0))) shapeCasts_S512x1000x1_S512x1000

namespace Layer2

/-- Row `o` of the second table as reals at natural positions. -/
def row (o : Fin 1000) : ℕ → ℝ := fun c' => at2 (re (V0 (Proc.devRef .tc main_arg4))) o.val c'

/-- The six layer-1 activations gathered for `(b, o)`. -/
def xs (H1 : S512x2000.Idx → ℝ) (b : Fin 512) (o : Fin 1000) : Fin 6 → ℝ :=
  fun k => at2 H1 b.val (nat2 (V0 (Proc.devRef .tc main_arg5)) o.val k.val)

/-- The gathered activations: entry `(b, o, k)` is layer 1 at `(b, idx[o, k])`. -/
theorem v81_apply (H1 : S512x2000.Idx → ℝ) (hH1 : act1 V0 = fun i => ((H1 i : ℝ) : EReal))
    (hidx : ∀ i, (V0 (Proc.devRef .tc main_arg5) i).toNat < 2000) (b : Fin 512) (o : Fin 1000) (k : Fin 6) :
    res_main_v81 V0 (ix3 b o k) = ((xs V0 H1 b o k : ℝ) : EReal) := by
  unfold res_main_v81
  refine (gathered_apply (by norm_num) _ _ _ (act1 V0) (V0 (Proc.devRef .tc main_arg5)) 2000#32 hidx b o k).trans ?_
  rw [hH1, xs, nat2_ix (V0 (Proc.devRef .tc main_arg5)) o k]
  exact congrArg _ (at2_ix H1 b ⟨_, hidx _⟩).symm

/-- Column `k` of the gathered activations, sliced out, at `(b, o)`. -/
theorem col_k (H1 : S512x2000.Idx → ℝ) (hH1 : act1 V0 = fun i => ((H1 i : ℝ) : EReal))
    (hidx : ∀ i, (V0 (Proc.devRef .tc main_arg5) i).toNat < 2000) (b : Fin 512) (o : Fin 1000) (k : Fin 6)
    (hs : S512x1000x6.Slices ![0, 0, k.val] S512x1000x1) :
    extractStridedSlice S512x1000x1 ![0, 0, k.val] (res_main_v81 V0) hs (ix3 b o (0 : Fin 1))
      = ((xs V0 H1 b o k : ℝ) : EReal) :=
  (col_apply k hs (res_main_v81 V0) b o).trans (v81_apply V0 H1 hH1 hidx b o k)

/-- Gathered column 0 at `(b, o)`. -/
theorem v84_apply (H1 : S512x2000.Idx → ℝ) (hH1 : act1 V0 = fun i => ((H1 i : ℝ) : EReal))
    (hidx : ∀ i, (V0 (Proc.devRef .tc main_arg5) i).toNat < 2000) (b : Fin 512) (o : Fin 1000) :
    res_main_v84 V0 (ix3 b o (0 : Fin 1)) = ((xs V0 H1 b o 0 : ℝ) : EReal) := by
  unfold res_main_v84
  exact col_k V0 H1 hH1 hidx b o ⟨0, by norm_num⟩ _

/-- Gathered column 1 at `(b, o)`. -/
theorem v94_apply (H1 : S512x2000.Idx → ℝ) (hH1 : act1 V0 = fun i => ((H1 i : ℝ) : EReal))
    (hidx : ∀ i, (V0 (Proc.devRef .tc main_arg5) i).toNat < 2000) (b : Fin 512) (o : Fin 1000) :
    res_main_v94 V0 (ix3 b o (0 : Fin 1)) = ((xs V0 H1 b o 1 : ℝ) : EReal) := by
  unfold res_main_v94
  exact col_k V0 H1 hH1 hidx b o ⟨1, by norm_num⟩ _

/-- Gathered column 2 at `(b, o)`. -/
theorem v104_apply (H1 : S512x2000.Idx → ℝ) (hH1 : act1 V0 = fun i => ((H1 i : ℝ) : EReal))
    (hidx : ∀ i, (V0 (Proc.devRef .tc main_arg5) i).toNat < 2000) (b : Fin 512) (o : Fin 1000) :
    res_main_v104 V0 (ix3 b o (0 : Fin 1)) = ((xs V0 H1 b o 2 : ℝ) : EReal) := by
  unfold res_main_v104
  exact col_k V0 H1 hH1 hidx b o ⟨2, by norm_num⟩ _

/-- Gathered column 3 at `(b, o)`. -/
theorem v114_apply (H1 : S512x2000.Idx → ℝ) (hH1 : act1 V0 = fun i => ((H1 i : ℝ) : EReal))
    (hidx : ∀ i, (V0 (Proc.devRef .tc main_arg5) i).toNat < 2000) (b : Fin 512) (o : Fin 1000) :
    res_main_v114 V0 (ix3 b o (0 : Fin 1)) = ((xs V0 H1 b o 3 : ℝ) : EReal) := by
  unfold res_main_v114
  exact col_k V0 H1 hH1 hidx b o ⟨3, by norm_num⟩ _

/-- Gathered column 4 at `(b, o)`. -/
theorem v124_apply (H1 : S512x2000.Idx → ℝ) (hH1 : act1 V0 = fun i => ((H1 i : ℝ) : EReal))
    (hidx : ∀ i, (V0 (Proc.devRef .tc main_arg5) i).toNat < 2000) (b : Fin 512) (o : Fin 1000) :
    res_main_v124 V0 (ix3 b o (0 : Fin 1)) = ((xs V0 H1 b o 4 : ℝ) : EReal) := by
  unfold res_main_v124
  exact col_k V0 H1 hH1 hidx b o ⟨4, by norm_num⟩ _

/-- Gathered column 5 at `(b, o)`. -/
theorem v134_apply (H1 : S512x2000.Idx → ℝ) (hH1 : act1 V0 = fun i => ((H1 i : ℝ) : EReal))
    (hidx : ∀ i, (V0 (Proc.devRef .tc main_arg5) i).toNat < 2000) (b : Fin 512) (o : Fin 1000) :
    res_main_v134 V0 (ix3 b o (0 : Fin 1)) = ((xs V0 H1 b o 5 : ℝ) : EReal) := by
  unfold res_main_v134
  exact col_k V0 H1 hH1 hidx b o ⟨5, by norm_num⟩ _

/-- The table broadcast over the batch: at `(b, o, j)` the table's row `o`, entry `j`, a real. -/
theorem v83_apply (hfin : ∀ i, V0 (Proc.devRef .tc main_arg4) i = (((V0 (Proc.devRef .tc main_arg4) i).toReal : ℝ) : EReal))
    (b : Fin 512) (o : Fin 1000) (j : Fin 64) :
    res_main_v83 V0 (ix3 b o j) = ((row V0 o j.val : ℝ) : EReal) := by
  unfold res_main_v83
  refine (table_apply _ _ (V0 (Proc.devRef .tc main_arg4)) b o j).trans ?_
  refine (hfin _).trans ?_
  exact congrArg Real.toEReal (at2_ix (re (V0 (Proc.devRef .tc main_arg4))) o j).symm

/-- After fold 0 the row of `(b, o)` has 32 entries: the row before, halved at gathered activation 0. -/
theorem v93_apply (H1 : S512x2000.Idx → ℝ) (hH1 : act1 V0 = fun i => ((H1 i : ℝ) : EReal))
    (hfin : ∀ i, V0 (Proc.devRef .tc main_arg4) i = (((V0 (Proc.devRef .tc main_arg4) i).toReal : ℝ) : EReal))
    (hidx : ∀ i, (V0 (Proc.devRef .tc main_arg5) i).toNat < 2000) (b : Fin 512) (o : Fin 1000) (j : Fin 32) :
    res_main_v93 V0 (ix3 b o j) = ((Cert.Interp.halve 32 (row V0 o) (xs V0 H1 b o 0) j.val : ℝ) : EReal) := by
  unfold res_main_v93
  exact fold_apply _ _ _ _ (res_main_v83 V0) (res_main_v84 V0) b o _ _
    (v83_apply V0 hfin b o) (v84_apply V0 H1 hH1 hidx b o) rfl j

/-- After fold 1 the row of `(b, o)` has 16 entries: the row before, halved at gathered activation 1. -/
theorem v103_apply (H1 : S512x2000.Idx → ℝ) (hH1 : act1 V0 = fun i => ((H1 i : ℝ) : EReal))
    (hfin : ∀ i, V0 (Proc.devRef .tc main_arg4) i = (((V0 (Proc.devRef .tc main_arg4) i).toReal : ℝ) : EReal))
    (hidx : ∀ i, (V0 (Proc.devRef .tc main_arg5) i).toNat < 2000) (b : Fin 512) (o : Fin 1000) (j : Fin 16) :
    res_main_v103 V0 (ix3 b o j) = ((Cert.Interp.halve 16 (Cert.Interp.halve 32 (row V0 o) (xs V0 H1 b o 0)) (xs V0 H1 b o 1) j.val : ℝ) : EReal) := by
  unfold res_main_v103
  exact fold_apply _ _ _ _ (res_main_v93 V0) (res_main_v94 V0) b o _ _
    (v93_apply V0 H1 hH1 hfin hidx b o) (v94_apply V0 H1 hH1 hidx b o) rfl j

/-- After fold 2 the row of `(b, o)` has 8 entries: the row before, halved at gathered activation 2. -/
theorem v113_apply (H1 : S512x2000.Idx → ℝ) (hH1 : act1 V0 = fun i => ((H1 i : ℝ) : EReal))
    (hfin : ∀ i, V0 (Proc.devRef .tc main_arg4) i = (((V0 (Proc.devRef .tc main_arg4) i).toReal : ℝ) : EReal))
    (hidx : ∀ i, (V0 (Proc.devRef .tc main_arg5) i).toNat < 2000) (b : Fin 512) (o : Fin 1000) (j : Fin 8) :
    res_main_v113 V0 (ix3 b o j) = ((Cert.Interp.halve 8 (Cert.Interp.halve 16 (Cert.Interp.halve 32 (row V0 o) (xs V0 H1 b o 0)) (xs V0 H1 b o 1)) (xs V0 H1 b o 2) j.val : ℝ) : EReal) := by
  unfold res_main_v113
  exact fold_apply _ _ _ _ (res_main_v103 V0) (res_main_v104 V0) b o _ _
    (v103_apply V0 H1 hH1 hfin hidx b o) (v104_apply V0 H1 hH1 hidx b o) rfl j

/-- After fold 3 the row of `(b, o)` has 4 entries: the row before, halved at gathered activation 3. -/
theorem v123_apply (H1 : S512x2000.Idx → ℝ) (hH1 : act1 V0 = fun i => ((H1 i : ℝ) : EReal))
    (hfin : ∀ i, V0 (Proc.devRef .tc main_arg4) i = (((V0 (Proc.devRef .tc main_arg4) i).toReal : ℝ) : EReal))
    (hidx : ∀ i, (V0 (Proc.devRef .tc main_arg5) i).toNat < 2000) (b : Fin 512) (o : Fin 1000) (j : Fin 4) :
    res_main_v123 V0 (ix3 b o j) = ((Cert.Interp.halve 4 (Cert.Interp.halve 8 (Cert.Interp.halve 16 (Cert.Interp.halve 32 (row V0 o) (xs V0 H1 b o 0)) (xs V0 H1 b o 1)) (xs V0 H1 b o 2)) (xs V0 H1 b o 3) j.val : ℝ) : EReal) := by
  unfold res_main_v123
  exact fold_apply _ _ _ _ (res_main_v113 V0) (res_main_v114 V0) b o _ _
    (v113_apply V0 H1 hH1 hfin hidx b o) (v114_apply V0 H1 hH1 hidx b o) rfl j

/-- After fold 4 the row of `(b, o)` has 2 entries: the row before, halved at gathered activation 4. -/
theorem v133_apply (H1 : S512x2000.Idx → ℝ) (hH1 : act1 V0 = fun i => ((H1 i : ℝ) : EReal))
    (hfin : ∀ i, V0 (Proc.devRef .tc main_arg4) i = (((V0 (Proc.devRef .tc main_arg4) i).toReal : ℝ) : EReal))
    (hidx : ∀ i, (V0 (Proc.devRef .tc main_arg5) i).toNat < 2000) (b : Fin 512) (o : Fin 1000) (j : Fin 2) :
    res_main_v133 V0 (ix3 b o j) = ((Cert.Interp.halve 2 (Cert.Interp.halve 4 (Cert.Interp.halve 8 (Cert.Interp.halve 16 (Cert.Interp.halve 32 (row V0 o) (xs V0 H1 b o 0)) (xs V0 H1 b o 1)) (xs V0 H1 b o 2)) (xs V0 H1 b o 3)) (xs V0 H1 b o 4) j.val : ℝ) : EReal) := by
  unfold res_main_v133
  exact fold_apply _ _ _ _ (res_main_v123 V0) (res_main_v124 V0) b o _ _
    (v123_apply V0 H1 hH1 hfin hidx b o) (v124_apply V0 H1 hH1 hidx b o) rfl j

end Layer2

/-- Layer 2 at `(b, o)`, over a finite second table, second indices in range and real layer-1 activations `H1`. -/
theorem act2_apply (H1 : S512x2000.Idx → ℝ) (hH1 : act1 V0 = fun i => ((H1 i : ℝ) : EReal))
    (hfin : ∀ i, V0 (Proc.devRef .tc main_arg4) i = (((V0 (Proc.devRef .tc main_arg4) i).toReal : ℝ) : EReal))
    (hidx : ∀ i, (V0 (Proc.devRef .tc main_arg5) i).toNat < 2000) (b : Fin 512) (o : Fin 1000) :
    act2 V0 (ix2 b o) = ((Cert.Interp.folded (fun c' => at2 (re (V0 (Proc.devRef .tc main_arg4))) o.val c')
        (fun k => at2 H1 b.val (nat2 (V0 (Proc.devRef .tc main_arg5)) o.val k.val)) : ℝ) : EReal) := by
  open Layer2 in
  unfold act2
  refine (shapeCast_ab1_ab_apply _ _ b o).trans ?_
  exact fold_last_apply _ _ _ (res_main_v133 V0) (res_main_v134 V0) b o _ _
    (v133_apply V0 H1 hH1 hfin hidx b o) (v134_apply V0 H1 hH1 hidx b o)

/-- The reference's run with its result named: the grouped sums of layer 2's activations; the arguments unchanged. -/
theorem run_grouped (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146)
          = grouped shapeCasts_S512x1000_S512x10x100 reducesTo_S512x10x100_S512x10_d2 h_S_ bcast_S_S512x10 (act2 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.ReferenceIdeal.RunCopy.run (F := Ideal) m ρ)

end Cert.ReferenceIdeal.Stages

end
-- ==== Proof.PreFacts.lean ====
/-
  The precondition, decoded.

  The printed precondition is a conjunction of eight scalar bits: for each of the four float inputs "every entry has
  absolute value below +∞", and for the two index tables "every word is ≥ 0" and "every word is below the extent of the
  axis it indexes" (3072 for the first table, 2000 for the second), all compared as signed 32-bit integers. From it:
  both look-up tables hold finite reals, and both index tables hold words that read, unsigned, below their extents.
-/
import proofs.«400014_j26731876450941_3_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Idealize.ShloMosaic.ValueIdx Cert.Pre_finite_inputs

/-- The scalar shape has exactly one index (the empty tuple of coordinates). -/
instance subsingleton_scalar_idx : Subsingleton S_.Idx := ⟨fun _ _ => funext fun d => d.elim0⟩

/-- One bit "and" another is 1 exactly when both are. -/
theorem andi_one (c d : BitVec 1) : IntOp.andi c d = 1#1 ↔ c = 1#1 ∧ d = 1#1 := by revert c d; decide

/-- A 32-bit word that is ≥ 0 as a signed integer reads, unsigned, below 2³¹. -/
theorem toNat_lt_of_sge_zero {w : BitVec 32} (h0 : IntOp.cmpi .sge w 0#32 = 1#1) : w.toNat < 2 ^ 31 := by
  unfold IntOp.cmpi at h0
  rw [StableHlo.Predicate.ofBool_eq_one_iff] at h0
  have h1 : (0#32 : BitVec 32).toInt ≤ w.toInt := by simpa [BitVec.sle] using h0
  rw [show (0#32 : BitVec 32).toInt = 0 from by decide, BitVec.toInt_eq_toNat_cond] at h1
  have := w.isLt
  split at h1 <;> omega

/-- A word that is signed ≥ 0 and signed below a small bound reads, unsigned, below the bound's value. -/
theorem toNat_lt_of_sge_slt {w b : BitVec 32} (hb : b.toNat < 2 ^ 31) (h0 : IntOp.cmpi .sge w 0#32 = 1#1)
    (h1 : IntOp.cmpi .slt w b = 1#1) : w.toNat < b.toNat :=
  (StableHlo.Predicate.slt_iff_toNat (toNat_lt_of_sge_zero h0) hb).1 h1

/-- An extended real whose absolute value max(x, −x) is below +∞ (the value of the f32 word 0x7F800000) is neither
    infinity, so it is the real it reads as. -/
theorem finite_of_abs_lt (x : Ideal .f32)
    (h : FloatOps.cmpf .olt (FloatOps.hostAbsf x) (FloatOps.ofBits (F := Ideal) .f32 0x7F800000#32) = 1#1) :
    x = (((x : EReal).toReal : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq, max_lt_iff] at h
  have h1 : (x : EReal) ≠ ⊤ := ne_of_lt h.1
  have h2 : (x : EReal) ≠ ⊥ := by
    intro e
    rw [e] at h
    simp at h
  exact (EReal.coe_toReal h1 h2).symm

variable [Cert.Pre_finite_inputs.Facts]

/-- What the precondition gives the value proof: the two tables finite, the two index tables in range. -/
theorem of_pre (a0 : FVec Ideal S512x1024 .f32) (a1 : FVec Ideal S1024x3 .f32) (a2 : FVec Ideal S2000x64 .f32)
    (a3 : IVec S2000x6 32) (a4 : FVec Ideal S1000x64 .f32) (a5 : IVec S1000x6 32)
    (h : Cert.Pre_finite_inputs.fn (F := Ideal) a0 a1 a2 a3 a4 a5 = fun _ => 1#1) :
    (∀ i, a2 i = (((a2 i).toReal : ℝ) : EReal)) ∧ (∀ i, a4 i = (((a4 i).toReal : ℝ) : EReal))
      ∧ (∀ i, (a3 i).toNat < 3072) ∧ (∀ i, (a5 i).toNat < 2000) := by
  have e := congrFun h ix0
  dsimp only [fn, fn_part1, fn_part2] at e
  simp only [andi, andi_one] at e
  obtain ⟨⟨⟨⟨⟨⟨⟨_, _⟩, e2⟩, e4⟩, e3lo⟩, e3hi⟩, e5lo⟩, e5hi⟩ := e
  refine ⟨fun i => ?_, fun i => ?_, fun i => ?_, fun i => ?_⟩
  · -- entry i of the first table: its comparison bit is one of the bits the "all" folds
    exact finite_of_abs_lt (a2 i) (Host.reduce_andi_all _ _ _ _ ix0 e2 i)
  · exact finite_of_abs_lt (a4 i) (Host.reduce_andi_all _ _ _ _ ix0 e4 i)
  · -- word i of the first index table is ≥ 0 and below 3072, both signed; so it reads below 3072 unsigned
    exact toNat_lt_of_sge_slt (b := 3072#32) (by decide) (Host.reduce_andi_all _ _ _ _ ix0 e3lo i)
      (Host.reduce_andi_all _ _ _ _ ix0 e3hi i)
  · exact toNat_lt_of_sge_slt (b := 2000#32) (by decide) (Host.reduce_andi_all _ _ _ _ ix0 e5lo i)
      (Host.reduce_andi_all _ _ _ _ ix0 e5hi i)

end Cert.PreFacts

end
-- ==== Proof.Assembly.lean ====
/-
  The two programs compute the same function.

  Kernel side: the result buffer holds the grouped sums of the first 1000 columns of layer 2's result array; that array,
  at `(b, o)`, is the table column against the corner weights of the six layer-1 values of row `b` at the index words
  of row `o`; layer 1's array is the same over the thermometer code. Reference side: the result is the grouped sums of
  layer 2's activations, at `(b, o)` the table row halved six times over the six gathered layer-1 activations.
  The weighted sum is the folded table (`Cert.Interp.weighted_eq_folded`); the kernel's tables and index tables read,
  at natural coordinates, as the arguments do (zero padding reads as "outside the array"); an index word of the second
  table is below 2000, so layer 2 reads layer 1 only where both programs computed the same value.
-/
import proofs.«400014_j26731876450941_3_alg».proof.Defs
import proofs.«400014_j26731876450941_3_alg».proof.Proof.KCover
import proofs.«400014_j26731876450941_3_alg».proof.Proof.KHost
import proofs.«400014_j26731876450941_3_alg».proof.Proof.KernelRun
import proofs.«400014_j26731876450941_3_alg».proof.Proof.RefLayer2
import proofs.«400014_j26731876450941_3_alg».proof.Proof.PreFacts
import proofs.«400014_j26731876450941_3_alg».proof.Proof.Gen.Pre_finite_inputs
import proofs.«400014_j26731876450941_3_alg».proof.Proof.Gen.Kernel.Frame

noncomputable section

namespace Cert.Proof.Value

open Idealize.ShloMosaic Idealize.ShloMosaic.TcCoe Idealize.ShloMosaic.ValueIdx Idealize.SL.Sem Cert.Lut

/-- A rank-2 real array defined from a function of natural coordinates reads back, inside the array, as that
    function. -/
theorem at2_mk {A B : ℕ} (g : ℕ → ℕ → ℝ) (i j : ℕ) (hi : i < A) (hj : j < B) :
    at2 (fun y : (⟨2, ![A, B]⟩ : Shape).Idx => g (y 0).val (y 1).val) i j = g i j := by
  unfold at2; rw [dif_pos ⟨hi, hj⟩]; rfl

/-- Inside the array, `at2` is the array's entry. -/
theorem at2_lt {A B : ℕ} (f : (⟨2, ![A, B]⟩ : Shape).Idx → ℝ) (i j : ℕ) (hi : i < A) (hj : j < B) :
    at2 f i j = f (ix2 ⟨i, hi⟩ ⟨j, hj⟩) := by
  unfold at2; rw [dif_pos ⟨hi, hj⟩]

/-- Inside the array, `nat2` is the word read unsigned. -/
theorem nat2_lt {A B : ℕ} (f : (⟨2, ![A, B]⟩ : Shape).Idx → BitVec 32) (i j : ℕ) (hi : i < A) (hj : j < B) :
    nat2 f i j = (f (ix2 ⟨i, hi⟩ ⟨j, hj⟩)).toNat := by
  unfold nat2; rw [dif_pos ⟨hi, hj⟩]

section Core

open Cert.KernelIdeal Cert.KernelIdeal.Gen in
/-- THE TWO LAYER-2 ARRAYS AGREE. From memories agreeing on the arguments, with finite tables and index words in
    range: the first 1000 columns of the kernel's layer-2 result array are the reference's layer-2 activations. -/
theorem slice_eq_act2 (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (c : Dev KernelIdeal.nD)
    (hfin2 : ∀ i, m ((c.tc : Thread KernelIdeal.nD KernelIdeal.τ).loc KernelIdeal.main_arg2) i = (((m ((c.tc : Thread KernelIdeal.nD KernelIdeal.τ).loc KernelIdeal.main_arg2) i).toReal : ℝ) : EReal))
    (hfin4 : ∀ i, m ((c.tc : Thread KernelIdeal.nD KernelIdeal.τ).loc KernelIdeal.main_arg4) i = (((m ((c.tc : Thread KernelIdeal.nD KernelIdeal.τ).loc KernelIdeal.main_arg4) i).toReal : ℝ) : EReal))
    (hidx3 : ∀ i, (m ((c.tc : Thread KernelIdeal.nD KernelIdeal.τ).loc KernelIdeal.main_arg3) i).toNat < 3072)
    (hidx5 : ∀ i, (m ((c.tc : Thread KernelIdeal.nD KernelIdeal.τ).loc KernelIdeal.main_arg5) i).toNat < 2000)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5)) :
    extractStridedSlice KernelIdeal.S512x1000 ![0, 0] ((dat1 (F := Ideal) (V11 m ρ) c).arrAt 3 cfg1.N) slices_S512x1024_S512x1000_0_0
      = ReferenceIdeal.Stages.act2 (StableHlo.launchContents m' c) := by
  -- the kernel's arrays, layer by layer
  have hV5w0 : V5 m ρ c (Pipeline.arrRef spec0 0)
      = fun i => ((re (KernelIdeal.HostSide.thermo (m ((c.tc : Thread KernelIdeal.nD KernelIdeal.τ).loc KernelIdeal.main_arg0)) (m ((c.tc : Thread KernelIdeal.nD KernelIdeal.τ).loc KernelIdeal.main_arg1))) i : ℝ) : EReal) :=
    (KernelIdeal.HostSide.V5_w0 m ρ c).trans (funext fun i => KernelIdeal.HostSide.thermo_real _ _ i)
  have hA1 := KernelIdeal.Cover.arr0 (V5 m ρ) c _ _ hV5w0 (KernelIdeal.HostSide.V5_w2 m ρ c hfin2)
  have hV11w0 := (KernelIdeal.HostSide.V11_w0 m ρ c).trans hA1
  have hA2 := KernelIdeal.Cover.arr1 (V11 m ρ) c _ _ hV11w0 (KernelIdeal.HostSide.V11_w2 m ρ c hfin4)
  -- the reference's arrays
  have hHbR : ReferenceIdeal.Stages.thermo (StableHlo.launchContents m' c (Proc.devRef .tc ReferenceIdeal.main_arg0)) (StableHlo.launchContents m' c (Proc.devRef .tc ReferenceIdeal.main_arg1))
      = fun i => ((re (KernelIdeal.HostSide.thermo (m ((c.tc : Thread KernelIdeal.nD KernelIdeal.τ).loc KernelIdeal.main_arg0)) (m ((c.tc : Thread KernelIdeal.nD KernelIdeal.τ).loc KernelIdeal.main_arg1))) i : ℝ) : EReal) := by
    show ReferenceIdeal.Stages.thermo (m' ((c.tc : Thread ReferenceIdeal.nD ReferenceIdeal.τ).loc ReferenceIdeal.main_arg0)) (m' ((c.tc : Thread ReferenceIdeal.nD ReferenceIdeal.τ).loc ReferenceIdeal.main_arg1)) = _
    rw [e0, e1]
    exact funext fun i => KernelIdeal.HostSide.thermo_real _ _ i
  have hfin2R : ∀ i, StableHlo.launchContents m' c (Proc.devRef .tc ReferenceIdeal.main_arg2) i
      = (((StableHlo.launchContents m' c (Proc.devRef .tc ReferenceIdeal.main_arg2) i).toReal : ℝ) : EReal) := by
    show ∀ i, m' ((c.tc : Thread ReferenceIdeal.nD ReferenceIdeal.τ).loc ReferenceIdeal.main_arg2) i
      = (((m' ((c.tc : Thread ReferenceIdeal.nD ReferenceIdeal.τ).loc ReferenceIdeal.main_arg2) i).toReal : ℝ) : EReal)
    rw [e2]; exact hfin2
  have hfin4R : ∀ i, StableHlo.launchContents m' c (Proc.devRef .tc ReferenceIdeal.main_arg4) i
      = (((StableHlo.launchContents m' c (Proc.devRef .tc ReferenceIdeal.main_arg4) i).toReal : ℝ) : EReal) := by
    show ∀ i, m' ((c.tc : Thread ReferenceIdeal.nD ReferenceIdeal.τ).loc ReferenceIdeal.main_arg4) i
      = (((m' ((c.tc : Thread ReferenceIdeal.nD ReferenceIdeal.τ).loc ReferenceIdeal.main_arg4) i).toReal : ℝ) : EReal)
    rw [e4]; exact hfin4
  have hidx3R : ∀ i, (StableHlo.launchContents m' c (Proc.devRef .tc ReferenceIdeal.main_arg3) i).toNat < 3072 := by
    show ∀ i, (m' ((c.tc : Thread ReferenceIdeal.nD ReferenceIdeal.τ).loc ReferenceIdeal.main_arg3) i).toNat < 3072
    rw [e3]; exact hidx3
  have hidx5R : ∀ i, (StableHlo.launchContents m' c (Proc.devRef .tc ReferenceIdeal.main_arg5) i).toNat < 2000 := by
    show ∀ i, (m' ((c.tc : Thread ReferenceIdeal.nD ReferenceIdeal.τ).loc ReferenceIdeal.main_arg5) i).toNat < 2000
    rw [e5]; exact hidx5
  -- the reference's layer 1 is a real array
  have hH1 : ReferenceIdeal.Stages.act1 (StableHlo.launchContents m' c) = fun i : ReferenceIdeal.S512x2000.Idx =>
      ((Cert.Interp.folded (fun c' => at2 (re (StableHlo.launchContents m' c (Proc.devRef .tc ReferenceIdeal.main_arg2))) (i 1).val c')
        (fun k => at2 (re (KernelIdeal.HostSide.thermo (m ((c.tc : Thread KernelIdeal.nD KernelIdeal.τ).loc KernelIdeal.main_arg0)) (m ((c.tc : Thread KernelIdeal.nD KernelIdeal.τ).loc KernelIdeal.main_arg1)))) (i 0).val
          (nat2 (StableHlo.launchContents m' c (Proc.devRef .tc ReferenceIdeal.main_arg3)) (i 1).val k.val)) : ℝ) : EReal) :=
    funext fun i => (congrArg (ReferenceIdeal.Stages.act1 (StableHlo.launchContents m' c)) (eq_ix2 i)).trans
      (ReferenceIdeal.Stages.act1_apply (StableHlo.launchContents m' c) _ hHbR hfin2R hidx3R (i 0) (i 1))
  -- the two arrays at one index
  funext i
  have hb : (i 0).val < 512 := idx2_lt0 i
  have ho : (i 1).val < 1000 := idx2_lt1 i
  refine (extractStridedSlice_apply ![0, 0] _ slices_S512x1024_S512x1000_0_0 i (ix2 ⟨(i 0).val, hb⟩ ⟨(i 1).val, by omega⟩)
    (fun a => by match a with | ⟨0, _⟩ => simp | ⟨1, _⟩ => simp)).trans ?_
  rw [hA2]
  refine Eq.trans ?_ ((congrArg (ReferenceIdeal.Stages.act2 (StableHlo.launchContents m' c)) (eq_ix2 i)).trans
    (ReferenceIdeal.Stages.act2_apply (StableHlo.launchContents m' c) _ hH1 hfin4R hidx5R (i 0) (i 1))).symm
  have hV2 : StableHlo.launchContents m' c (Proc.devRef .tc ReferenceIdeal.main_arg2) = m ((c.tc : Thread KernelIdeal.nD KernelIdeal.τ).loc KernelIdeal.main_arg2) := e2
  have hV3 : StableHlo.launchContents m' c (Proc.devRef .tc ReferenceIdeal.main_arg3) = m ((c.tc : Thread KernelIdeal.nD KernelIdeal.τ).loc KernelIdeal.main_arg3) := e3
  have hV4 : StableHlo.launchContents m' c (Proc.devRef .tc ReferenceIdeal.main_arg4) = m ((c.tc : Thread KernelIdeal.nD KernelIdeal.τ).loc KernelIdeal.main_arg4) := e4
  have hV5 : StableHlo.launchContents m' c (Proc.devRef .tc ReferenceIdeal.main_arg5) = m ((c.tc : Thread KernelIdeal.nD KernelIdeal.τ).loc KernelIdeal.main_arg5) := e5
  rw [hV2, hV3, hV4, hV5]
  show ((Cert.Interp.weighted _ _ : ℝ) : EReal) = _
  rw [Cert.Interp.weighted_eq_folded]
  refine congrArg (fun r : ℝ => (r : EReal)) (Cert.Interp.folded_congr (fun c' hc' => ?_) (fun k => ?_))
  · -- the second table, transposed and padded, read back
    exact at2_lt _ c' (i 1).val hc' (by omega)
  · -- a gathered layer-1 value: the index word is below 2000, where the two layer-1 arrays agree
    rw [KernelIdeal.HostSide.V11_w1_nat m ρ c]
    have hn : nat2 (m ((c.tc : Thread KernelIdeal.nD KernelIdeal.τ).loc KernelIdeal.main_arg5)) (i 1).val k.val < 2000 := by
      rw [nat2_lt _ (i 1).val k.val ho k.isLt]; exact hidx5 _
    generalize nat2 (m ((c.tc : Thread KernelIdeal.nD KernelIdeal.τ).loc KernelIdeal.main_arg5)) (i 1).val k.val = n at hn
    rw [at2_lt _ (i 0).val n hb (by omega), at2_lt _ (i 0).val n hb hn]
    show Cert.Interp.weighted _ _ = Cert.Interp.folded _ _
    rw [Cert.Interp.weighted_eq_folded]
    refine Cert.Interp.folded_congr (fun c' hc' => ?_) (fun k' => ?_)
    · exact at2_lt _ c' n hc' (by omega)
    · exact congrArg _ (KernelIdeal.HostSide.V5_w1_nat m ρ c n k'.val)

end Core

section Claims

open Cert.KernelIdeal Cert.KernelIdeal.Gen in
/-- The two idealized programs, run from memories agreeing on the arguments, end with equal results: the kernel's
    result buffer and the reference's are the grouped sums of one [512, 1000] array. -/
theorem algebraic : Cert.algebraic_KernelIdeal_ReferenceIdeal := by
  intro m ρ m' ρ' hpre hagree
  refine ⟨fun c => grouped shapeCasts_S512x1000_S512x10x100 reducesTo_S512x10x100_S512x10_d2 h_S_ bcast_S_S512x10
      (extractStridedSlice KernelIdeal.S512x1000 ![0, 0] ((dat1 (F := Ideal) (V11 m ρ) c).arrAt 3 cfg1.N) slices_S512x1024_S512x1000_0_0), ?_, ?_⟩
  · exact (θ_run _ _ _).mono (fun r h c => ⟨(h c).1.trans (KernelIdeal.HostSide.W13_result m ρ c), (h c).2⟩)
      (KernelIdeal.GenRun.run_result (F := Ideal) m ρ)
  · refine (θ_run _ _ _).mono (fun r h c => ⟨(h c).1.trans ?_, (h c).2⟩) (ReferenceIdeal.Stages.run_grouped m' ρ')
    obtain ⟨hf2, hf4, hi3, hi5⟩ := Cert.PreFacts.of_pre _ _ _ _ _ _ (hpre c)
    obtain ⟨e0, e1, e2, e3, e4, e5⟩ := hagree c
    rw [← slice_eq_act2 m ρ m' c hf2 hf4 hi3 hi5 e0 e1 e2 e3 e4 e5]

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- The one rewrite of the idealization: widening back a value just narrowed to bf16 is, on extended reals, the value. -/
theorem preserves : Cert.preserves_Kernel_KernelIdeal := IdealRules.truncf_extf.statement _ .f32 .bf16

end Claims

end Cert.Proof.Value

end
-- ==== Proof.lean ====
/-
  The certificate: the look-up-table network's kernel against its reference, over the extended reals.

  Both programs thermometer-encode `x` against `thresholds`, run two look-up layers (gather six activations per output
  column, interpolate the column's 64-entry table multilinearly at them) and end with grouped sums. The kernel gathers
  by a product with an indicator column and interpolates by a weighted sum over the 64 corners; the reference gathers by
  indexing and interpolates by halving the table six times. Under the precondition — the float inputs finite, every
  index word in range of the array the reference indexes with it — the two are one function (`Assembly.lean`):
  the frames are the generated ones, the reference's its run with the result forgotten, the idealization's one rewrite
  is the rule's own statement.
-/
import proofs.«400014_j26731876450941_3_alg».proof.Defs
import proofs.«400014_j26731876450941_3_alg».proof.Proof.Assembly
import proofs.«400014_j26731876450941_3_alg».proof.Proof.Gen.Kernel
import proofs.«400014_j26731876450941_3_alg».proof.Proof.Gen.KernelIdeal
import proofs.«400014_j26731876450941_3_alg».proof.Proof.Gen.ReferenceIdeal
import proofs.«400014_j26731876450941_3_alg».proof.Proof.Gen.Pre_finite_inputs

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Value.frame_kernel, Cert.Proof.Value.frame_kernelIdeal, Cert.Proof.Value.frame_referenceIdeal,
    Cert.Proof.Value.preserves, Cert.Proof.Value.algebraic⟩

end Cert.Proof

end
